-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_temperature" .f32 0x41649249#32 ((134217728 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S16384 : Shape := ⟨1, ![16384]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S16384 : S_.BroadcastsInDim S16384 (![] : Fin 0 → Fin S16384.rank)
  reducesTo_S16384_S_d0 : S16384.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S16384x256 .f32) (main_arg1 : FVec F S16384x256 .f32) (main_arg2 : IVec S16384 32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S16384x256 .f32 := Host.absf main_arg1
  let main_cst_0 : FVec F S_ .f32 := constant S_ .f32 0x7F800000#32
  let main_v5 : FVec F S16384x256 .f32 := broadcastInDim S16384x256 ![] bcast_S_S16384x256 main_cst_0
  let main_v6 : IVec S16384x256 1 := cmpf .olt main_v4 main_v5
  let main_c_1 : IVec S_ 1 := constantI S_ 1 1#1
  let main_v7 : IVec S_ 1 := (fun x v => Host.reduce IntOp.andi x v reducesTo_S16384x256_S_d0_1 h_S_) main_v6 main_c_1
  let main_v8 : IVec S_ 1 := andi main_v3 main_v7
  let main_c_2 : IVec S_ 32 := constantI S_ 32 0#32
  let main_v9 : IVec S16384 32 := broadcastInDim S16384 ![] bcast_S_S16384 main_c_2
  let main_v10 : IVec S16384 1 := cmpi .sge main_arg2 main_v9
  let main_c_3 : IVec S_ 1 := constantI S_ 1 1#1
  let main_v11 : IVec S_ 1 := (fun x v => Host.reduce IntOp.andi x v reducesTo_S16384_S_d0 h_S_) main_v10 main_c_3
  let main_v12 : IVec S_ 1 := andi main_v8 main_v11
  let main_c_4 : IVec S_ 32 := constantI S_ 32 16384#32
  let main_v13 : IVec S16384 32 := broadcastInDim S16384 ![] bcast_S_S16384 main_c_4
  let main_v14 : IVec S16384 1 := cmpi .slt main_arg2 main_v13
  let main_c_5 : IVec S_ 1 := constantI S_ 1 1#1
  let main_v15 : IVec S_ 1 := (fun x v => Host.reduce IntOp.andi x v reducesTo_S16384_S_d0 h_S_) main_v14 main_c_5
  fn_part1 (F := F) main_v12 main_v15
-- ==== Kernel.lean ====
abbrev S16384x256 : Shape := ⟨2, ![16384, 256]⟩
abbrev S16384 : Shape := ⟨1, ![16384]⟩
abbrev S16384x1 : Shape := ⟨2, ![16384, 1]⟩
abbrev S2048x256 : Shape := ⟨2, ![2048, 256]⟩
abbrev S512x256 : Shape := ⟨2, ![512, 256]⟩
abbrev S2048x1 : Shape := ⟨2, ![2048, 1]⟩
abbrev S2048 : Shape := ⟨1, ![2048]⟩
abbrev S512 : Shape := ⟨1, ![512]⟩
abbrev S512x1 : Shape := ⟨2, ![512, 1]⟩
abbrev S256x512 : Shape := ⟨2, ![256, 512]⟩
abbrev S2048x512 : Shape := ⟨2, ![2048, 512]⟩
abbrev S_ : Shape := ⟨0, ![]⟩

abbrev nBuf : Space → Nat
  | .hbm => 45
  | .vmem => 8
  | .smem => 0
  | _ => 0

abbrev bufTy : (tb : Table) → Fin (tcTables nBuf tb) → BufTy
  | .hbm, ⟨0, _⟩ => ⟨S16384x256, .f32⟩
  | .hbm, ⟨1, _⟩ => ⟨S16384x256, .f32⟩
  | .hbm, ⟨2, _⟩ => ⟨S16384, .i32⟩
  | .hbm, ⟨3, _⟩ => ⟨S16384x1, .f32⟩
  | .hbm, ⟨4, _⟩ => ⟨S16384, .f32⟩
  | .hbm, ⟨5, _⟩ => ⟨S_, .i32⟩
  | .hbm, ⟨6, _⟩ => ⟨S16384, .i32⟩
  | .hbm, ⟨7, _⟩ => ⟨S16384, .i1⟩
  | .hbm, ⟨8, _⟩ => ⟨S_, .i32⟩
  | .hbm, ⟨9, _⟩ => ⟨S16384, .i32⟩
  | .hbm, ⟨10, _⟩ => ⟨S16384, .i32⟩
  | .hbm, ⟨11, _⟩ => ⟨S16384, .i32⟩
  | .hbm, ⟨12, _⟩ => ⟨S16384x1, .i32⟩
  | .hbm, ⟨13, _⟩ => ⟨S16384x256, .f32⟩
  | .hbm, ⟨14, _⟩ => ⟨S16384x256, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x256, .f32⟩
  | .hbm, ⟨23, _⟩ => ⟨S16384x256, .f32⟩
  | .hbm, ⟨24, _⟩ => ⟨S16384x256, .f32⟩
  | .hbm, ⟨25, _⟩ => ⟨S_, .f32⟩
  | .hbm, ⟨26, _⟩ => ⟨S16384, .f32⟩
  | .hbm, ⟨27, _⟩ => ⟨S16384x1, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x256, .f32⟩
  | .hbm, ⟨33, _⟩ => ⟨S16384x256, .f32⟩
  | .hbm, ⟨34, _⟩ => ⟨S16384x256, .f32⟩
  | .hbm, ⟨35, _⟩ => ⟨S_, .f32⟩
  | .hbm, ⟨36, _⟩ => ⟨S16384, .f32⟩
  | .hbm, ⟨37, _⟩ => ⟨S_, .f32⟩
  | .hbm, ⟨38, _⟩ => ⟨S16384, .f32⟩
  | .hbm, ⟨39, _⟩ => ⟨S16384, .f32⟩
  | .hbm, ⟨40, _⟩ => ⟨S16384, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .local _ .vmem, ⟨0, _⟩ => ⟨S2048x256, .f32⟩
  | .local _ .vmem, ⟨1, _⟩ => ⟨S2048x256, .f32⟩
  | .local _ .vmem, ⟨2, _⟩ => ⟨S512x256, .f32⟩
  | .local _ .vmem, ⟨3, _⟩ => ⟨S512x256, .f32⟩
  | .local _ .vmem, ⟨4, _⟩ => ⟨S2048x1, .f32⟩
  | .local _ .vmem, ⟨5, _⟩ => ⟨S2048x1, .f32⟩
  | .local _ .vmem, ⟨6, _⟩ => ⟨S2048x1, .f32⟩
  | .local _ .vmem, ⟨7, _⟩ => ⟨S2048x1, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 32], ![false, false]⟩

def k0_cond2 (i : grid0.Coords) : BitVec 1 :=
  let arg1 : BitVec 32 := BitVec.ofNat 32 (i 1).val
  let c31_i32 : BitVec 32 := 31#32
  let v47 : BitVec 1 := Scalar.cmpi .eq arg1 c31_i32
  let v48 : BitVec 32 := Scalar.extui v47
  let c0_i32_19 : BitVec 32 := 0#32
  let v49 : BitVec 1 := Scalar.cmpi .ne v48 c0_i32_19
  v49

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x256_S2048x256_0_0 : ∀ a, (![0, 0] : Fin 2 → Nat) a + S2048x256.size a ≤ S2048x256.size a
  h_S2048x256 : 0 < S2048x256.numel
  inb_S512x256_S512x256_0_0 : ∀ a, (![0, 0] : Fin 2 → Nat) a + S512x256.size a ≤ S512x256.size a
  h_S512x256 : 0 < S512x256.numel
  reduces_S2048x256_S2048 : S2048x256.Reduces [1] S2048
  shapeCasts_S2048_S2048x1 : S2048.ShapeCasts S2048x1
  broadcasts_S2048x1_S2048x256 : S2048x1.Broadcasts S2048x256
  reduces_S512x256_S512 : S512x256.Reduces [1] S512
  shapeCasts_S512_S512x1 : S512.ShapeCasts S512x1
  broadcasts_S512x1_S512x256 : S512x1.Broadcasts S512x256
  bitsLt_bf16_f32 : FTy.bits .bf16 < FTy.bits .f32
  transposes_S512x256_p1_0_S256x512 : S512x256.Transposes [1, 0] S256x512
  reduces_S2048x512_S2048 : S2048x512.Reduces [1] S2048
  broadcasts_S2048x1_S2048x512 : S2048x1.Broadcasts S2048x512
  shapeCasts_S16384x1_S16384 : S16384x1.ShapeCasts S16384
  bcast_S_S16384 : S_.BroadcastsInDim S16384 (![] : Fin 0 → Fin S16384.rank)
  bcast_S16384_S16384x1_0 : S16384.BroadcastsInDim S16384x1 (![0] : Fin 1 → Fin S16384x1.rank)
  reducesTo_S16384x256_S16384_d1 : S16384x256.ReducesTo [1] S16384
  h_S_ : 0 < S_.numel
  bcast_S_S16384x1 : S_.BroadcastsInDim S16384x1 (![] : Fin 0 → Fin S16384x1.rank)
  bcast_S16384x1_S16384x256_0_1 : S16384x1.BroadcastsInDim S16384x256 (![0, 1] : Fin 2 → Fin S16384x256.rank)
  reducesTo_S16384_S_d0 : S16384.ReducesTo [0] S_
  dot_S2048x256_S256x512_S2048x512_1_0_0_1_n_n_wf : DotDims.WF S2048x256 S256x512 S2048x512 [1] [0] [0] [1] [] []
  gather_S16384x256_S16384x1_S16384x256_1_0_n_n_0_1_1256_wf : GatherDims.WF S16384x256 S16384x1 S16384x256 [1] [0] [] [0] [] 1 ![1, 256]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S16384x256.size a
  hwx0_0 : ∀ i : grid0.Coords, EltTy.bits .f32 = 32 ∨ (Rect.block (s := S16384x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S16384x256.size a
  hwx0_1 : ∀ i : grid0.Coords, EltTy.bits .f32 = 32 ∨ (Rect.block (s := S16384x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S16384x1.size a
  hwx0_2 : ∀ i : grid0.Coords, EltTy.bits .f32 = 32 ∨ (Rect.block (s := S16384x1) S2048x1.size (cc0_transform_2 i) (hinb0_2 i)).WholeWords (EltTy.packing .f32)

variable [Facts₀]

def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf
def gather_S16384x256_S16384x1_S16384x256_1_0_n_n_0_1_1256 : GatherDims S16384x256 S16384x1 S16384x256 where
  offsetDims := [1]
  collapsedSliceDims := [0]
  operandBatchingDims := []
  startIndicesBatchingDims := []
  startIndexMap := [0]
  indexVectorDim := 1
  sliceSizes := ![1, 256]
  wf := gather_S16384x256_S16384x1_S16384x256_1_0_n_n_0_1_1256_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16384x256 : Shape := ⟨2, ![16384, 256]⟩
abbrev S16384 : Shape := ⟨1, ![16384]⟩
abbrev S_ : Shape := ⟨0, ![]⟩
abbrev S16384x1 : Shape := ⟨2, ![16384, 1]⟩
abbrev S16384x16384 : Shape := ⟨2, ![16384, 16384]⟩
abbrev S16384x1x1 : Shape := ⟨3, ![16384, 1, 1]⟩
abbrev S1 : Shape := ⟨1, ![1]⟩
abbrev S1x1x1 : Shape := ⟨3, ![1, 1, 1]⟩

abbrev nBuf : Space → Nat
  | .hbm => 71
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S16384x256, .f32⟩
  | .hbm, ⟨2, _⟩ => ⟨S16384, .i32⟩
  | .hbm, ⟨3, _⟩ => ⟨S16384x256, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S16384x256, .f32⟩
  | .hbm, ⟨12, _⟩ => ⟨S16384x256, .f32⟩
  | .hbm, ⟨13, _⟩ => ⟨S16384x256, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x256, .f32⟩
  | .hbm, ⟨22, _⟩ => ⟨S16384x256, .f32⟩
  | .hbm, ⟨23, _⟩ => ⟨S16384x16384, .f32⟩
  | .hbm, ⟨24, _⟩ => ⟨S_, .f32⟩
  | .hbm, ⟨25, _⟩ => ⟨S16384x16384, .f32⟩
  | .hbm, ⟨26, _⟩ => ⟨S16384x16384, .f32⟩
  | .hbm, ⟨27, _⟩ => ⟨S_, .f32⟩
  | .hbm, ⟨28, _⟩ => ⟨S16384, .f32⟩
  | .hbm, ⟨29, _⟩ => ⟨S_, .f32⟩
  | .hbm, ⟨30, _⟩ => ⟨S16384, .f32⟩
  | .hbm, ⟨31, _⟩ => ⟨S16384, .f32⟩
  | .hbm, ⟨32, _⟩ => ⟨S16384x1, .f32⟩
  | .hbm, ⟨33, _⟩ => ⟨S16384x16384, .f32⟩
  | .hbm, ⟨34, _⟩ => ⟨S16384x16384, .f32⟩
  | .hbm, ⟨35, _⟩ => ⟨S16384x16384, .f32⟩
  | .hbm, ⟨36, _⟩ => ⟨S_, .f32⟩
  | .hbm, ⟨37, _⟩ => ⟨S16384, .f32⟩
  | .hbm, ⟨38, _⟩ => ⟨S16384x1, .f32⟩
  | .hbm, ⟨39, _⟩ => ⟨S16384x1, .f32⟩
  | .hbm, ⟨40, _⟩ => ⟨S16384x16384, .f32⟩
  | .hbm, ⟨41, _⟩ => ⟨S16384x16384, .f32⟩
  | .hbm, ⟨42, _⟩ => ⟨S16384x1, .i32⟩
  | .hbm, ⟨43, _⟩ => ⟨S_, .i32⟩
  | .hbm, ⟨44, _⟩ => ⟨S16384x1, .i32⟩
  | .hbm, ⟨45, _⟩ => ⟨S16384x1, .i1⟩
  | .hbm, ⟨46, _⟩ => ⟨S_, .i32⟩
  | .hbm, ⟨47, _⟩ => ⟨S16384x1, .i32⟩
  | .hbm, ⟨48, _⟩ => ⟨S16384x1, .i32⟩
  | .hbm, ⟨49, _⟩ => ⟨S16384x1, .i32⟩
  | .hbm, ⟨50, _⟩ => ⟨S16384x1x1, .i32⟩
  | .hbm, ⟨51, _⟩ => ⟨S1, .i32⟩
  | .hbm, ⟨52, _⟩ => ⟨S_, .i32⟩
  | .hbm, ⟨53, _⟩ => ⟨S16384x1x1, .i32⟩
  | .hbm, ⟨54, _⟩ => ⟨S16384x1x1, .i1⟩
  | .hbm, ⟨55, _⟩ => ⟨S1x1x1, .i32⟩
  | .hbm, ⟨56, _⟩ => ⟨S16384x1x1, .i32⟩
  | .hbm, ⟨57, _⟩ => ⟨S16384x1x1, .i1⟩
  | .hbm, ⟨58, _⟩ => ⟨S16384x1x1, .i1⟩
  | .hbm, ⟨59, _⟩ => ⟨S_, .i1⟩
  | .hbm, ⟨60, _⟩ => ⟨S16384x1, .i1⟩
  | .hbm, ⟨61, _⟩ => ⟨S16384x1, .f32⟩
  | .hbm, ⟨62, _⟩ => ⟨S_, .f32⟩
  | .hbm, ⟨63, _⟩ => ⟨S16384x1, .f32⟩
  | .hbm, ⟨64, _⟩ => ⟨S16384x1, .f32⟩
  | .hbm, ⟨65, _⟩ => ⟨S16384, .f32⟩
  | .hbm, ⟨66, _⟩ => ⟨S16384, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_call0_cst : Ref sig .tc := ⟨.hbm, 27, rfl⟩
abbrev main_call0_v0 : Ref sig .tc := ⟨.hbm, 28, rfl⟩
abbrev main_call0_cst_0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_v6 : Ref sig .tc := ⟨.hbm, 35, rfl⟩
abbrev main_call0_cst_1 : Ref sig .tc := ⟨.hbm, 36, rfl⟩
abbrev main_call0_v7 : Ref sig .tc := ⟨.hbm, 37, rfl⟩
abbrev main_call0_v8 : Ref sig .tc := ⟨.hbm, 38, rfl⟩
abbrev main_call0_v9 : Ref sig .tc := ⟨.hbm, 39, rfl⟩
abbrev main_call0_v10 : Ref sig .tc := ⟨.hbm, 40, rfl⟩
abbrev main_v19 : Ref sig .tc := ⟨.hbm, 41, rfl⟩
abbrev main_v20 : Ref sig .tc := ⟨.hbm, 42, rfl⟩
abbrev main_call1_c : Ref sig .tc := ⟨.hbm, 43, rfl⟩
abbrev main_call1_v0 : Ref sig .tc := ⟨.hbm, 44, rfl⟩
abbrev main_call1_v1 : Ref sig .tc := ⟨.hbm, 45, rfl⟩
abbrev main_call1_c_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_c_1 : Ref sig .tc := ⟨.hbm, 51, rfl⟩
abbrev main_call1_c_2 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_c_3 : Ref sig .tc := ⟨.hbm, 59, rfl⟩
abbrev main_call1_v12 : Ref sig .tc := ⟨.hbm, 60, rfl⟩
abbrev main_call1_v13 : Ref sig .tc := ⟨.hbm, 61, rfl⟩
abbrev main_call1_cst : Ref sig .tc := ⟨.hbm, 62, rfl⟩
abbrev main_call1_v14 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_cst_4 : Ref sig .tc := ⟨.hbm, 67, rfl⟩
abbrev main_v24 : Ref sig .tc := ⟨.hbm, 68, rfl⟩
abbrev main_cst_5 : Ref sig .tc := ⟨.hbm, 69, rfl⟩
abbrev main_v25 : Ref sig .tc := ⟨.hbm, 70, rfl⟩

abbrev nD : Nat := 1
abbrev τ : Topo := Topo.v7x

variable {F : FTy → Type} [FloatOps F]

class Facts₀ : Prop where
  reducesTo_S16384x256_S16384_d1 : S16384x256.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x256_0_1 : S16384x1.BroadcastsInDim S16384x256 (![0, 1] : Fin 2 → Fin S16384x256.rank)
  bcast_S_S16384x16384 : S_.BroadcastsInDim S16384x16384 (![] : Fin 0 → Fin S16384x16384.rank)
  reducesTo_S16384x16384_S16384_d1 : S16384x16384.ReducesTo [1] S16384
  bcast_S_S16384 : S_.BroadcastsInDim S16384 (![] : Fin 0 → Fin S16384.rank)
  bcast_S16384x1_S16384x16384_0_1 : S16384x1.BroadcastsInDim S16384x16384 (![0, 1] : Fin 2 → Fin S16384x16384.rank)
  shapeCasts_S16384x1_S16384x1x1 : S16384x1.ShapeCasts S16384x1x1
  bcast_S_S16384x1x1 : S_.BroadcastsInDim S16384x1x1 (![] : Fin 0 → Fin S16384x1x1.rank)
  bcast_S1_S1x1x1_2 : S1.BroadcastsInDim S1x1x1 (![2] : Fin 1 → Fin S1x1x1.rank)
  bcast_S1x1x1_S16384x1x1_0_1_2 : S1x1x1.BroadcastsInDim S16384x1x1 (![0, 1, 2] : Fin 3 → Fin S16384x1x1.rank)
  reducesTo_S16384x1x1_S16384x1_d2 : S16384x1x1.ReducesTo [2] S16384x1
  shapeCasts_S16384x1_S16384 : S16384x1.ShapeCasts S16384
  reducesTo_S16384_S_d0 : S16384.ReducesTo [0] S_
  dot_S16384x256_S16384x256_S16384x16384_1_1_0_0_n_n_wf : DotDims.WF S16384x256 S16384x256 S16384x16384 [1] [1] [0] [0] [] []
  gather_S16384x16384_S16384x1x1_S16384x1_n_1_0_0_1_2_11_wf : GatherDims.WF S16384x16384 S16384x1x1 S16384x1 [] [1] [0] [1] [0] 2 ![1, 1]

variable [Facts₀]

def dot_S16384x256_S16384x256_S16384x16384_1_1_0_0_n_n : DotDims S16384x256 S16384x256 S16384x16384 where
  lhsContracting := [1]
  rhsContracting := [1]
  lhsNonContracting := [0]
  rhsNonContracting := [0]
  lhsBatch := []
  rhsBatch := []
  wf := dot_S16384x256_S16384x256_S16384x16384_1_1_0_0_n_n_wf
def gather_S16384x16384_S16384x1x1_S16384x1_n_1_0_0_1_2_11 : GatherDims S16384x16384 S16384x1x1 S16384x1 where
  offsetDims := []
  collapsedSliceDims := [1]
  operandBatchingDims := [0]
  startIndicesBatchingDims := [0]
  startIndexMap := [1]
  indexVectorDim := 2
  sliceSizes := ![1, 1]
  wf := gather_S16384x16384_S16384x1x1_S16384x1_n_1_0_0_1_2_11_wf

class Facts : Prop extends Facts₀ where

variable [Facts]
-- ==== Proof.PreDecode.lean ====
/-
  The precondition read back: when the printed predicate holds, every entry of the two float inputs is a real number
  (its absolute value is below plus infinity) and every target word, read signed, lies in 0 … 16383 (it is at least
  zero and below 16384), so that read unsigned it is below 16384.
-/
import proofs.«417422_j41145786695939_1_alg».proof.Pre_finite_inputs
import Idealize.ShloMosaic.PureOps.Ideal
import Idealize.ShloMosaic.PureOps.Ideal.Laws
import Idealize.ShloMosaic.Lib.ReduceAll
import Idealize.ShloMosaic.Lib.StableHlo.Predicate
import Idealize.ShloMosaic.Lib.ValueIdx

noncomputable section

namespace Cert.PreDecode

open Idealize.ShloMosaic Cert.Pre_finite_inputs

variable [Cert.Pre_finite_inputs.Facts]

/-- The rank-0 shape has one index. -/
private instance subsingleton_S_Idx : Subsingleton S_.Idx := ⟨fun a b => funext fun d => d.elim0⟩

/-- The word 0x7F800000 denotes plus infinity. -/
private theorem ofBits_inf : Ideal.ofBits .f32 0x7F800000#32 = (⊤ : EReal) := by
  simp [Ideal.ofBits, Ideal.ieee]

/-- An extended real whose absolute value max x (-x) is strictly below plus infinity is a real number: the absolute
    value of either infinity is plus infinity. -/
private theorem real_of_abs_lt_inf (x : Ideal .f32)
    (hx : FloatOps.cmpf .olt (FloatOps.hostAbsf x) (FloatOps.ofBits (F := Ideal) .f32 0x7F800000#32) = 1#1) :
    ∃ r : ℝ, x = ((r : ℝ) : EReal) := by
  have hlt : max (x : EReal) (-x) < ⊤ := by
    have h1 : Ideal.cmp .olt (max (x : EReal) (-x)) (Ideal.ofBits .f32 0x7F800000#32) = 1#1 := hx
    rw [ofBits_inf] at h1
    simpa [Ideal.cmp, StableHlo.Predicate.ofBool_eq_one_iff] using h1
  induction x using EReal.rec with
  | bot => simp at hlt
  | coe r => exact ⟨r, rfl⟩
  | top => simp at hlt

/-- A 32-bit word that, read signed, is at least 0 and below 16384 is below 16384 read unsigned. -/
private theorem toNat_lt_of_signed (w : BitVec 32) (h0 : IntOp.cmpi .sge w 0#32 = 1#1)
    (h1 : IntOp.cmpi .slt w 16384#32 = 1#1) : w.toNat < 16384 := by
  have a := IntOp.cmpi_sge.1 h0
  have b := IntOp.cmpi_slt.1 h1
  have e0 : (0#32 : BitVec 32).toInt = 0 := by decide
  have e1 : (16384#32 : BitVec 32).toInt = 16384 := by decide
  rw [e0] at a
  rw [e1] at b
  have hw := w.isLt
  rw [BitVec.toInt_eq_toNat_cond] at a b
  split at a <;> omega

/-- The predicate all ones: both float inputs hold reals, and every target word is below 16384 read unsigned. -/
theorem decode (A C : FVec Ideal S16384x256 .f32) (T : IVec S16384 32)
    (h : Cert.Pre_finite_inputs.fn (F := Ideal) A C T = fun _ => 1#1) :
    (∀ i, ∃ r : ℝ, A i = ((r : ℝ) : EReal)) ∧ (∀ i, ∃ r : ℝ, C i = ((r : ℝ) : EReal)) ∧ (∀ i, (T i).toNat < 16384) := by
  have e := congrFun h ValueIdx.ix0
  unfold Cert.Pre_finite_inputs.fn Cert.Pre_finite_inputs.fn_part1 at e
  dsimp only at e
  simp only [andi] at e
  rw [IntOp.andi_eq_one, IntOp.andi_eq_one, IntOp.andi_eq_one] at e
  obtain ⟨⟨⟨eA, eC⟩, eT0⟩, eT1⟩ := e
  have hA := Host.reduce_andi_all _ _ _ _ _ eA
  have hC := Host.reduce_andi_all _ _ _ _ _ eC
  have hT0 := Host.reduce_andi_all _ _ _ _ _ eT0
  have hT1 := Host.reduce_andi_all _ _ _ _ _ eT1
  exact ⟨fun i => real_of_abs_lt_inf (A i) (hA i), fun i => real_of_abs_lt_inf (C i) (hC i),
    fun i => toNat_lt_of_signed (T i) (hT0 i) (hT1 i)⟩

end Cert.PreDecode

end
-- ==== Proof.KernelSteps.lean ====
/-
  One grid point of the kernel as pure functions of its two input blocks and of the two carried columns (the running
  maximum and the running sum of exponentials): the new running maximum, the new running sum, the output column, and
  the values the carried columns are reset to at a row tile's first point.
-/
import proofs.«417422_j41145786695939_1_alg».proof.Proof.Gen.KernelIdeal.Skeleton

noncomputable section

namespace Cert.KernelIdeal.Steps

open Cert.KernelIdeal Cert.KernelIdeal.Gen Idealize.ShloMosaic

variable {F : FTy → Type} [FloatOps F] [Named F]

/-- The running maximum after a point: the maximum of the carried one and the tile's row maxima. -/
def stepM (x0 : Vec F S2048x256 .f32) (x1 : Vec F S512x256 .f32) (mu : Vec F S2048x1 .f32) : Vec F S2048x1 .f32 :=
  k0_pay2 (k0_pay7 x0 x1 mu)

/-- The running sum after a point: the carried one rescaled by the exponential of the maximum's move, plus the tile's
    row sums of exponentials. -/
def stepL (x0 : Vec F S2048x256 .f32) (x1 : Vec F S512x256 .f32) (mu lam : Vec F S2048x1 .f32) : Vec F S2048x1 .f32 :=
  k0_pay1 (k0_pay8 x0 x1 mu lam) (k0_pay9 x0 x1 mu)

/-- The output column: the running maximum plus the logarithm of the running sum. -/
def outV (mu lam : Vec F S2048x1 .f32) : Vec F S2048x1 .f32 := k0_pay3 mu lam

/-- The values the two carried columns are reset to: minus infinity and zero. -/
def mu0 : Vec F S2048x1 .f32 := k0_pay4
def lam0 : Vec F S2048x1 .f32 := k0_pay5

end Cert.KernelIdeal.Steps

end
-- ==== Proof.KernelPieces.lean ====
/-
  What one grid point of the kernel leaves behind, as pure functions of its two input blocks and of the two carried
  columns (the running maximum and the running sum): the new running maximum, the new running sum, and, at a row
  tile's last point, the output column. At a row tile's first point the carried columns are first reset to minus
  infinity and zero.
-/
import proofs.«417422_j41145786695939_1_alg».proof.Proof.Gen.KernelIdeal.Frame
import proofs.«417422_j41145786695939_1_alg».proof.Proof.KernelSteps
import Idealize.ShloMosaic.Lib.Pipeline.Value
import Idealize.ShloMosaic.Lib.Tactic

set_option maxRecDepth 16384

noncomputable section

namespace Cert.KernelIdeal.Pieces

open Cert.KernelIdeal Cert.KernelIdeal.Gen Cert.KernelIdeal.Steps
open Idealize.ShloMosaic Idealize.ShloMosaic.TcCoe Idealize.ShloMosaic.Tactic Idealize.SL.Sem

variable {F : FTy → Type} [FloatOps F] [Named F]

/-- The offsets of every load and store of the body are zero: each reads or writes its whole block. -/
private theorem hz : (![0, 0] : Fin 2 → Nat) = fun _ => 0 := funext fun a => by fin_cases a <;> rfl

/-- At a row tile's first point the running maximum is reset to minus infinity, read back, and updated: the column ends
    holding the update of the reset value (the later of its two stores covers the earlier). -/
theorem sout0_A_0_eq (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : cond0_0 i) (hc1 : ¬cond0_1 i) (x0 : Vec F S2048x256 .f32) (x1 : Vec F S512x256 .f32) :
    sout0_A_0 c i arg2 harg2 arg3 harg3 arg4 harg4 arg5 harg5 arg6 harg6 hc0 hc1 x0 x1 = stepM x0 x1 mu0 := by
  unfold sout0_A_0
  rw [View.read_writes_eq_canon _ _ _ (scover0_A_0 c i arg2 harg2 arg3 harg3 arg4 harg4 arg5 harg5 arg6 harg6 hc0 hc1 x0 x1)]
  unfold kernelRun0_A
  dsimp only
  sl_unfold_words
  rw [View.canon_cons_unit_zero (S := S2048x1) hz]
  simp only [View.readCov_unit_zero (S := S2048x1) _ hz, View.readAt_eq_ld, harg2.read_unread, harg3.read_unread, harg5.read_unread, harg6.read_unread,
    View.ld_unit_zero (S := S2048x256) hz, View.ld_unit_zero (S := S512x256) hz, View.ld_unit_zero (S := S2048x1) hz]
  rfl

/-- At a row tile's first point the running sum is reset to zero, read back, and updated from the reset maximum. -/
theorem sout0_A_1_eq (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : cond0_0 i) (hc1 : ¬cond0_1 i) (x0 : Vec F S2048x256 .f32) (x1 : Vec F S512x256 .f32) :
    sout0_A_1 c i arg2 harg2 arg3 harg3 arg4 harg4 arg5 harg5 arg6 harg6 hc0 hc1 x0 x1 = stepL x0 x1 mu0 lam0 := by
  unfold sout0_A_1
  rw [View.read_writes_eq_canon _ _ _ (scover0_A_1 c i arg2 harg2 arg3 harg3 arg4 harg4 arg5 harg5 arg6 harg6 hc0 hc1 x0 x1)]
  unfold kernelRun0_A
  dsimp only
  sl_unfold_words
  rw [View.canon_cons_unit_zero (S := S2048x1) hz]
  simp only [View.readCov_unit_zero (S := S2048x1) _ hz, View.readAt_eq_ld, harg2.read_unread, harg3.read_unread, harg5.read_unread, harg6.read_unread,
    View.ld_unit_zero (S := S2048x256) hz, View.ld_unit_zero (S := S512x256) hz, View.ld_unit_zero (S := S2048x1) hz]
  rfl

/-- At an inner point the running maximum is updated from the carried one: its one store's payload. -/
theorem sout0_B_0_eq (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond0_0 i) (hc1 : ¬cond0_1 i) (x0 : Vec F S2048x256 .f32) (x1 : Vec F S512x256 .f32) (xs0 xs1 : Vec F S2048x1 .f32) :
    sout0_B_0 c i arg2 harg2 arg3 harg3 arg4 harg4 arg5 harg5 arg6 harg6 hc0 hc1 x0 x1 xs0 xs1 = stepM x0 x1 xs0 := by
  unfold sout0_B_0
  rw [View.read_writes_eq_canon _ _ _ (scover0_B_0 c i arg2 harg2 arg3 harg3 arg4 harg4 arg5 harg5 arg6 harg6 hc0 hc1 x0 x1 xs0 xs1)]
  unfold kernelRun0_B
  dsimp only
  sl_unfold_words
  rw [View.canon_unit_zero hz]
  simp only [View.readAt_eq_ld, harg2.read_unread, harg3.read_unread, harg5.read_unread, harg6.read_unread,
    View.ld_unit_zero (S := S2048x256) hz, View.ld_unit_zero (S := S512x256) hz, View.ld_unit_zero (S := S2048x1) hz]
  rfl

/-- At an inner point the running sum is updated from the two carried columns. -/
theorem sout0_B_1_eq (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond0_0 i) (hc1 : ¬cond0_1 i) (x0 : Vec F S2048x256 .f32) (x1 : Vec F S512x256 .f32) (xs0 xs1 : Vec F S2048x1 .f32) :
    sout0_B_1 c i arg2 harg2 arg3 harg3 arg4 harg4 arg5 harg5 arg6 harg6 hc0 hc1 x0 x1 xs0 xs1 = stepL x0 x1 xs0 xs1 := by
  unfold sout0_B_1
  rw [View.read_writes_eq_canon _ _ _ (scover0_B_1 c i arg2 harg2 arg3 harg3 arg4 harg4 arg5 harg5 arg6 harg6 hc0 hc1 x0 x1 xs0 xs1)]
  unfold kernelRun0_B
  dsimp only
  sl_unfold_words
  rw [View.canon_unit_zero hz]
  simp only [View.readAt_eq_ld, harg2.read_unread, harg3.read_unread, harg5.read_unread, harg6.read_unread,
    View.ld_unit_zero (S := S2048x256) hz, View.ld_unit_zero (S := S512x256) hz, View.ld_unit_zero (S := S2048x1) hz]
  rfl

/-- At a row tile's last point the running maximum is updated as at an inner point. -/
theorem sout0_C_0_eq (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond0_0 i) (hc1 : cond0_1 i) (x0 : Vec F S2048x256 .f32) (x1 : Vec F S512x256 .f32) (xs0 xs1 : Vec F S2048x1 .f32) :
    sout0_C_0 c i arg2 harg2 arg3 harg3 arg4 harg4 arg5 harg5 arg6 harg6 hc0 hc1 x0 x1 xs0 xs1 = stepM x0 x1 xs0 := by
  unfold sout0_C_0
  rw [View.read_writes_eq_canon _ _ _ (scover0_C_0 c i arg2 harg2 arg3 harg3 arg4 harg4 arg5 harg5 arg6 harg6 hc0 hc1 x0 x1 xs0 xs1)]
  unfold kernelRun0_C
  dsimp only
  sl_unfold_words
  rw [View.canon_unit_zero hz]
  simp only [View.readAt_eq_ld, harg2.read_unread, harg3.read_unread, harg5.read_unread, harg6.read_unread,
    View.ld_unit_zero (S := S2048x256) hz, View.ld_unit_zero (S := S512x256) hz, View.ld_unit_zero (S := S2048x1) hz]
  rfl

/-- At a row tile's last point the running sum is updated as at an inner point. -/
theorem sout0_C_1_eq (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond0_0 i) (hc1 : cond0_1 i) (x0 : Vec F S2048x256 .f32) (x1 : Vec F S512x256 .f32) (xs0 xs1 : Vec F S2048x1 .f32) :
    sout0_C_1 c i arg2 harg2 arg3 harg3 arg4 harg4 arg5 harg5 arg6 harg6 hc0 hc1 x0 x1 xs0 xs1 = stepL x0 x1 xs0 xs1 := by
  unfold sout0_C_1
  rw [View.read_writes_eq_canon _ _ _ (scover0_C_1 c i arg2 harg2 arg3 harg3 arg4 harg4 arg5 harg5 arg6 harg6 hc0 hc1 x0 x1 xs0 xs1)]
  unfold kernelRun0_C
  dsimp only
  sl_unfold_words
  rw [View.canon_unit_zero hz]
  simp only [View.readAt_eq_ld, harg2.read_unread, harg3.read_unread, harg5.read_unread, harg6.read_unread,
    View.ld_unit_zero (S := S2048x256) hz, View.ld_unit_zero (S := S512x256) hz, View.ld_unit_zero (S := S2048x1) hz]
  rfl

/-- At a row tile's last point the output column is the running maximum plus the logarithm of the running sum, both
    read back just after they were updated. -/
theorem out0_C_2_eq (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond0_0 i) (hc1 : cond0_1 i) (x0 : Vec F S2048x256 .f32) (x1 : Vec F S512x256 .f32) (xs0 xs1 : Vec F S2048x1 .f32) :
    out0_C_2 c i arg2 harg2 arg3 harg3 arg4 harg4 arg5 harg5 arg6 harg6 hc0 hc1 x0 x1 xs0 xs1 = outV (stepM x0 x1 xs0) (stepL x0 x1 xs0 xs1) := by
  unfold out0_C_2
  rw [View.read_writes_eq_canon _ _ _ (cover0_C_2 c i arg2 harg2 arg3 harg3 arg4 harg4 arg5 harg5 arg6 harg6 hc0 hc1 x0 x1 xs0 xs1)]
  unfold kernelRun0_C
  dsimp only
  sl_unfold_words
  rw [View.canon_unit_zero hz]
  simp only [View.readCov_unit_zero (S := S2048x1) _ hz, View.readAt_eq_ld, harg2.read_unread, harg3.read_unread, harg5.read_unread, harg6.read_unread,
    View.ld_unit_zero (S := S2048x256) hz, View.ld_unit_zero (S := S512x256) hz, View.ld_unit_zero (S := S2048x1) hz]
  rfl

end Cert.KernelIdeal.Pieces

end
-- ==== Proof.Consts.lean ====
/-
  The float literals the two programs spell, as the extended reals their words denote: the clamp under the row
  norms, the temperature the reference divides by, the row count the mean divides by, minus infinity and zero; and
  the kernel's named reciprocal of the temperature, which denotes exactly one over the temperature's value.
-/
import Idealize.ShloMosaic.PureOps.Ideal
import Idealize.ShloMosaic.PureOps.IdealRules

noncomputable section

namespace Cert.Consts

open Idealize.ShloMosaic

/-- The clamp under a row norm: the value of the word 0x2B8CBCCC (the f32 nearest 1e-12). -/
def epsR : ℝ := 9223372 / 2 ^ 63

/-- The temperature: the value of the word 0x3D8F5C29 (the f32 nearest 0.07). -/
def tempR : ℝ := 9395241 / 134217728

theorem epsR_pos : 0 < epsR := by unfold epsR; positivity
theorem tempR_pos : 0 < tempR := by unfold tempR; positivity

theorem ofBits_eps : Ideal.ofBits .f32 0x2B8CBCCC#32 = ((epsR : ℝ) : EReal) := by
  simp [Ideal.ofBits, Ideal.ieee, epsR, -EReal.coe_mul]; norm_num

theorem ofBits_temp : Ideal.ofBits .f32 0x3D8F5C29#32 = ((tempR : ℝ) : EReal) := by
  simp [Ideal.ofBits, Ideal.ieee, tempR, -EReal.coe_mul]; norm_num

theorem ofBits_rows : Ideal.ofBits .f32 0x46800000#32 = ((16384 : ℝ) : EReal) := by
  simp [Ideal.ofBits, Ideal.ieee, -EReal.coe_mul]; norm_num

theorem ofBits_neg_inf : Ideal.ofBits .f32 0xFF800000#32 = (⊥ : EReal) := by
  simp [Ideal.ofBits, Ideal.ieee]

theorem ofBits_zero : Ideal.ofBits .f32 0x00000000#32 = (0 : EReal) := by
  simp [Ideal.ofBits, Ideal.ieee]

end Cert.Consts

end
-- ==== Proof.Softmax.lean ====
/-
  The log-sum-exp of a row of real scores, and the same number computed tile by tile: a running maximum and a running
  sum of exponentials that is rescaled whenever the maximum moves. After the last tile the running maximum plus the
  logarithm of the running sum is the row's log-sum-exp.
-/
import Mathlib.Analysis.SpecialFunctions.Log.Basic
import Mathlib.Analysis.SpecialFunctions.Exp
import Mathlib.Algebra.BigOperators.Fin
import Mathlib.Order.Fin.Basic

open scoped BigOperators

noncomputable section

namespace Cert.Softmax

/-- The largest of a nonempty finite family of reals. -/
def rowMax {K : ℕ} [NeZero K] (s : Fin K → ℝ) : ℝ := Finset.univ.sup' Finset.univ_nonempty s

/-- The log-sum-exp of the family, shifted by its maximum. -/
def lse {K : ℕ} [NeZero K] (s : Fin K → ℝ) : ℝ := rowMax s + Real.log (∑ k, Real.exp (s k - rowMax s))

/-- The maximum over tiles 0 … j of the tile scores `sc j q`. -/
def runMax {Q : ℕ} [NeZero Q] (sc : ℕ → Fin Q → ℝ) : ℕ → ℝ
  | 0 => rowMax (sc 0)
  | j + 1 => max (runMax sc j) (rowMax (sc (j + 1)))

/-- The sum over tiles 0 … j of the exponentials of the scores less the running maximum after tile j, computed by
    rescaling the previous sum by the exponential of the maximum's move. -/
def runSum {Q : ℕ} [NeZero Q] (sc : ℕ → Fin Q → ℝ) : ℕ → ℝ
  | 0 => ∑ q, Real.exp (sc 0 q - runMax sc 0)
  | j + 1 => Real.exp (runMax sc j - runMax sc (j + 1)) * runSum sc j + ∑ q, Real.exp (sc (j + 1) q - runMax sc (j + 1))

/-- Column 512 j + q of a row of 16384 columns (tile j of 32, lane q of 512). -/
def col (j : ℕ) (q : Fin 512) : Fin 16384 := ⟨(512 * j + q.val) % 16384, Nat.mod_lt _ (by decide)⟩

theorem col_val {j : ℕ} (hj : j < 32) (q : Fin 512) : (col j q).val = 512 * j + q.val := by
  have := q.isLt
  exact Nat.mod_eq_of_lt (by omega)

/-- Every member of the family is at most its largest. -/
private theorem le_rowMax {K : ℕ} [NeZero K] (s : Fin K → ℝ) (k : Fin K) : s k ≤ rowMax s :=
  Finset.le_sup' s (Finset.mem_univ k)

/-- The largest of the family is one of its members. -/
private theorem exists_eq_rowMax {K : ℕ} [NeZero K] (s : Fin K → ℝ) : ∃ k, s k = rowMax s := by
  obtain ⟨k, _, hk⟩ := Finset.exists_mem_eq_sup' Finset.univ_nonempty s
  exact ⟨k, hk.symm⟩

/-- The running maximum after tile J bounds every score of tiles 0 … J. -/
private theorem le_runMax {Q : ℕ} [NeZero Q] (sc : ℕ → Fin Q → ℝ) :
    ∀ J j, j ≤ J → ∀ q, sc j q ≤ runMax sc J := by
  intro J
  induction J with
  | zero =>
    intro j hj q
    obtain rfl : j = 0 := by omega
    exact le_rowMax _ q
  | succ J ih =>
    intro j hj q
    rw [runMax]
    rcases Nat.lt_or_ge j (J + 1) with h | h
    · exact le_max_of_le_left (ih j (by omega) q)
    · obtain rfl : j = J + 1 := by omega
      exact le_max_of_le_right (le_rowMax _ q)

/-- The running maximum after tile J is one of the scores of tiles 0 … J. -/
private theorem exists_eq_runMax {Q : ℕ} [NeZero Q] (sc : ℕ → Fin Q → ℝ) :
    ∀ J, ∃ j, j ≤ J ∧ ∃ q, sc j q = runMax sc J := by
  intro J
  induction J with
  | zero =>
    obtain ⟨q, hq⟩ := exists_eq_rowMax (sc 0)
    exact ⟨0, le_rfl, q, hq⟩
  | succ J ih =>
    rw [runMax]
    rcases max_cases (runMax sc J) (rowMax (sc (J + 1))) with ⟨h, _⟩ | ⟨h, _⟩
    · obtain ⟨j, hj, q, hq⟩ := ih
      exact ⟨j, by omega, q, by rw [h]; exact hq⟩
    · obtain ⟨q, hq⟩ := exists_eq_rowMax (sc (J + 1))
      exact ⟨J + 1, le_rfl, q, by rw [h]; exact hq⟩

/-- Closed form of the running sum: the exponentials of all scores of tiles 0 … J less the running maximum after
    tile J. The step is exp (M_J − M_{J+1}) · exp (x − M_J) = exp (x − M_{J+1}). -/
private theorem runSum_eq {Q : ℕ} [NeZero Q] (sc : ℕ → Fin Q → ℝ) (J : ℕ) :
    runSum sc J = ∑ j ∈ Finset.range (J + 1), ∑ q, Real.exp (sc j q - runMax sc J) := by
  induction J with
  | zero => simp [runSum]
  | succ J ih =>
    rw [runSum, ih, Finset.sum_range_succ _ (J + 1), Finset.mul_sum]
    congr 1
    refine Finset.sum_congr rfl (fun j _ => ?_)
    rw [Finset.mul_sum]
    refine Finset.sum_congr rfl (fun q _ => ?_)
    rw [← Real.exp_add]
    congr 1
    ring

/-- Summing over the 32 tiles of 512 lanes is summing over the 16384 columns: (j, q) ↦ 512 j + q is a bijection. -/
private theorem sum_col (F : Fin 16384 → ℝ) :
    ∑ j ∈ Finset.range 32, ∑ q : Fin 512, F (col j q) = ∑ k, F k := by
  have e : ∑ k : Fin 16384, F k = ∑ p : Fin 32 × Fin 512, F (finProdFinEquiv p) :=
    (Equiv.sum_comp (finProdFinEquiv : Fin 32 × Fin 512 ≃ Fin 16384) F).symm
  rw [e, Fintype.sum_prod_type, Finset.sum_range (fun j => ∑ q : Fin 512, F (col j q))]
  refine Finset.sum_congr rfl (fun j _ => Finset.sum_congr rfl (fun q _ => congrArg F ?_))
  apply Fin.ext
  rw [col_val j.isLt]
  simp [finProdFinEquiv]
  omega

/-- Over the 32 tiles the running maximum is the maximum of the whole row. -/
private theorem runMax_col (s : Fin 16384 → ℝ) : runMax (fun j q => s (col j q)) 31 = rowMax s := by
  apply le_antisymm
  · obtain ⟨j, _, q, hq⟩ := exists_eq_runMax (fun j q => s (col j q)) 31
    rw [← hq]
    exact le_rowMax s _
  · refine Finset.sup'_le _ _ (fun k _ => ?_)
    have hk := k.isLt
    have h := le_runMax (fun j q => s (col j q)) 31 (k.val / 512) (by omega) ⟨k.val % 512, Nat.mod_lt _ (by decide)⟩
    have hc : col (k.val / 512) ⟨k.val % 512, Nat.mod_lt _ (by decide)⟩ = k := by
      apply Fin.ext
      rw [col_val (by omega)]
      show 512 * (k.val / 512) + k.val % 512 = k.val
      omega
    simpa [hc] using h

/-- The running sum is positive: the tile that attains the running maximum contributes one. -/
theorem runSum_pos {Q : ℕ} [NeZero Q] (sc : ℕ → Fin Q → ℝ) (j : ℕ) : 0 < runSum sc j := by
  have hq : ∀ f : Fin Q → ℝ, 0 < ∑ q, Real.exp (f q) := fun f =>
    Finset.sum_pos (fun q _ => Real.exp_pos _) Finset.univ_nonempty
  induction j with
  | zero => exact hq _
  | succ j ih =>
    rw [runSum]
    have h := hq (fun q => sc (j + 1) q - runMax sc (j + 1))
    positivity

/-- After the last of the 32 tiles the running pair gives the row's log-sum-exp. -/
theorem online_lse (s : Fin 16384 → ℝ) :
    runMax (fun j q => s (col j q)) 31 + Real.log (runSum (fun j q => s (col j q)) 31) = lse s := by
  have hS : runSum (fun j q => s (col j q)) 31 = ∑ k, Real.exp (s k - rowMax s) := by
    rw [runSum_eq, runMax_col]
    exact sum_col (fun k => Real.exp (s k - rowMax s))
  rw [hS, runMax_col]
  rfl

/-- The negated log-softmax at column t is the log-sum-exp less the score at t. -/
theorem neg_log_softmax (s : Fin 16384 → ℝ) (t : Fin 16384) :
    -((s t - rowMax s) - Real.log (∑ k, Real.exp (s k - rowMax s))) = lse s - s t := by
  unfold lse; ring

end Cert.Softmax

end
-- ==== Proof.Spec.lean ====
/-
  The contrastive loss both programs compute, over real arrays: each row of anchors and of candidates is divided by
  its Euclidean norm clamped below by a small positive number; the score of anchor n against candidate k is the inner
  product of the two unit rows over the temperature; the loss of row n is the log-sum-exp of its scores less the score
  at its target column; the result is the mean of the row losses. And the extended-real operations of the two programs
  read on real operands.
-/
import Idealize.ShloMosaic.PureOps.Ideal
import Idealize.ShloMosaic.PureOps.Ideal.Laws
import proofs.«417422_j41145786695939_1_alg».proof.Proof.Consts
import proofs.«417422_j41145786695939_1_alg».proof.Proof.Softmax

open scoped BigOperators

noncomputable section

namespace Cert.Contrastive

open Idealize.ShloMosaic Cert.Consts Cert.Softmax

/-- A row's Euclidean norm, clamped below. -/
def rnorm (x : Fin 256 → ℝ) : ℝ := max (Real.sqrt (∑ d, x d * x d)) epsR

theorem rnorm_pos (x : Fin 256 → ℝ) : 0 < rnorm x := lt_of_lt_of_le epsR_pos (le_max_right _ _)

/-- The inner product of two rows, each divided by its clamped norm. -/
def cosine (x y : Fin 256 → ℝ) : ℝ := ∑ d, (x d / rnorm x) * (y d / rnorm y)

/-- The score of anchor n against candidate k. -/
def logit (a c : Fin 16384 → Fin 256 → ℝ) (n k : Fin 16384) : ℝ := cosine (a n) (c k) / tempR

/-- The loss of row n: the log-sum-exp of its scores less the score at its target. -/
def rowLoss (a c : Fin 16384 → Fin 256 → ℝ) (t : Fin 16384 → Fin 16384) (n : Fin 16384) : ℝ :=
  lse (logit a c n) - logit a c n (t n)

/-- The mean row loss. -/
def loss (a c : Fin 16384 → Fin 256 → ℝ) (t : Fin 16384 → Fin 16384) : ℝ := (∑ n, rowLoss a c t n) / 16384

/-! ## The extended-real operations on real operands -/

/-- A sum of reals over any finite set, summed in the extended reals: the coercion is additive. -/
private theorem coe_sum_finset {ι : Type*} (t : Finset ι) (f : ι → ℝ) :
    (∑ i ∈ t, ((f i : ℝ) : EReal)) = ((∑ i ∈ t, f i : ℝ) : EReal) := by
  classical
  induction t using Finset.induction_on with
  | empty => simp
  | insert a t ha ih => rw [Finset.sum_insert ha, Finset.sum_insert ha, ih, EReal.coe_add]

/-- A finite sum of reals, summed in the extended reals. -/
theorem coe_sum {ι : Type*} [Fintype ι] (f : ι → ℝ) : (∑ i, ((f i : ℝ) : EReal)) = ((∑ i, f i : ℝ) : EReal) :=
  coe_sum_finset Finset.univ f

/-- The coercion of the reals into the extended reals is monotone, so it carries a maximum to the maximum. -/
private theorem coe_max (a b : ℝ) : ((max a b : ℝ) : EReal) = max ((a : ℝ) : EReal) ((b : ℝ) : EReal) :=
  EReal.coe_strictMono.monotone.map_max

/-- The fold of max from minus infinity over any nonempty finite set of reals is the set's maximum: one element
    against minus infinity is itself, and one more element takes the maximum with the rest. -/
private theorem fold_max_coe_finset {ι : Type*} (t : Finset ι) (ht : t.Nonempty) (s : ι → ℝ) :
    t.fold max (⊥ : EReal) (fun k => ((s k : ℝ) : EReal)) = ((t.sup' ht s : ℝ) : EReal) := by
  induction ht using Finset.Nonempty.cons_induction with
  | singleton a => simp
  | cons a t ha ht ih => rw [Finset.fold_cons, Finset.sup'_cons ht, ih, coe_max]

/-- The fold of max from minus infinity over a nonempty family of reals is the family's maximum. -/
theorem fold_max_coe {K : ℕ} [NeZero K] (s : Fin K → ℝ) :
    (Finset.univ : Finset (Fin K)).fold max (⊥ : EReal) (fun k => ((s k : ℝ) : EReal)) = ((rowMax s : ℝ) : EReal) :=
  fold_max_coe_finset Finset.univ Finset.univ_nonempty s

/-- An entry of a real row over the row's clamped norm, as the programs compute it: the square root of the sum of
    squares, the maximum with the clamp, the quotient. -/
theorem unit_coe (x : Fin 256 → ℝ) (d : Fin 256) :
    Ideal.div ((x d : ℝ) : EReal)
        (max (Ideal.sqrt (∑ k, ((x k : ℝ) : EReal) * ((x k : ℝ) : EReal))) ((epsR : ℝ) : EReal))
      = ((x d / rnorm x : ℝ) : EReal) := by
  have hsum : (∑ k, ((x k : ℝ) : EReal) * ((x k : ℝ) : EReal)) = ((∑ k, x k * x k : ℝ) : EReal) := by
    simp_rw [← EReal.coe_mul]; exact coe_sum _
  have hnn : ¬ (∑ k, x k * x k : ℝ) < 0 :=
    not_lt.mpr (Finset.sum_nonneg fun k _ => mul_self_nonneg (x k))
  rw [hsum, Ideal.sqrt_coe, if_neg hnn, ← coe_max]
  change Ideal.div ((x d : ℝ) : EReal) ((rnorm x : ℝ) : EReal) = _
  rw [Ideal.div_coe (rnorm_pos x).ne', ← EReal.coe_mul, mul_one_div]

/-- The inner product of two unit rows, summed in the extended reals. -/
theorem cosine_coe (x y : Fin 256 → ℝ) :
    (∑ d, ((x d / rnorm x : ℝ) : EReal) * ((y d / rnorm y : ℝ) : EReal)) = ((cosine x y : ℝ) : EReal) := by
  simp_rw [← EReal.coe_mul]; exact coe_sum _

/-- The quotient by the temperature. -/
theorem div_temp_coe (r : ℝ) : Ideal.div ((r : ℝ) : EReal) ((tempR : ℝ) : EReal) = ((r / tempR : ℝ) : EReal) := by
  rw [Ideal.div_coe tempR_pos.ne', ← EReal.coe_mul, mul_one_div]

/-- The product with the temperature's exact reciprocal is the quotient by the temperature. -/
theorem mul_inv_temp_coe (r : ℝ) : ((r : ℝ) : EReal) * ((134217728 / 9395241 : ℝ) : EReal) = ((r / tempR : ℝ) : EReal) := by
  rw [← EReal.coe_mul]
  congr 1
  unfold tempR
  ring

/-- The quotient by the row count. -/
theorem div_rows_coe (r : ℝ) : Ideal.div ((r : ℝ) : EReal) ((16384 : ℝ) : EReal) = ((r / 16384 : ℝ) : EReal) := by
  rw [Ideal.div_coe (by norm_num : (16384 : ℝ) ≠ 0), ← EReal.coe_mul, mul_one_div]

end Cert.Contrastive

end
-- ==== Proof.KernelPayload.lean ====
/-
  One grid point's step functions read at a row, at the ideal values, when the two input blocks hold real numbers:
  the tile's scores are the inner products of the unit rows over the temperature, the new running maximum is the
  larger of the carried one and the tile's row maximum, the new running sum is the carried one times the exponential
  of the maximum's move plus the tile's sum of exponentials, and the output is the maximum plus the logarithm of the
  sum.
-/
import proofs.«417422_j41145786695939_1_alg».proof.Proof.KernelSteps
import proofs.«417422_j41145786695939_1_alg».proof.Proof.Spec
import Idealize.ShloMosaic.Lib.ValueIdx
import Idealize.ShloMosaic.Lib.ValueLayout
import Idealize.ShloMosaic.Lib.Pipeline.Value
import Idealize.ShloMosaic.PureOps.IdealRules
import Idealize.ShloMosaic.PureOps.Ideal.Laws

open scoped BigOperators

noncomputable section

namespace Cert.KernelIdeal.Payload

open Cert.KernelIdeal Cert.KernelIdeal.Gen Cert.KernelIdeal.Steps
open Idealize.ShloMosaic Idealize.ShloMosaic.ValueIdx
open Cert.Consts Cert.Softmax Cert.Contrastive

/-! ## The layout operations read at a row -/

/-- A column [n] viewed [n, 1] reads row p at p. -/
private theorem col_cast_apply {α : Type} {n : Nat} (v : (⟨1, ![n]⟩ : Shape).Idx → α)
    (h : (⟨1, ![n]⟩ : Shape).ShapeCasts ⟨2, ![n, 1]⟩) (p : Fin n) (z : Fin 1) :
    shapeCast (⟨2, ![n, 1]⟩ : Shape) v h (ix2 p z) = v (ix1 p) := by
  refine shapeCast_apply v h (ix2 p z) (ix1 p) ?_
  rw [Shape.rowMajor_val_one, Shape.rowMajor_val_two]
  show p.val = p.val * 1 + z.val
  have := z.isLt
  omega

/-- A column [n, 1] spread over [n, m] reads (p, d) at (p, 0). -/
private theorem col_bcast_apply {α : Type} {n m : Nat} (hn : n ≠ 1) (v : (⟨2, ![n, 1]⟩ : Shape).Idx → α)
    (h : (⟨2, ![n, 1]⟩ : Shape).Broadcasts ⟨2, ![n, m]⟩) (p : Fin n) (d : Fin m) :
    broadcastTo (⟨2, ![n, m]⟩ : Shape) v h (ix2 p d) = v (ix2 p 0) := by
  refine broadcastTo_apply v h (ix2 p d) (ix2 p 0) (fun a => ?_)
  match a with
  | ⟨0, _⟩ => show p.val = if n = 1 then 0 else p.val; rw [if_neg hn]
  | ⟨1, _⟩ => show (0 : Fin 1).val = if (1 : Nat) = 1 then 0 else d.val; rw [if_pos rfl]; rfl

/-- The transposed candidate block reads (d, q) at (q, d). -/
private theorem transpose_cand_apply {α : Type} (v : S512x256.Idx → α) (d : Fin 256) (q : Fin 512) :
    transpose S256x512 [1, 0] v transposes_S512x256_p1_0_S256x512 (ix2 d q) = v (ix2 q d) := by
  refine transpose_apply [1, 0] v transposes_S512x256_p1_0_S256x512 (ix2 d q) (ix2 q d) (fun b => ?_)
  match b with
  | ⟨0, _⟩ => rfl
  | ⟨1, _⟩ => rfl

/-! ## The product of the unit rows -/

/-- The operand indices of the product at output index i and contraction index c, axis by axis: the left operand is
    read at (i 0, c), the right one at (c, i 1). -/
private theorem mm_lhs_0 (i : S2048x512.Idx) (c : dot_S2048x256_S256x512_S2048x512_1_0_0_1_n_n.contr.Idx) :
    (dot_S2048x256_S256x512_S2048x512_1_0_0_1_n_n.lhsIdx i c 0).val = (i 0).val := by
  unfold DotDims.lhsIdx
  rw [dif_neg (show ¬(0 : Fin S2048x256.rank) ∈ dot_S2048x256_S256x512_S2048x512_1_0_0_1_n_n.lhsBatch by decide), dif_pos (show (0 : Fin S2048x256.rank) ∈ dot_S2048x256_S256x512_S2048x512_1_0_0_1_n_n.lhsNonContracting by decide)]
  rfl
private theorem mm_lhs_1 (i : S2048x512.Idx) (c : dot_S2048x256_S256x512_S2048x512_1_0_0_1_n_n.contr.Idx) :
    (dot_S2048x256_S256x512_S2048x512_1_0_0_1_n_n.lhsIdx i c 1).val = (c ⟨0, by decide⟩).val :=
  dot_S2048x256_S256x512_S2048x512_1_0_0_1_n_n.lhsIdx_val_of_single rfl i c
private theorem mm_rhs_0 (i : S2048x512.Idx) (c : dot_S2048x256_S256x512_S2048x512_1_0_0_1_n_n.contr.Idx) :
    (dot_S2048x256_S256x512_S2048x512_1_0_0_1_n_n.rhsIdx i c 0).val = (c ⟨0, by decide⟩).val :=
  dot_S2048x256_S256x512_S2048x512_1_0_0_1_n_n.rhsIdx_val_of_single rfl i c
private theorem mm_rhs_1 (i : S2048x512.Idx) (c : dot_S2048x256_S256x512_S2048x512_1_0_0_1_n_n.contr.Idx) :
    (dot_S2048x256_S256x512_S2048x512_1_0_0_1_n_n.rhsIdx i c 1).val = (i 1).val := by
  unfold DotDims.rhsIdx
  rw [dif_neg (show ¬(1 : Fin S256x512.rank) ∈ dot_S2048x256_S256x512_S2048x512_1_0_0_1_n_n.rhsBatch by decide), dif_pos (show (1 : Fin S256x512.rank) ∈ dot_S2048x256_S256x512_S2048x512_1_0_0_1_n_n.rhsNonContracting by decide)]
  rfl

/-- The product into the zero accumulator at (p, q): the sum over the 256 lanes of row p of the left operand times
    column q of the right one. -/
private theorem mm_apply (l : FVec Ideal S2048x256 .bf16) (r : FVec Ideal S256x512 .bf16) (p : Fin 2048) (q : Fin 512) :
    matmul dot_S2048x256_S256x512_S2048x512_1_0_0_1_n_n none l r (constant S2048x512 .f32 0x00000000#32) (ix2 p q)
      = ∑ k : Fin 256, l (ix2 p k) * r (ix2 k q) := by
  simp only [matmul]
  rw [Ideal.matmul_constant_zero_apply, ← Equiv.sum_comp (ValueIdx.contrEquiv1 dot_S2048x256_S256x512_S2048x512_1_0_0_1_n_n 256 rfl rfl).symm]
  refine Finset.sum_congr rfl fun k _ => ?_
  have hk := ValueIdx.contrEquiv1_symm_val dot_S2048x256_S256x512_S2048x512_1_0_0_1_n_n 256 rfl rfl k
  have el : dot_S2048x256_S256x512_S2048x512_1_0_0_1_n_n.lhsIdx (ix2 p q) ((ValueIdx.contrEquiv1 dot_S2048x256_S256x512_S2048x512_1_0_0_1_n_n 256 rfl rfl).symm k) = ix2 p k := funext fun a => Fin.ext (by
    match a with
    | ⟨0, _⟩ => exact mm_lhs_0 _ _
    | ⟨1, _⟩ => exact (mm_lhs_1 _ _).trans hk)
  have er : dot_S2048x256_S256x512_S2048x512_1_0_0_1_n_n.rhsIdx (ix2 p q) ((ValueIdx.contrEquiv1 dot_S2048x256_S256x512_S2048x512_1_0_0_1_n_n 256 rfl rfl).symm k) = ix2 k q := funext fun a => Fin.ext (by
    match a with
    | ⟨0, _⟩ => exact (mm_rhs_0 _ _).trans hk
    | ⟨1, _⟩ => exact mm_rhs_1 _ _)
  rw [el, er]

/-! ## The unit rows and the scores -/

/-- The index a reduction over the lanes of an [n, m] block inserts lane k into row p at is (p, k). -/
private theorem lift_row {n m : Nat} (hr : Shape.Reduces ⟨2, ![n, m]⟩ [1] ⟨1, ![n]⟩) (p : Fin n) (k : Fin m) :
    hr.lift (ix1 p) k = ix2 p k :=
  funext fun a => Fin.ext (match a with | ⟨0, _⟩ => rfl | ⟨1, _⟩ => rfl)

/-- An entry of a block of real rows over its row's clamped norm, as the kernel computes it: the lane sum of the
    squares, its square root as a column, the larger of it and the clamp, spread back over the lanes, the quotient. -/
private theorem unit_apply {n : Nat} (hn : n ≠ 1) (x : Vec Ideal ⟨2, ![n, 256]⟩ .f32) (xr : Fin n → Fin 256 → ℝ)
    (hx : ∀ p d, x (ix2 p d) = ((xr p d : ℝ) : EReal))
    (hr : Shape.Reduces ⟨2, ![n, 256]⟩ [1] ⟨1, ![n]⟩) (hc : Shape.ShapeCasts ⟨1, ![n]⟩ ⟨2, ![n, 1]⟩)
    (hb : Shape.Broadcasts ⟨2, ![n, 1]⟩ ⟨2, ![n, 256]⟩) (p : Fin n) (d : Fin 256) :
    (divf x (broadcastTo ⟨2, ![n, 256]⟩
        (maximumf (sqrt (shapeCast ⟨2, ![n, 1]⟩
            (multiReduction (F := Ideal) .add [1] ⟨1, ![n]⟩ (mulf x x) 0x00000000#32 hr (.inl rfl) rfl) hc))
          (broadcast ⟨2, ![n, 1]⟩ (Scalar.ofBits (F := Ideal) .f32 0x2B8CBCCC#32))) hb)) (ix2 p d)
      = ((xr p d / rnorm (xr p) : ℝ) : EReal) := by
  refine (divf_apply _ _ _).trans ?_
  rw [col_bcast_apply hn, hx]
  refine Eq.trans ?_ (unit_coe (xr p) d)
  refine congrArg (Ideal.div _) ?_
  refine (maximumf_apply _ _ _).trans ?_
  refine congrArg₂ max ?_ ofBits_eps
  refine congrArg Ideal.sqrt ?_
  refine (col_cast_apply _ hc p 0).trans ?_
  refine (Ideal.multiReduction_add_single _ _ _ _ _ _).trans ?_
  refine Finset.sum_congr rfl fun (k : Fin 256) _ => ?_
  rw [lift_row hr p k]
  exact congrArg₂ (· * ·) (hx p k) (hx p k)

/-- The kernel's named reciprocal of the temperature denotes, at the ideal values, the rational the table gives it. -/
private theorem inv_temp :
    Named.named (F := Ideal) Cert.KernelIdeal.κ "inv_temperature" (φ := .f32) 0x41649249#32
      = ((134217728 / 9395241 : ℝ) : EReal) :=
  IdealRules.named_const.ideal_named_scalar _ _ _ _ rfl

/-- The scores of anchor-block row p against the 512 rows of a candidate block. -/
def tileScore (xa : Fin 2048 → Fin 256 → ℝ) (xc : Fin 512 → Fin 256 → ℝ) (p : Fin 2048) (q : Fin 512) : ℝ :=
  cosine (xa p) (xc q) / tempR

variable (x0 : Vec Ideal S2048x256 .f32) (x1 : Vec Ideal S512x256 .f32)
variable (xa : Fin 2048 → Fin 256 → ℝ) (xc : Fin 512 → Fin 256 → ℝ)

/-- The tile's scores: the product of the inner product of the unit rows with the named reciprocal of the temperature. -/
theorem score_apply (h0 : ∀ p d, x0 (ix2 p d) = ((xa p d : ℝ) : EReal)) (h1 : ∀ q d, x1 (ix2 q d) = ((xc q d : ℝ) : EReal))
    (p : Fin 2048) (q : Fin 512) :
    k0_pay6 (F := Ideal) x0 x1 (ix2 p q) = ((tileScore xa xc p q : ℝ) : EReal) := by
  unfold k0_pay6
  refine (mulf_apply _ _ _).trans ?_
  refine (congrArg₂ (· * ·) ((mm_apply _ _ p q).trans ?_) inv_temp).trans (mul_inv_temp_coe (cosine (xa p) (xc q)))
  refine Eq.trans (Finset.sum_congr rfl fun k _ => ?_) (cosine_coe (xa p) (xc q))
  refine congrArg₂ (· * ·) ?_ ?_
  · exact unit_apply (by decide) x0 xa h0 _ _ _ p k
  · refine (transpose_cand_apply _ k q).trans ?_
    exact unit_apply (by decide) x1 xc h1 _ _ _ q k

/-! ## The running maximum -/

/-- The larger of two reals, in the extended reals. -/
private theorem coe_max (a b : ℝ) : ((max a b : ℝ) : EReal) = max (a : EReal) (b : EReal) :=
  EReal.coe_strictMono.monotone.map_max

/-- The tile's row maximum as a column: the fold of max from minus infinity over the row's 512 scores. -/
private theorem tileMax_apply (h0 : ∀ p d, x0 (ix2 p d) = ((xa p d : ℝ) : EReal)) (h1 : ∀ q d, x1 (ix2 q d) = ((xc q d : ℝ) : EReal))
    (p : Fin 2048) :
    shapeCast S2048x1 (multiReduction (F := Ideal) .maximumf [1] S2048 (k0_pay6 x0 x1) 0xFF800000#32
        reduces_S2048x512_S2048 (.inl rfl) rfl) shapeCasts_S2048_S2048x1 (ix2 p 0)
      = ((rowMax (tileScore xa xc p) : ℝ) : EReal) := by
  refine (col_cast_apply _ _ p 0).trans ?_
  refine (Ideal.multiReduction_maximumf_single _ _ _ _ _ _).trans ?_
  refine Eq.trans ?_ (fold_max_coe (tileScore xa xc p))
  refine congrArg₂ (Finset.univ.fold max) ofBits_neg_inf ?_
  funext (k : Fin 512)
  show k0_pay6 x0 x1 (reduces_S2048x512_S2048.lift (ix1 p) k) = _
  rw [lift_row]
  exact score_apply x0 x1 xa xc h0 h1 p k

/-- The new running maximum at a row: the larger of the carried one and the tile's row maximum. -/
private theorem pay7_apply (h0 : ∀ p d, x0 (ix2 p d) = ((xa p d : ℝ) : EReal)) (h1 : ∀ q d, x1 (ix2 q d) = ((xc q d : ℝ) : EReal))
    (mu : Vec Ideal S2048x1 .f32) (p : Fin 2048) :
    k0_pay7 (F := Ideal) x0 x1 mu (ix2 p 0) = max (mu (ix2 p 0)) ((rowMax (tileScore xa xc p) : ℝ) : EReal) := by
  unfold k0_pay7
  refine (maximumf_apply _ _ _).trans ?_
  exact congrArg (max _) (tileMax_apply x0 x1 xa xc h0 h1 p)

/-- The reset running maximum is minus infinity. -/
private theorem mu0_apply (p : Fin 2048) : mu0 (F := Ideal) (ix2 p 0) = (⊥ : EReal) := by
  unfold mu0 k0_pay4
  rw [shapeCast_self]
  exact ofBits_neg_inf

/-- The reset running sum is zero. -/
private theorem lam0_apply (p : Fin 2048) : lam0 (F := Ideal) (ix2 p 0) = (0 : EReal) := by
  unfold lam0 k0_pay5
  rw [shapeCast_self]
  exact ofBits_zero

/-- The running maximum after a point, at a row: the larger of the carried one and the tile's row maximum. -/
private theorem stepM_apply (h0 : ∀ p d, x0 (ix2 p d) = ((xa p d : ℝ) : EReal)) (h1 : ∀ q d, x1 (ix2 q d) = ((xc q d : ℝ) : EReal))
    (mu : Vec Ideal S2048x1 .f32) (p : Fin 2048) :
    stepM (F := Ideal) x0 x1 mu (ix2 p 0) = max (mu (ix2 p 0)) ((rowMax (tileScore xa xc p) : ℝ) : EReal) := by
  unfold stepM k0_pay2
  rw [shapeCast_self]
  exact pay7_apply x0 x1 xa xc h0 h1 mu p

/-- From the reset column: the running maximum is the tile's row maximum. -/
theorem stepM_first (h0 : ∀ p d, x0 (ix2 p d) = ((xa p d : ℝ) : EReal)) (h1 : ∀ q d, x1 (ix2 q d) = ((xc q d : ℝ) : EReal))
    (p : Fin 2048) :
    stepM (F := Ideal) x0 x1 mu0 (ix2 p 0) = ((rowMax (tileScore xa xc p) : ℝ) : EReal) := by
  rw [stepM_apply x0 x1 xa xc h0 h1, mu0_apply]
  exact max_bot_left _

/-- From a real carried maximum: the larger of it and the tile's row maximum. -/
theorem stepM_next (h0 : ∀ p d, x0 (ix2 p d) = ((xa p d : ℝ) : EReal)) (h1 : ∀ q d, x1 (ix2 q d) = ((xc q d : ℝ) : EReal))
    (mu : Vec Ideal S2048x1 .f32) (p : Fin 2048) (μ : ℝ) (hmu : mu (ix2 p 0) = ((μ : ℝ) : EReal)) :
    stepM (F := Ideal) x0 x1 mu (ix2 p 0) = ((max μ (rowMax (tileScore xa xc p)) : ℝ) : EReal) := by
  rw [stepM_apply x0 x1 xa xc h0 h1, hmu, coe_max]

/-! ## The running sum -/

/-- The new running sum at a row whose new running maximum is the real M: the carried sum times the exponential of
    the carried maximum less M, plus the sum over the tile's lanes of the exponentials of the scores less M. -/
private theorem stepL_apply (h0 : ∀ p d, x0 (ix2 p d) = ((xa p d : ℝ) : EReal)) (h1 : ∀ q d, x1 (ix2 q d) = ((xc q d : ℝ) : EReal))
    (mu lam : Vec Ideal S2048x1 .f32) (p : Fin 2048) (M : ℝ) (hM : k0_pay7 (F := Ideal) x0 x1 mu (ix2 p 0) = ((M : ℝ) : EReal)) :
    stepL (F := Ideal) x0 x1 mu lam (ix2 p 0)
      = Ideal.exp (mu (ix2 p 0) - ((M : ℝ) : EReal)) * lam (ix2 p 0)
        + ((∑ q, Real.exp (tileScore xa xc p q - M) : ℝ) : EReal) := by
  unfold stepL k0_pay1
  rw [shapeCast_self]
  refine (addf_apply _ _ _).trans ?_
  refine congrArg₂ (· + ·) ?_ ?_
  · unfold k0_pay8
    refine (mulf_apply _ _ _).trans ?_
    refine congrArg (· * _) ?_
    show Ideal.exp (mu (ix2 p 0) - k0_pay7 x0 x1 mu (ix2 p 0)) = _
    rw [hM]
  · refine (col_cast_apply _ _ p 0).trans ?_
    unfold k0_pay9
    refine (Ideal.multiReduction_add_single _ _ _ _ _ _).trans ?_
    refine Eq.trans (Finset.sum_congr rfl fun (q : Fin 512) _ => ?_) (coe_sum _)
    rw [lift_row]
    show Ideal.exp (k0_pay6 x0 x1 (ix2 p q) - broadcastTo S2048x512 (k0_pay7 x0 x1 mu) broadcasts_S2048x1_S2048x512 (ix2 p q)) = _
    rw [col_bcast_apply (by decide), hM, score_apply x0 x1 xa xc h0 h1, ← EReal.coe_sub, Ideal.exp_coe]

/-- From the reset columns: the running sum is the tile's sum of exponentials of the scores less the row maximum. -/
theorem stepL_first (h0 : ∀ p d, x0 (ix2 p d) = ((xa p d : ℝ) : EReal)) (h1 : ∀ q d, x1 (ix2 q d) = ((xc q d : ℝ) : EReal))
    (p : Fin 2048) :
    stepL (F := Ideal) x0 x1 mu0 lam0 (ix2 p 0)
      = ((∑ q, Real.exp (tileScore xa xc p q - rowMax (tileScore xa xc p)) : ℝ) : EReal) := by
  have hM : k0_pay7 (F := Ideal) x0 x1 mu0 (ix2 p 0) = ((rowMax (tileScore xa xc p) : ℝ) : EReal) := by
    rw [pay7_apply x0 x1 xa xc h0 h1, mu0_apply]
    exact max_bot_left _
  rw [stepL_apply x0 x1 xa xc h0 h1 mu0 lam0 p _ hM, lam0_apply, mul_zero, zero_add]

/-- From real carried columns: the carried sum rescaled, plus the tile's sum of exponentials. -/
theorem stepL_next (h0 : ∀ p d, x0 (ix2 p d) = ((xa p d : ℝ) : EReal)) (h1 : ∀ q d, x1 (ix2 q d) = ((xc q d : ℝ) : EReal))
    (mu lam : Vec Ideal S2048x1 .f32) (p : Fin 2048) (μ lm : ℝ)
    (hmu : mu (ix2 p 0) = ((μ : ℝ) : EReal)) (hlam : lam (ix2 p 0) = ((lm : ℝ) : EReal)) :
    stepL (F := Ideal) x0 x1 mu lam (ix2 p 0)
      = ((Real.exp (μ - max μ (rowMax (tileScore xa xc p))) * lm
          + ∑ q, Real.exp (tileScore xa xc p q - max μ (rowMax (tileScore xa xc p))) : ℝ) : EReal) := by
  have hM : k0_pay7 (F := Ideal) x0 x1 mu (ix2 p 0) = ((max μ (rowMax (tileScore xa xc p)) : ℝ) : EReal) := by
    rw [pay7_apply x0 x1 xa xc h0 h1, hmu, coe_max]
  rw [stepL_apply x0 x1 xa xc h0 h1 mu lam p _ hM, hmu, hlam, ← EReal.coe_sub, Ideal.exp_coe, ← EReal.coe_mul,
    ← EReal.coe_add]

/-- The output column at a row whose running sum is positive: the maximum plus the logarithm of the sum. -/
theorem outV_apply (mu lam : Vec Ideal S2048x1 .f32) (p : Fin 2048) (μ lm : ℝ) (hpos : 0 < lm)
    (hmu : mu (ix2 p 0) = ((μ : ℝ) : EReal)) (hlam : lam (ix2 p 0) = ((lm : ℝ) : EReal)) :
    outV (F := Ideal) mu lam (ix2 p 0) = ((μ + Real.log lm : ℝ) : EReal) := by
  unfold outV k0_pay3
  refine (addf_apply _ _ _).trans ?_
  show mu (ix2 p 0) + Ideal.log (lam (ix2 p 0)) = _
  rw [hmu, hlam, Ideal.log_coe, if_neg (not_le.mpr hpos), ← EReal.coe_add]

end Cert.KernelIdeal.Payload

end
-- ==== Proof.KernelRun.lean ====
/-
  The kernel region's output array: row n of the [16384, 1] column it writes holds the log-sum-exp of anchor n's
  scores against all 16384 candidates. Grid point 32 i + j handles anchor rows 2048 i … 2048 i + 2047 against candidate
  rows 512 j … 512 j + 511; the two carried columns hold, after point j of a row tile, the running maximum and the
  rescaled running sum over tiles 0 … j; the last point of a row tile writes the column back.
-/
import proofs.«417422_j41145786695939_1_alg».proof.Proof.Gen.KernelIdeal.Frame
import proofs.«417422_j41145786695939_1_alg».proof.Proof.KernelPieces
import proofs.«417422_j41145786695939_1_alg».proof.Proof.KernelPayload

set_option maxRecDepth 16384

open scoped BigOperators

noncomputable section

namespace Cert.KernelIdeal.RunValue

open Cert.KernelIdeal Cert.KernelIdeal.Gen Cert.KernelIdeal.Steps Cert.KernelIdeal.Pieces Cert.KernelIdeal.Payload
open Idealize.ShloMosaic Idealize.ShloMosaic.TcCoe Idealize.ShloMosaic.ValueIdx Idealize.SL.Sem
open Idealize.ShloMosaic.Pipeline (Dat Cfg Window)
open Cert.Consts Cert.Softmax Cert.Contrastive

variable (m : (ℓ : Loc nD τ sig) → Buf (Elt Ideal) ℓ)

/-- The column the region leaves: the proof data's array of output window 2 after the last grid point. -/
def lseArr (c : Dev nD) : Vec Ideal S16384x1 .f32 := (dats m 0 c).arrAt 2 cfg0.N

/-! ## The blocks a point reads, as rows of the two argument arrays -/

private theorem N256 : cfg0.N = 256 := N_0

/-- The anchor row point t's block row p sits at. -/
private def arow (t : Fin cfg0.N) (p : Fin 2048) : Fin 16384 :=
  ⟨2048 * (t.val / 32) + p.val, by have := t.isLt; have := N256; have := p.isLt; omega⟩

/-- The candidate row point t's block row q sits at. -/
private def crow (t : Fin cfg0.N) (q : Fin 512) : Fin 16384 :=
  ⟨512 * (t.val % 32) + q.val, by have := q.isLt; omega⟩

private abbrev ablk (c : Dev nD) (t : Fin cfg0.N) : Vec Ideal S2048x256 .f32 := iblk m c 0 t
private abbrev cblk (c : Dev nD) (t : Fin cfg0.N) : Vec Ideal S512x256 .f32 := iblk m c 1 t

private theorem idx0 : ∀ t : Fin cfg0.N, win0_0.index t (0 : Fin 2) = t.val / 32 ∧ win0_0.index t (1 : Fin 2) = 0 :=
  (by decide +kernel : ∀ t : Fin grid0.N, win0_0.index t (0 : Fin 2) = t.val / 32 ∧ win0_0.index t (1 : Fin 2) = 0)

private theorem idx1 : ∀ t : Fin cfg0.N, win0_1.index t (0 : Fin 2) = t.val % 32 ∧ win0_1.index t (1 : Fin 2) = 0 :=
  (by decide +kernel : ∀ t : Fin grid0.N, win0_1.index t (0 : Fin 2) = t.val % 32 ∧ win0_1.index t (1 : Fin 2) = 0)

private theorem ablk_apply (c : Dev nD) (t : Fin cfg0.N) (p : Fin 2048) (d : Fin 256) :
    ablk m c t (ix2 p d) = m ((c.tc : Thread nD τ).loc main_arg0) (ix2 (arow t p) d) := by
  show V m c main_arg0 (((cfg0.win 0).blk t).view.emb (ix2 p d)) = V m c main_arg0 (ix2 (arow t p) d)
  congr 1
  funext a
  apply Fin.ext
  obtain ⟨e0, e1⟩ := idx0 t
  match a with
  | ⟨0, _⟩ => show win0_0.index t (0 : Fin 2) * 2048 + 1 * p.val = 2048 * (t.val / 32) + p.val; rw [e0]; omega
  | ⟨1, _⟩ => show win0_0.index t (1 : Fin 2) * 256 + 1 * d.val = d.val; rw [e1]; omega

private theorem cblk_apply (c : Dev nD) (t : Fin cfg0.N) (q : Fin 512) (d : Fin 256) :
    cblk m c t (ix2 q d) = m ((c.tc : Thread nD τ).loc main_arg1) (ix2 (crow t q) d) := by
  show V m c main_arg1 (((cfg0.win 1).blk t).view.emb (ix2 q d)) = V m c main_arg1 (ix2 (crow t q) d)
  congr 1
  funext a
  apply Fin.ext
  obtain ⟨e0, e1⟩ := idx1 t
  match a with
  | ⟨0, _⟩ => show win0_1.index t (0 : Fin 2) * 512 + 1 * q.val = 512 * (t.val % 32) + q.val; rw [e0]; omega
  | ⟨1, _⟩ => show win0_1.index t (1 : Fin 2) * 256 + 1 * d.val = d.val; rw [e1]; omega

/-! ## One point's step on the running pair -/

/-- The scores of anchor n against the candidates of tile j. -/
private def sc (a cnd : Fin 16384 → Fin 256 → ℝ) (n : Fin 16384) : ℕ → Fin 512 → ℝ := fun j q => logit a cnd n (col j q)

/-- The anchor rows and the candidate rows a point's blocks hold. -/
private def xaOf (a : Fin 16384 → Fin 256 → ℝ) (t : Fin cfg0.N) : Fin 2048 → Fin 256 → ℝ := fun p d => a (arow t p) d
private def xcOf (cnd : Fin 16384 → Fin 256 → ℝ) (t : Fin cfg0.N) : Fin 512 → Fin 256 → ℝ := fun q d => cnd (crow t q) d

private theorem crow_eq_col (t : Fin cfg0.N) (q : Fin 512) : crow t q = col (t.val % 32) q := by
  apply Fin.ext
  rw [col_val (Nat.mod_lt _ (by decide)) q]
  rfl

/-- The tile's scores at a point are the row's scores against tile t mod 32. -/
private theorem tile_eq (a cnd : Fin 16384 → Fin 256 → ℝ) (t : Fin cfg0.N) (p : Fin 2048) :
    tileScore (xaOf a t) (xcOf cnd t) p = sc a cnd (arow t p) (t.val % 32) := by
  funext q
  show cosine (a (arow t p)) (cnd (crow t q)) / tempR = cosine (a (arow t p)) (cnd (col (t.val % 32) q)) / tempR
  rw [crow_eq_col]

/-- A row tile's first point: from the reset columns the pair is the running pair after tile 0. -/
private theorem first_pair (x0 : Vec Ideal S2048x256 .f32) (x1 : Vec Ideal S512x256 .f32)
    (xa : Fin 2048 → Fin 256 → ℝ) (xc : Fin 512 → Fin 256 → ℝ)
    (h0 : ∀ p d, x0 (ix2 p d) = ((xa p d : ℝ) : EReal)) (h1 : ∀ q d, x1 (ix2 q d) = ((xc q d : ℝ) : EReal))
    (p : Fin 2048) (s : ℕ → Fin 512 → ℝ) (htile : tileScore xa xc p = s 0) :
    stepM (F := Ideal) x0 x1 mu0 (ix2 p 0) = ((runMax s 0 : ℝ) : EReal)
      ∧ stepL (F := Ideal) x0 x1 mu0 lam0 (ix2 p 0) = ((runSum s 0 : ℝ) : EReal) := by
  refine ⟨?_, ?_⟩
  · rw [stepM_first x0 x1 xa xc h0 h1 p, htile]; rfl
  · rw [stepL_first x0 x1 xa xc h0 h1 p, htile]; rfl

/-- A later point: from the running pair after tile j the pair is the running pair after tile j + 1. -/
private theorem next_pair (x0 : Vec Ideal S2048x256 .f32) (x1 : Vec Ideal S512x256 .f32)
    (xa : Fin 2048 → Fin 256 → ℝ) (xc : Fin 512 → Fin 256 → ℝ)
    (h0 : ∀ p d, x0 (ix2 p d) = ((xa p d : ℝ) : EReal)) (h1 : ∀ q d, x1 (ix2 q d) = ((xc q d : ℝ) : EReal))
    (mu lam : Vec Ideal S2048x1 .f32) (p : Fin 2048) (s : ℕ → Fin 512 → ℝ) (j : ℕ)
    (htile : tileScore xa xc p = s (j + 1))
    (hmu : mu (ix2 p 0) = ((runMax s j : ℝ) : EReal)) (hlam : lam (ix2 p 0) = ((runSum s j : ℝ) : EReal)) :
    stepM (F := Ideal) x0 x1 mu (ix2 p 0) = ((runMax s (j + 1) : ℝ) : EReal)
      ∧ stepL (F := Ideal) x0 x1 mu lam (ix2 p 0) = ((runSum s (j + 1) : ℝ) : EReal) := by
  refine ⟨?_, ?_⟩
  · rw [stepM_next x0 x1 xa xc h0 h1 mu p (runMax s j) hmu, htile]; rfl
  · rw [stepL_next x0 x1 xa xc h0 h1 mu lam p (runMax s j) (runSum s j) hmu hlam, htile]; rfl

/-! ## The carried columns after every point -/

section Carried
variable (c : Dev nD) (a cnd : Fin 16384 → Fin 256 → ℝ)
    (hA : ∀ n d, m ((c.tc : Thread nD τ).loc main_arg0) (ix2 n d) = ((a n d : ℝ) : EReal))
    (hC : ∀ k d, m ((c.tc : Thread nD τ).loc main_arg1) (ix2 k d) = ((cnd k d : ℝ) : EReal))
include hA in
private theorem ablk_real (t : Fin cfg0.N) (p : Fin 2048) (d : Fin 256) :
    ablk m c t (ix2 p d) = ((xaOf a t p d : ℝ) : EReal) := by
  rw [ablk_apply, hA]; rfl
include hC in
private theorem cblk_real (t : Fin cfg0.N) (q : Fin 512) (d : Fin 256) :
    cblk m c t (ix2 q d) = ((xcOf cnd t q d : ℝ) : EReal) := by
  rw [cblk_apply, hC]; rfl

include hA hC in
/-- THE INVARIANT: after point n the two carried columns hold, at block row p, the running maximum and the running
    sum of the row's scores over tiles 0 … n mod 32. -/
private theorem carried : ∀ (n : ℕ) (h : n < cfg0.N) (p : Fin 2048),
    (outsAt0 m c n h).2.1 (ix2 p 0) = ((runMax (sc a cnd (arow ⟨n, h⟩ p)) (n % 32) : ℝ) : EReal)
    ∧ (outsAt0 m c n h).2.2 (ix2 p 0) = ((runSum (sc a cnd (arow ⟨n, h⟩ p)) (n % 32) : ℝ) : EReal) := by
  intro n
  induction n using Nat.strong_induction_on with
  | _ n ih =>
    intro h p
    have hN := N256
    by_cases h0 : n % 32 = 0
    · have h1 : ¬ n % 32 = 31 := by omega
      rw [outsAt0_A m c ⟨n, h⟩ h0 h1]
      dsimp only
      rw [sout0_A_0_eq, sout0_A_1_eq, h0]
      exact first_pair (ablk m c ⟨n, h⟩) (cblk m c ⟨n, h⟩) (xaOf a ⟨n, h⟩) (xcOf cnd ⟨n, h⟩)
        (ablk_real m c a hA ⟨n, h⟩) (cblk_real m c cnd hC ⟨n, h⟩) p (sc a cnd (arow ⟨n, h⟩ p))
        ((tile_eq a cnd ⟨n, h⟩ p).trans (by show sc a cnd _ (n % 32) = _; rw [h0]))
    · obtain ⟨j, hj⟩ : ∃ j, n % 32 = j + 1 := ⟨n % 32 - 1, by omega⟩
      have hprev : n - 1 < cfg0.N := by omega
      have hrow : arow ⟨n - 1, hprev⟩ p = arow ⟨n, h⟩ p := by
        apply Fin.ext
        show 2048 * ((n - 1) / 32) + p.val = 2048 * (n / 32) + p.val
        omega
      have hmod : (n - 1) % 32 = j := by omega
      obtain ⟨ihM, ihL⟩ := ih (n - 1) (by omega) hprev p
      rw [hrow, hmod] at ihM ihL
      by_cases h1 : n % 32 = 31
      · rw [outsAt0_C m c ⟨n, h⟩ h0 h1]
        dsimp only
        rw [sout0_C_0_eq, sout0_C_1_eq, hj]
        exact next_pair (ablk m c ⟨n, h⟩) (cblk m c ⟨n, h⟩) (xaOf a ⟨n, h⟩) (xcOf cnd ⟨n, h⟩)
          (ablk_real m c a hA ⟨n, h⟩) (cblk_real m c cnd hC ⟨n, h⟩)
          (outsAt0 m c (n - 1) hprev).2.1 (outsAt0 m c (n - 1) hprev).2.2 p (sc a cnd (arow ⟨n, h⟩ p)) j
          ((tile_eq a cnd ⟨n, h⟩ p).trans (by show sc a cnd _ (n % 32) = _; rw [hj])) ihM ihL
      · rw [outsAt0_B m c ⟨n, h⟩ h0 h1]
        dsimp only
        rw [sout0_B_0_eq, sout0_B_1_eq, hj]
        exact next_pair (ablk m c ⟨n, h⟩) (cblk m c ⟨n, h⟩) (xaOf a ⟨n, h⟩) (xcOf cnd ⟨n, h⟩)
          (ablk_real m c a hA ⟨n, h⟩) (cblk_real m c cnd hC ⟨n, h⟩)
          (outsAt0 m c (n - 1) hprev).2.1 (outsAt0 m c (n - 1) hprev).2.2 p (sc a cnd (arow ⟨n, h⟩ p)) j
          ((tile_eq a cnd ⟨n, h⟩ p).trans (by show sc a cnd _ (n % 32) = _; rw [hj])) ihM ihL
end Carried

/-! ## The block a row tile's last point writes back -/

section Final
variable (c : Dev nD) (a cnd : Fin 16384 → Fin 256 → ℝ)
    (hA : ∀ n d, m ((c.tc : Thread nD τ).loc main_arg0) (ix2 n d) = ((a n d : ℝ) : EReal))
    (hC : ∀ k d, m ((c.tc : Thread nD τ).loc main_arg1) (ix2 k d) = ((cnd k d : ℝ) : EReal))

include hA hC in
/-- At a row tile's last point the output block holds, at block row p, the row's log-sum-exp. -/
private theorem out_last (n : ℕ) (h : n < cfg0.N) (h1 : n % 32 = 31) (p : Fin 2048) :
    (outsAt0 m c n h).1 (ix2 p 0) = ((lse (logit a cnd (arow ⟨n, h⟩ p)) : ℝ) : EReal) := by
  have hN := N256
  have h0 : ¬ n % 32 = 0 := by omega
  have hprev : n - 1 < cfg0.N := by omega
  have hrow : arow ⟨n - 1, hprev⟩ p = arow ⟨n, h⟩ p := by
    apply Fin.ext
    show 2048 * ((n - 1) / 32) + p.val = 2048 * (n / 32) + p.val
    omega
  have hmod : (n - 1) % 32 = 30 := by omega
  obtain ⟨ihM, ihL⟩ := carried m c a cnd hA hC (n - 1) hprev p
  rw [hrow, hmod] at ihM ihL
  obtain ⟨hM, hL⟩ := next_pair (ablk m c ⟨n, h⟩) (cblk m c ⟨n, h⟩) (xaOf a ⟨n, h⟩) (xcOf cnd ⟨n, h⟩)
    (ablk_real m c a hA ⟨n, h⟩) (cblk_real m c cnd hC ⟨n, h⟩)
    (outsAt0 m c (n - 1) hprev).2.1 (outsAt0 m c (n - 1) hprev).2.2 p (sc a cnd (arow ⟨n, h⟩ p)) 30
    ((tile_eq a cnd ⟨n, h⟩ p).trans (by show sc a cnd _ (n % 32) = _; rw [h1])) ihM ihL
  rw [outsAt0_C m c ⟨n, h⟩ h0 h1]
  dsimp only
  rw [out0_C_2_eq]
  refine (outV_apply (stepM (F := Ideal) (ablk m c ⟨n, h⟩) (cblk m c ⟨n, h⟩) (outsAt0 m c (n - 1) hprev).2.1)
    (stepL (F := Ideal) (ablk m c ⟨n, h⟩) (cblk m c ⟨n, h⟩) (outsAt0 m c (n - 1) hprev).2.1 (outsAt0 m c (n - 1) hprev).2.2)
    p (runMax (sc a cnd (arow ⟨n, h⟩ p)) 31) (runSum (sc a cnd (arow ⟨n, h⟩ p)) 31)
    (runSum_pos _ _) hM hL).trans ?_
  rw [show runMax (sc a cnd (arow ⟨n, h⟩ p)) 31 + Real.log (runSum (sc a cnd (arow ⟨n, h⟩ p)) 31)
      = lse (logit a cnd (arow ⟨n, h⟩ p)) from online_lse (logit a cnd (arow ⟨n, h⟩ p))]

/-- The column of log-sum-exps. -/
private def G : Vec Ideal S16384x1 .f32 := fun i => ((lse (logit a cnd ⟨(i 0).val, idx2_lt0 i⟩) : ℝ) : EReal)

private theorem idx2 : ∀ t : Fin cfg0.N, win0_2.index t (0 : Fin 2) = t.val / 32 ∧ win0_2.index t (1 : Fin 2) = 0 :=
  (by decide +kernel : ∀ t : Fin grid0.N, win0_2.index t (0 : Fin 2) = t.val / 32 ∧ win0_2.index t (1 : Fin 2) = 0)

include hA hC in
/-- What a row tile's last point writes back is its block of the column of log-sum-exps. -/
private theorem flushed_eq (t : Fin cfg0.N) (hf : (cfg0.win 2).flush t = true) :
    (dats m 0 c).flushed 2 t = ((cfg0.win 2).blk t).view.read (Elt Ideal) (G a cnd) := by
  have h31 : t.val % 32 = 31 := (flush0_2 t).mp hf
  show (cfg0.win 2).cut (grid0.coords t) ((dats m 0 c).after 2 t) = _
  rw [after0_2]
  funext y
  have hy0 : (y 0).val < 2048 := (y 0).isLt
  have hy1 : (y 1).val < 1 := (y 1).isLt
  have e : (cfg0.win 2).xinj (grid0.coords t) y = ix2 (⟨(y 0).val, hy0⟩ : Fin 2048) (0 : Fin 1) := by
    funext b
    apply Fin.ext
    match b with
    | ⟨0, _⟩ => rfl
    | ⟨1, _⟩ => show (y 1).val = 0; omega
  refine (congrArg (outsAt0 m c t.val t.isLt).1 e).trans ?_
  rw [out_last m c a cnd hA hC t.val t.isLt h31 ⟨(y 0).val, hy0⟩]
  show _ = G a cnd (((cfg0.win 2).blk t).view.emb y)
  unfold G
  congr 3
  apply Fin.ext
  obtain ⟨e0, e1⟩ := idx2 t
  show 2048 * (t.val / 32) + (y 0).val = win0_2.index t (0 : Fin 2) * 2048 + 1 * (y 0).val
  rw [e0]; omega

end Final

/-! ## The blocks written back cover the column -/

/-- An index of the column is in point t's block iff each coordinate is in the block's range on its axis. -/
private theorem mem_blk (t : Fin cfg0.N) (i : S16384x1.Idx) :
    i ∈ ((cfg0.win 2).blk t).view.set ↔ ∀ b : Fin 2, win0_2.index t b * S2048x1.size b ≤ (i b).val ∧ (i b).val < win0_2.index t b * S2048x1.size b + S2048x1.size b := by
  show i ∈ ((View.whole main_v0).slice (win0_2.rect t)).set ↔ _
  rw [View.set_slice_whole, Rect.mem_set_unit]
  exact Iff.rfl

/-- Row r of the column is in the block the last point of row tile r / 2048 writes back. -/
private theorem covered (i : S16384x1.Idx) :
    ∃ t : Fin cfg0.N, (cfg0.win 2).flush t = true ∧ i ∈ ((cfg0.win 2).blk t).view.set := by
  have hi0 : (i 0).val < 16384 := idx2_lt0 i
  have hi1 : (i 1).val < 1 := idx2_lt1 i
  have hN := N256
  obtain ⟨t, ht⟩ : ∃ t : Fin cfg0.N, t.val = 32 * ((i 0).val / 2048) + 31 := ⟨⟨_, by omega⟩, rfl⟩
  refine ⟨t, (flush0_2 t).mpr (by omega), ?_⟩
  rw [mem_blk]
  obtain ⟨e0, e1⟩ := idx2 t
  intro b
  match b with
  | ⟨0, _⟩ =>
    show win0_2.index t (0 : Fin 2) * 2048 ≤ (i 0).val ∧ (i 0).val < win0_2.index t (0 : Fin 2) * 2048 + 2048
    rw [e0]; omega
  | ⟨1, _⟩ =>
    show win0_2.index t (1 : Fin 2) * 1 ≤ (i 1).val ∧ (i 1).val < win0_2.index t (1 : Fin 2) * 1 + 1
    rw [e1]; omega

/-- Row n of the column is the log-sum-exp of anchor n's scores. -/
theorem lse_array (c : Dev nD) (a cnd : Fin 16384 → Fin 256 → ℝ)
    (hA : ∀ n d, m ((c.tc : Thread nD τ).loc main_arg0) (ix2 n d) = ((a n d : ℝ) : EReal))
    (hC : ∀ k d, m ((c.tc : Thread nD τ).loc main_arg1) (ix2 k d) = ((cnd k d : ℝ) : EReal))
    (n : Fin 16384) :
    lseArr m c (ix2 n 0) = ((lse (logit a cnd n) : ℝ) : EReal) := by
  have hfin : lseArr m c = G a cnd :=
    (dats m 0 c).arrAt_eq_of_cover 2 (G a cnd) (flushed_eq m c a cnd hA hC) covered
  rw [hfin]
  rfl

end Cert.KernelIdeal.RunValue

end
-- ==== Proof.LibClamp.lean ====
/-
  The start index of a host gather, read as the operation reads it: the word taken as a signed integer and clamped
  into the table's rows 0 … N − 1 (a negative index reads row 0, one past the end reads the last row).
-/
import Mathlib.Data.BitVec
import Mathlib.Order.Basic

namespace Cert.LibClamp

/-- A word read signed and clamped into the rows 0 … N − 1 of a table with at least one row. -/
def clampTo {w : Nat} (N : Nat) (hN : 0 < N) (v : BitVec w) : Fin N := ⟨min v.toInt.toNat (N - 1), by omega⟩

end Cert.LibClamp
-- ==== Proof.LibGatherScatter.lean ====
/-
  The host's row gather and accumulating row scatter, read at one element, for abstract dimension records whose
  printed fields are given as hypotheses. A row gather over an [N × C] table with an [n × 1] column of start indices
  reads, at (e, j), the table's row named by the e-th index — taken as a signed integer and clamped into the rows
  0 … N − 1 — at column j. The accumulating row scatter adds, into element (c, j), column j of every update row
  whose index, taken signed and NOT clamped, is exactly c; an index that is negative or at least N adds nowhere. The
  same two readings are given for a rank-1 table.
-/
import Idealize.ShloMosaic.PureOps.Ideal
import Idealize.ShloMosaic.PureOps.Ideal.Laws
import Idealize.ShloMosaic.Lib.ValueIdx
import Idealize.ShloMosaic.Lib.StableHlo.Predicate
import proofs.«417422_j41145786695939_1_alg».proof.Proof.LibClamp

open scoped BigOperators

namespace Cert.LibGatherScatter

open Idealize.ShloMosaic Idealize.ShloMosaic.ValueIdx Idealize.ShloMosaic.StableHlo.Predicate
open Cert.LibClamp

/-! ## Where an update lands -/

/-- An update index lands at operand index `i` exactly when, on every operand axis, the window's start (read signed,
    not clamped) plus the window coordinate is `i`'s coordinate: inside the operand by being a coordinate of it. -/
theorem resultIdx?_eq_some_iff {s si u : Shape} {w : Nat} (d : ScatterDims s si u) (j : u.Idx) (idx : IVec si w) (i : s.Idx) :
    d.resultIdx? j idx = some i ↔ ∀ a, d.start j idx a + (d.window j a : ℤ) = ((i a).val : ℤ) := by
  unfold ScatterDims.resultIdx?
  split
  · next h =>
    rw [Option.some.injEq]
    constructor
    · rintro rfl a
      have := h a
      show _ = (((d.start j idx a + (d.window j a : ℤ)).toNat : ℕ) : ℤ)
      omega
    · intro hi
      funext a
      apply Fin.ext
      have := hi a
      show (d.start j idx a + (d.window j a : ℤ)).toNat = (i a).val
      omega
  · next h =>
    constructor
    · intro hn; exact absurd hn (by simp)
    · intro hi
      exfalso
      apply h
      intro a
      have := hi a
      have := (i a).isLt
      omega

/-- The accumulating row scatter's dimension numbers, read at update index `(e, j')`: on the operand's row axis the
    window starts at the `e`-th scatter index and has no extent; on the column axis it starts at `0` and the update's
    column is the window coordinate. -/
theorem scatter_rows_coords {N C n w : Nat}
    (d : ScatterDims ⟨2, ![N, C]⟩ ⟨2, ![n, 1]⟩ ⟨2, ![n, C]⟩)
    (huw : d.updateWindowDims = [1]) (hiw : d.insertedWindowDims = [0])
    (hsd : d.scatterDimsToOperandDims = [0]) (hivd : d.indexVectorDim = 1)
    (idx : IVec ⟨2, ![n, 1]⟩ w) (e : Fin n) (j' : Fin C) :
    d.start (ix2 e j') idx 0 = (idx (ixP e)).toInt ∧ d.start (ix2 e j') idx 1 = 0
    ∧ d.window (ix2 e j') 0 = 0 ∧ d.window (ix2 e j') 1 = j'.val := by
  obtain ⟨uw, iw, sd, ivd, wf⟩ := d
  simp only at huw hiw hsd hivd
  subst huw hiw hsd hivd
  refine ⟨?_, rfl, rfl, rfl⟩
  unfold ScatterDims.start
  rw [dif_pos (List.mem_singleton.mpr rfl)]
  congr 2
  funext b
  match b with
  | ⟨0, _⟩ => rfl
  | ⟨1, _⟩ => rfl

/-- Update `(e, j')` of the row scatter lands at operand element `(c, j)` exactly when it is in column `j` and the
    `e`-th scatter index, read signed, is the row `c`: a negative index, or one past the last row, lands nowhere. -/
theorem scatter_rows_resultIdx_iff {N C n w : Nat}
    (d : ScatterDims ⟨2, ![N, C]⟩ ⟨2, ![n, 1]⟩ ⟨2, ![n, C]⟩)
    (huw : d.updateWindowDims = [1]) (hiw : d.insertedWindowDims = [0])
    (hsd : d.scatterDimsToOperandDims = [0]) (hivd : d.indexVectorDim = 1)
    (idx : IVec ⟨2, ![n, 1]⟩ w) (e : Fin n) (j' : Fin C) (c : Fin N) (j : Fin C) :
    d.resultIdx? (ix2 e j') idx = some (ix2 c j) ↔ j' = j ∧ (idx (ixP e)).toInt = (c.val : ℤ) := by
  obtain ⟨hs0, hs1, hw0, hw1⟩ := scatter_rows_coords d huw hiw hsd hivd idx e j'
  rw [resultIdx?_eq_some_iff]
  constructor
  · intro h
    have h0 := h 0
    have h1 := h 1
    rw [hs0, hw0] at h0
    rw [hs1, hw1] at h1
    have h0' : (idx (ixP e)).toInt + ((0 : ℕ) : ℤ) = (c.val : ℤ) := h0
    have h1' : (0 : ℤ) + (j'.val : ℤ) = (j.val : ℤ) := h1
    exact ⟨Fin.ext (by omega), by omega⟩
  · rintro ⟨rfl, hv⟩ a
    match a with
    | ⟨0, _⟩ =>
      show d.start (ix2 e j') idx 0 + (d.window (ix2 e j') 0 : ℤ) = (c.val : ℤ)
      rw [hs0, hw0]; omega
    | ⟨1, _⟩ =>
      show d.start (ix2 e j') idx 1 + (d.window (ix2 e j') 1 : ℤ) = (j'.val : ℤ)
      rw [hs1, hw1]; omega

/-! ## The accumulating row scatter at an element -/

/-- THE ROW SCATTER READ AT `(c, j)`. The accumulation of update rows into the rows of an [N × C] table, the scatter indices an
    [n × 1] column: element `(c, j)` is the operand's plus the sum of column `j` of the update rows `e` whose scatter
    index, read SIGNED and NOT clamped, is `c`. A row whose index is negative or at least `N` adds nowhere. -/
theorem scatterAdd_rows_apply {N C n w : Nat} {φ : FTy}
    (d : ScatterDims ⟨2, ![N, C]⟩ ⟨2, ![n, 1]⟩ ⟨2, ![n, C]⟩)
    (huw : d.updateWindowDims = [1]) (hiw : d.insertedWindowDims = [0])
    (hsd : d.scatterDimsToOperandDims = [0]) (hivd : d.indexVectorDim = 1)
    (x : FVec Ideal ⟨2, ![N, C]⟩ φ) (idx : IVec ⟨2, ![n, 1]⟩ w) (upd : FVec Ideal ⟨2, ![n, C]⟩ φ)
    (c : Fin N) (j : Fin C) :
    Host.scatterAdd (F := Ideal) d x idx upd (ix2 c j)
      = x (ix2 c j) + ∑ e ∈ Finset.univ.filter (fun e : Fin n => (idx (ixP e)).toInt = (c.val : ℤ)), upd (ix2 e j) := by
  have hmem : ∀ i : (⟨2, ![n, C]⟩ : Shape).Idx,
      d.resultIdx? i idx = some (ix2 c j) ↔ i 1 = j ∧ (idx (ixP (i 0))).toInt = (c.val : ℤ) := fun i => by
    conv_lhs => rw [eq_ix2 i]
    exact scatter_rows_resultIdx_iff d huw hiw hsd hivd idx (i 0) (i 1) c j
  unfold Host.scatterAdd
  rw [Ideal.hostScatterAdd_def]
  unfold Ideal.hostScatterAdd
  congr 1
  refine Finset.sum_bij' (fun i _ => i 0) (fun e _ => ix2 e j) ?_ ?_ ?_ ?_ ?_
  · intro i hi
    exact Finset.mem_filter.2 ⟨Finset.mem_univ _, ((hmem i).1 (Finset.mem_filter.1 hi).2).2⟩
  · intro e he
    exact Finset.mem_filter.2 ⟨Finset.mem_univ _, (hmem (ix2 e j)).2 ⟨rfl, (Finset.mem_filter.1 he).2⟩⟩
  · intro i hi
    have h1 : i 1 = j := ((hmem i).1 (Finset.mem_filter.1 hi).2).1
    rw [← h1]; exact (eq_ix2 i).symm
  · intro e _; rfl
  · intro i hi
    have h1 : i 1 = j := ((hmem i).1 (Finset.mem_filter.1 hi).2).1
    rw [← h1]; exact congrArg upd (eq_ix2 i)

/-! ## The row gather at an element -/

/-- The row gather's dimension numbers, read at result index `(e, j)`: the operand's row is the `e`-th start index read
    signed and clamped into `0 … N − 1` (the slice is one row high), its column is `j` (the slice starts at column 0,
    and the result's second axis is the offset along it). -/
theorem gather_rows_coords {N C n w : Nat}
    (d : GatherDims ⟨2, ![N, C]⟩ ⟨2, ![n, 1]⟩ ⟨2, ![n, C]⟩)
    (hod : d.offsetDims = [1]) (hcoll : d.collapsedSliceDims = [0]) (hob : d.operandBatchingDims = [])
    (hsim : d.startIndexMap = [0]) (hivd : d.indexVectorDim = 1)
    (idx : IVec ⟨2, ![n, 1]⟩ w) (e : Fin n) (j : Fin C) :
    (d.operandIdx (ix2 e j) idx 0).val = min (idx (ixP e)).toInt.toNat (N - 1)
    ∧ (d.operandIdx (ix2 e j) idx 1).val = j.val := by
  have hsl : d.sliceSizes 0 = 1 := d.slice_collapsed 0 (by rw [hcoll]; exact List.mem_singleton.mpr rfl)
  obtain ⟨od, cd, ob, sb, sm, ivd, ss, wf⟩ := d
  simp only at hod hcoll hob hsim hivd hsl
  subst hod hcoll hob hsim hivd
  refine ⟨?_, ?_⟩
  swap
  · show GatherDims.start _ (ix2 e j) idx 1 + GatherDims.batchCoord _ (ix2 e j) 1 + GatherDims.offCoord _ (ix2 e j) 1 = _
    rw [GatherDims.batchCoord_eq_zero _ _ _ List.not_mem_nil]
    have hst : GatherDims.start ⟨[1], [0], [], sb, [0], 1, ss, wf⟩ (ix2 e j) idx 1 = 0 := rfl
    have hof : GatherDims.offCoord ⟨[1], [0], [], sb, [0], 1, ss, wf⟩ (ix2 e j) 1 = j.val := rfl
    rw [hst, hof]
    omega
  show GatherDims.start _ (ix2 e j) idx 0 + GatherDims.batchCoord _ (ix2 e j) 0 + GatherDims.offCoord _ (ix2 e j) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (List.mem_singleton.mpr rfl)]
  show min _ (N - ss 0) = _
  rw [hsl]
  congr 3
  congr 1
  funext b
  match b with
  | ⟨0, _⟩ => rfl
  | ⟨1, _⟩ => rfl

/-- THE ROW GATHER READ AT `(e, j)`: the table's row named by the `e`-th start index, read SIGNED and CLAMPED into the rows
    `0 … N − 1` (a negative index reads row 0, one past the end reads the last row), at column `j`. -/
theorem gather_rows_apply {α : Type} {N C n w : Nat} (hN : 0 < N)
    (d : GatherDims ⟨2, ![N, C]⟩ ⟨2, ![n, 1]⟩ ⟨2, ![n, C]⟩)
    (hod : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (e : Fin n) (j : Fin C) :
    Host.gather d x idx (ix2 e j) = x (ix2 (clampTo N hN (idx (ixP e))) j) := by
  obtain ⟨h0, h1⟩ := gather_rows_coords d hod hcoll hob hsim hivd idx e j
  unfold Host.gather
  congr 1
  funext a
  apply Fin.ext
  match a with
  | ⟨0, _⟩ => exact h0
  | ⟨1, _⟩ => exact h1

/-! ## The accumulating scatter into a rank-1 table at an element -/

/-- The rank-1 scatter's dimension numbers, read at update index `e`: on the operand's one axis the window starts at
    the `e`-th scatter index and has no extent. -/
theorem scatter_vec_coords {G n w : Nat}
    (d : ScatterDims ⟨1, ![G]⟩ ⟨2, ![n, 1]⟩ ⟨1, ![n]⟩)
    (huw : d.updateWindowDims = []) (hiw : d.insertedWindowDims = [0])
    (hsd : d.scatterDimsToOperandDims = [0]) (hivd : d.indexVectorDim = 1)
    (idx : IVec ⟨2, ![n, 1]⟩ w) (e : Fin n) :
    d.start (ix1 e) idx 0 = (idx (ixP e)).toInt ∧ d.window (ix1 e) 0 = 0 := by
  obtain ⟨uw, iw, sd, ivd, wf⟩ := d
  simp only at huw hiw hsd hivd
  subst huw hiw hsd hivd
  refine ⟨?_, rfl⟩
  unfold ScatterDims.start
  rw [dif_pos (List.mem_singleton.mpr rfl)]
  congr 2
  funext b
  match b with
  | ⟨0, _⟩ => rfl
  | ⟨1, _⟩ => rfl

/-- Update `e` of the rank-1 scatter lands at operand element `q` exactly when the `e`-th scatter index, read signed, is
    `q`: a negative index, or one past the last entry, lands nowhere. -/
theorem scatter_vec_resultIdx_iff {G n w : Nat}
    (d : ScatterDims ⟨1, ![G]⟩ ⟨2, ![n, 1]⟩ ⟨1, ![n]⟩)
    (huw : d.updateWindowDims = []) (hiw : d.insertedWindowDims = [0])
    (hsd : d.scatterDimsToOperandDims = [0]) (hivd : d.indexVectorDim = 1)
    (idx : IVec ⟨2, ![n, 1]⟩ w) (e : Fin n) (q : Fin G) :
    d.resultIdx? (ix1 e) idx = some (ix1 q) ↔ (idx (ixP e)).toInt = (q.val : ℤ) := by
  obtain ⟨hs0, hw0⟩ := scatter_vec_coords d huw hiw hsd hivd idx e
  rw [resultIdx?_eq_some_iff]
  constructor
  · intro h
    have h0 := h 0
    rw [hs0, hw0] at h0
    have h0' : (idx (ixP e)).toInt + ((0 : ℕ) : ℤ) = (q.val : ℤ) := h0
    omega
  · intro hv a
    match a with
    | ⟨0, _⟩ =>
      show d.start (ix1 e) idx 0 + (d.window (ix1 e) 0 : ℤ) = (q.val : ℤ)
      rw [hs0, hw0]; omega

/-- THE RANK-1 SCATTER READ AT `q`. The accumulation of scalar updates into a table of `G` entries, the scatter indices an
    [n × 1] column: entry `q` is the operand's plus the sum of the updates `e` whose scatter index, read SIGNED and NOT
    clamped, is `q`. An update whose index is negative or at least `G` adds nowhere. -/
theorem scatterAdd_vec_apply {G n w : Nat} {φ : FTy}
    (d : ScatterDims ⟨1, ![G]⟩ ⟨2, ![n, 1]⟩ ⟨1, ![n]⟩)
    (huw : d.updateWindowDims = []) (hiw : d.insertedWindowDims = [0])
    (hsd : d.scatterDimsToOperandDims = [0]) (hivd : d.indexVectorDim = 1)
    (x : FVec Ideal ⟨1, ![G]⟩ φ) (idx : IVec ⟨2, ![n, 1]⟩ w) (upd : FVec Ideal ⟨1, ![n]⟩ φ) (q : Fin G) :
    Host.scatterAdd (F := Ideal) d x idx upd (ix1 q)
      = x (ix1 q) + ∑ e ∈ Finset.univ.filter (fun e : Fin n => (idx (ixP e)).toInt = (q.val : ℤ)), upd (ix1 e) := by
  have hmem : ∀ i : (⟨1, ![n]⟩ : Shape).Idx,
      d.resultIdx? i idx = some (ix1 q) ↔ (idx (ixP (i 0))).toInt = (q.val : ℤ) := fun i => by
    conv_lhs => rw [eq_ix1 i]
    exact scatter_vec_resultIdx_iff d huw hiw hsd hivd idx (i 0) q
  unfold Host.scatterAdd
  rw [Ideal.hostScatterAdd_def]
  unfold Ideal.hostScatterAdd
  congr 1
  refine Finset.sum_bij' (fun i _ => i 0) (fun e _ => ix1 e) ?_ ?_ ?_ ?_ ?_
  · intro i hi
    exact Finset.mem_filter.2 ⟨Finset.mem_univ _, (hmem i).1 (Finset.mem_filter.1 hi).2⟩
  · intro e he
    exact Finset.mem_filter.2 ⟨Finset.mem_univ _, (hmem (ix1 e)).2 (Finset.mem_filter.1 he).2⟩
  · intro i _; exact (eq_ix1 i).symm
  · intro e _; rfl
  · intro i _; exact congrArg upd (eq_ix1 i)

/-! ## The rank-1 gather at an element -/

/-- A rank-1 index built from its coordinate is the same index however it is written. -/
theorem ofFin_eq_ix1 {n : Nat} (k : Fin n) : (Shape.Idx.ofFin k : (⟨1, ![n]⟩ : Shape).Idx) = ix1 k := by
  funext a
  match a with
  | ⟨0, _⟩ => rfl

/-- THE RANK-1 GATHER READ AT `e`: the table's entry named by the `e`-th start index, read SIGNED and CLAMPED into the
    positions `0 … N − 1` (a negative index reads entry 0, one past the end reads the last). -/
theorem gather_vec_apply {α : Type} {N n w : Nat} (hN : 0 < N)
    (d : GatherDims ⟨1, ![N]⟩ ⟨2, ![n, 1]⟩ ⟨1, ![n]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![n, 1]⟩ w) (e : Fin n) :
    Host.gather d x idx (ix1 e) = x (ix1 (clampTo N hN (idx (ixP e)))) := by
  rw [← ofFin_eq_ix1 e, gather_take d hcoll hob hsim hivd x idx e hN, ofFin_eq_ix1]
  rfl

end Cert.LibGatherScatter
-- ==== Proof.KernelTail.lean ====
/-
  The kernel program's host operations after the region, at the ideal values: from the column of row log-sum-exps the
  region leaves, the two float arguments holding real numbers and every target word naming a candidate row, the
  program's result is the mean over the rows of the log-sum-exp less the score of the anchor against its target
  candidate (the target candidate's row gathered, both rows divided by their clamped norms, their inner product over
  the temperature).
-/
import proofs.«417422_j41145786695939_1_alg».proof.Proof.Gen.KernelIdeal.Frame
import proofs.«417422_j41145786695939_1_alg».proof.Proof.Spec
import proofs.«417422_j41145786695939_1_alg».proof.Proof.LibGatherScatter
import Idealize.ShloMosaic.Lib.ValueIdx
import Idealize.ShloMosaic.Lib.ValueIdxRank1
import Idealize.ShloMosaic.Lib.ValueLayout
import Idealize.ShloMosaic.Lib.Pipeline.Value

set_option maxRecDepth 16384

open scoped BigOperators

noncomputable section

namespace Cert.KernelIdeal.TailValue

open Cert.KernelIdeal Cert.KernelIdeal.Gen
open Idealize.ShloMosaic Idealize.ShloMosaic.TcCoe Idealize.ShloMosaic.ValueIdx Idealize.SL.Sem
open Cert.Consts Cert.Softmax Cert.Contrastive

/-! ## The host operations after the region, as one function of the four arrays they read -/

section Fn

variable {F : FTy → Type} [FloatOps F]

/-- The target words, a negative one moved up by the row count. -/
def wrapT (T : IVec S16384 32) : IVec S16384 32 :=
  select (cmpi .slt T (broadcastInDim S16384 ![] Facts₀.bcast_S_S16384 (constantI S_ 32 0#32)))
    (addi T (broadcastInDim S16384 ![] Facts₀.bcast_S_S16384 (constantI S_ 32 16384#32))) T

/-- The candidate rows the wrapped targets name, one per anchor. -/
def gathered (C : Vec F S16384x256 .f32) (T : IVec S16384 32) : Vec F S16384x256 .f32 :=
  Host.gather gather_S16384x256_S16384x1_S16384x256_1_0_n_n_0_1_1256 C
    (broadcastInDim S16384x1 ![0] Facts₀.bcast_S16384_S16384x1_0 (wrapT T))

/-- Every row over its Euclidean norm clamped below. -/
def unitRows (X : Vec F S16384x256 .f32) : Vec F S16384x256 .f32 :=
  Host.divf (F := F) X
    (broadcastInDim S16384x256 ![0, 1] Facts₀.bcast_S16384x1_S16384x256_0_1
      (maximumf
        (Host.sqrt (F := F)
          (broadcastInDim S16384x1 ![0] Facts₀.bcast_S16384_S16384x1_0
            (Host.reduceAdd (F := F) (mulf X X) (constant (F := F) S_ .f32 0x00000000#32) Facts₀.reducesTo_S16384x256_S16384_d1 Facts₀.h_S_)))
        (broadcastInDim S16384x1 ![] Facts₀.bcast_S_S16384x1 (constant (F := F) S_ .f32 0x2B8CBCCC#32))))

/-- The score of every anchor against its target candidate: the inner product of the two unit rows over the temperature. -/
def score (A C : Vec F S16384x256 .f32) (T : IVec S16384 32) : Vec F S16384 .f32 :=
  Host.divf (F := F)
    (Host.reduceAdd (F := F) (mulf (unitRows A) (unitRows (gathered C T))) (constant (F := F) S_ .f32 0x00000000#32)
      Facts₀.reducesTo_S16384x256_S16384_d1 Facts₀.h_S_)
    (broadcastInDim S16384 ![] Facts₀.bcast_S_S16384 (constant (F := F) S_ .f32 0x3D8F5C29#32))

/-- Every row's loss: its log-sum-exp (the column the region left, as a vector) less its target score. -/
def rowLossV (L : Vec F S16384x1 .f32) (A C : Vec F S16384x256 .f32) (T : IVec S16384 32) : Vec F S16384 .f32 :=
  subf (shapeCast S16384 L Facts₀.shapeCasts_S16384x1_S16384) (score A C T)

/-- The result: the row losses summed from zero, over the row count. -/
def tailFn (L : Vec F S16384x1 .f32) (A C : Vec F S16384x256 .f32) (T : IVec S16384 32) : Vec F S_ .f32 :=
  Host.divf (F := F)
    (Host.reduceAdd (F := F) (rowLossV L A C T) (constant (F := F) S_ .f32 0x00000000#32) Facts₀.reducesTo_S16384_S_d0 Facts₀.h_S_)
    (constant (F := F) S_ .f32 0x46800000#32)

/-- The operations after the region, run from any contents, leave `tailFn` of the four arrays they read. -/
theorem after_tail (W : Valuation τ sig (Elt F)) :
    StableHlo.after hostOps1 W (Proc.devRef .tc main_v31)
      = tailFn (F := F) (W (Proc.devRef .tc main_v0)) (W (Proc.devRef .tc main_arg0)) (W (Proc.devRef .tc main_arg1))
          (W (Proc.devRef .tc main_arg2)) := by
  after_results_simp
  rfl

end Fn

/-! ## The layout operations of the tail read at an index -/

section Reads

variable {α : Type}

/-- A scalar laid over the vector reads the scalar everywhere. -/
theorem bcast_scalar_vec (v : S_.Idx → α) (i : S16384.Idx) :
    broadcastInDim S16384 ![] Facts₀.bcast_S_S16384 v i = v ix0 :=
  broadcastInDim_apply _ Facts₀.bcast_S_S16384 v i ix0 (fun a => a.elim0)

/-- A scalar laid over the column reads the scalar everywhere. -/
theorem bcast_scalar_col (v : S_.Idx → α) (i : S16384x1.Idx) :
    broadcastInDim S16384x1 ![] Facts₀.bcast_S_S16384x1 v i = v ix0 :=
  broadcastInDim_apply _ Facts₀.bcast_S_S16384x1 v i ix0 (fun a => a.elim0)

/-- A vector stood up as a column reads, in row n, the vector at n. -/
theorem bcast_vec_col (v : S16384.Idx → α) (n : Fin 16384) (z : Fin 1) :
    broadcastInDim S16384x1 ![0] Facts₀.bcast_S16384_S16384x1_0 v (ix2 n z) = v (ix1 n) :=
  broadcastInDim_apply _ Facts₀.bcast_S16384_S16384x1_0 v (ix2 n z) (ix1 n) (fun a => match a with
    | ⟨0, _⟩ => by show n.val = if (16384 : Nat) = 1 then 0 else n.val; rw [if_neg (by decide)])

/-- A column laid along the rows reads, at (n, d), the column in row n. -/
theorem bcast_col_rows (v : S16384x1.Idx → α) (n : Fin 16384) (d : Fin 256) :
    broadcastInDim S16384x256 ![0, 1] Facts₀.bcast_S16384x1_S16384x256_0_1 v (ix2 n d) = v (ix2 n 0) :=
  broadcastInDim_apply _ Facts₀.bcast_S16384x1_S16384x256_0_1 v (ix2 n d) (ix2 n 0) (fun a => match a with
    | ⟨0, _⟩ => by show n.val = if (16384 : Nat) = 1 then 0 else n.val; rw [if_neg (by decide)]
    | ⟨1, _⟩ => by show 0 = if (1 : Nat) = 1 then 0 else d.val; rw [if_pos rfl])

/-- The column read as a vector: entry n is the column's row n. -/
theorem column_as_vector (L : S16384x1.Idx → α) (n : Fin 16384) :
    shapeCast S16384 L Facts₀.shapeCasts_S16384x1_S16384 (ix1 n) = L (ix2 n 0) :=
  shapeCast_apply L Facts₀.shapeCasts_S16384x1_S16384 (ix1 n) (ix2 n 0) (by
    rw [Shape.rowMajor_val_two, Shape.rowMajor_val_one]
    show n.val * 1 + 0 = n.val
    omega)

end Reads

/-! ## The sums of the tail at the ideal values -/

/-- A row sum from the zero word is the sum of the row's entries. -/
theorem rowSum_apply (Y : Vec Ideal S16384x256 .f32) (n : Fin 16384) :
    Host.reduceAdd (F := Ideal) Y (constant (F := Ideal) S_ .f32 0x00000000#32) Facts₀.reducesTo_S16384x256_S16384_d1 Facts₀.h_S_ (ix1 n)
      = ∑ k : Fin 256, Y (ix2 n k) := by
  simp only [Host.reduceAdd, Ideal.hostReduceAdd_def]
  rw [Ideal.hostReduceAdd_single Facts₀.reducesTo_S16384x256_S16384_d1 (by decide)]
  rw [show constant (F := Ideal) S_ .f32 0x00000000#32 (Shape.Idx.first Facts₀.h_S_) = Ideal.ofBits .f32 0x00000000#32 from rfl,
    ofBits_zero, zero_add]
  refine Finset.sum_congr rfl fun k _ => ?_
  exact congrArg Y (funext fun a => Fin.ext (by match a with | ⟨0, _⟩ => rfl | ⟨1, _⟩ => rfl))

/-- The sum over the rows from the zero word is the sum of the vector's entries. -/
theorem totalSum_apply (Y : Vec Ideal S16384 .f32) (j : S_.Idx) :
    Host.reduceAdd (F := Ideal) Y (constant (F := Ideal) S_ .f32 0x00000000#32) Facts₀.reducesTo_S16384_S_d0 Facts₀.h_S_ j
      = ∑ k : Fin 16384, Y (ix1 k) := by
  simp only [Host.reduceAdd, Ideal.hostReduceAdd_def]
  rw [Ideal.hostReduceAdd_total Facts₀.reducesTo_S16384_S_d0 (fun b => b.elim0)]
  rw [show constant (F := Ideal) S_ .f32 0x00000000#32 (Shape.Idx.first Facts₀.h_S_) = Ideal.ofBits .f32 0x00000000#32 from rfl,
    ofBits_zero, zero_add]
  exact (Equiv.sum_comp (idxEquiv1 (n := 16384)).symm Y).symm

/-! ## The stages of the tail at the ideal values, bottom-up -/

open Idealize.ShloMosaic.StableHlo.Predicate Cert.LibGatherScatter Cert.LibClamp

/-- The host's quotient at an index is the quotient of the entries. -/
theorem hostDivf_apply {s : Shape} {φ : FTy} (x y : FVec Ideal s φ) (i : s.Idx) : Host.divf x y i = Ideal.div (x i) (y i) := rfl
/-- The host's square root at an index is the square root of the entry. -/
theorem hostSqrt_apply {s : Shape} {φ : FTy} (x : FVec Ideal s φ) (i : s.Idx) : Host.sqrt x i = Ideal.sqrt (x i) := rfl

/-- A target word that names a row (its value below the row count) is not negative as a signed word, so the wrap keeps it. -/
theorem wrapT_apply (T : IVec S16384 32) (n : Fin 16384) (h : (T (ix1 n)).toNat < 16384) :
    wrapT T (ix1 n) = T (ix1 n) := by
  have hc : IntOp.cmpi .slt (T (ix1 n)) 0#32 = 0#1 :=
    eq_zero_of_ne_one fun h1 =>
      Nat.not_lt_zero _ ((slt_iff_toNat (a := T (ix1 n)) (b := 0#32) (by omega) (by decide)).mp h1)
  show Scalar.select (IntOp.cmpi .slt (T (ix1 n)) 0#32) _ (T (ix1 n)) = _
  rw [hc, select_zero]

/-- Row n of a column, in the two spellings of its index. -/
theorem ixP_eq_ix2 (n : Fin 16384) : (ixP n : S16384x1.Idx) = ix2 n 0 := by
  funext a; match a with | ⟨0, _⟩ => rfl | ⟨1, _⟩ => rfl

/-- The gathered row n is the candidate row its target names. -/
theorem gathered_apply (C : Vec Ideal S16384x256 .f32) (T : IVec S16384 32) (t : Fin 16384 → Fin 16384)
    (hT : ∀ n, (T (ix1 n)).toNat = (t n).val) (n : Fin 16384) (d : Fin 256) :
    gathered C T (ix2 n d) = C (ix2 (t n) d) := by
  have hlt : (T (ix1 n)).toNat < 16384 := by rw [hT]; exact (t n).isLt
  refine (gather_rows_apply (N := 16384) (by decide) gather_S16384x256_S16384x1_S16384x256_1_0_n_n_0_1_1256
    rfl rfl rfl rfl rfl C _ n d).trans ?_
  rw [ixP_eq_ix2, bcast_vec_col, wrapT_apply T n hlt]
  have hcl : clampTo 16384 (by decide) (T (ix1 n)) = t n := by
    apply Fin.ext
    show min (T (ix1 n)).toInt.toNat (16384 - 1) = (t n).val
    rw [toInt_eq_toNat_of_lt (by omega), Int.toNat_natCast, hT]
    have := (t n).isLt
    omega
  rw [hcl]

/-- A row of reals over its clamped norm: the square root of the sum of squares, the maximum with the clamp, the quotient. -/
theorem unitRows_apply (X : Vec Ideal S16384x256 .f32) (x : Fin 256 → ℝ) (n : Fin 16384)
    (hX : ∀ d, X (ix2 n d) = ((x d : ℝ) : EReal)) (d : Fin 256) :
    unitRows X (ix2 n d) = ((x d / rnorm x : ℝ) : EReal) := by
  rw [unitRows, hostDivf_apply, bcast_col_rows, maximumf_apply, hostSqrt_apply, bcast_vec_col, bcast_scalar_col, rowSum_apply,
    constant_apply, ofBits_eps]
  simp only [mulf_apply, hX]
  exact unit_coe x d

/-- The target score of row n: the inner product of the two unit rows over the temperature. -/
theorem score_apply (A C : Vec Ideal S16384x256 .f32) (T : IVec S16384 32)
    (a cnd : Fin 16384 → Fin 256 → ℝ) (t : Fin 16384 → Fin 16384)
    (hA : ∀ n d, A (ix2 n d) = ((a n d : ℝ) : EReal)) (hC : ∀ k d, C (ix2 k d) = ((cnd k d : ℝ) : EReal))
    (hT : ∀ n, (T (ix1 n)).toNat = (t n).val) (n : Fin 16384) :
    score A C T (ix1 n) = ((logit a cnd n (t n) : ℝ) : EReal) := by
  have h1 : ∀ k, unitRows A (ix2 n k) = ((a n k / rnorm (a n) : ℝ) : EReal) := unitRows_apply A (a n) n (hA n)
  have h2 : ∀ k, unitRows (gathered C T) (ix2 n k) = ((cnd (t n) k / rnorm (cnd (t n)) : ℝ) : EReal) :=
    unitRows_apply _ (cnd (t n)) n fun d => (gathered_apply C T t hT n d).trans (hC (t n) d)
  rw [score, hostDivf_apply, rowSum_apply, bcast_scalar_vec, constant_apply, ofBits_temp]
  simp only [mulf_apply, h1, h2]
  rw [cosine_coe, div_temp_coe]
  rfl

/-- The loss of row n: its log-sum-exp less its target score. -/
theorem rowLossV_apply (L : Vec Ideal S16384x1 .f32) (A C : Vec Ideal S16384x256 .f32) (T : IVec S16384 32)
    (a cnd : Fin 16384 → Fin 256 → ℝ) (t : Fin 16384 → Fin 16384)
    (hA : ∀ n d, A (ix2 n d) = ((a n d : ℝ) : EReal)) (hC : ∀ k d, C (ix2 k d) = ((cnd k d : ℝ) : EReal))
    (hT : ∀ n, (T (ix1 n)).toNat = (t n).val)
    (hL : ∀ n : Fin 16384, L (ix2 n 0) = ((lse (logit a cnd n) : ℝ) : EReal)) (n : Fin 16384) :
    rowLossV L A C T (ix1 n) = ((rowLoss a cnd t n : ℝ) : EReal) := by
  rw [rowLossV, subf_apply, column_as_vector, hL, score_apply A C T a cnd t hA hC hT n, ← EReal.coe_sub]
  rfl

/-- The result: the mean of the row losses. -/
theorem tailFn_apply (L : Vec Ideal S16384x1 .f32) (A C : Vec Ideal S16384x256 .f32) (T : IVec S16384 32)
    (a cnd : Fin 16384 → Fin 256 → ℝ) (t : Fin 16384 → Fin 16384)
    (hA : ∀ n d, A (ix2 n d) = ((a n d : ℝ) : EReal)) (hC : ∀ k d, C (ix2 k d) = ((cnd k d : ℝ) : EReal))
    (hT : ∀ n, (T (ix1 n)).toNat = (t n).val)
    (hL : ∀ n : Fin 16384, L (ix2 n 0) = ((lse (logit a cnd n) : ℝ) : EReal)) (j : S_.Idx) :
    tailFn (F := Ideal) L A C T j = ((loss a cnd t : ℝ) : EReal) := by
  rw [tailFn, hostDivf_apply, totalSum_apply, constant_apply, ofBits_rows]
  simp only [rowLossV_apply L A C T a cnd t hA hC hT hL]
  rw [coe_sum, div_rows_coe]
  rfl

variable (m : (ℓ : Loc nD τ sig) → Buf (Elt Ideal) ℓ)

/-- The program's result after the host tail is the mean row loss. -/
theorem tail_value (c : Dev nD) (a cnd : Fin 16384 → Fin 256 → ℝ) (t : Fin 16384 → Fin 16384)
    (hA : ∀ n d, m ((c.tc : Thread nD τ).loc main_arg0) (ix2 n d) = ((a n d : ℝ) : EReal))
    (hC : ∀ k d, m ((c.tc : Thread nD τ).loc main_arg1) (ix2 k d) = ((cnd k d : ℝ) : EReal))
    (hT : ∀ n, (m ((c.tc : Thread nD τ).loc main_arg2) (ix1 n)).toNat = (t n).val)
    (hL : ∀ n : Fin 16384, ((dats m 0 c).arrAt 2 cfg0.N : Vec Ideal S16384x1 .f32) (ix2 n 0) = ((lse (logit a cnd n) : ℝ) : EReal)) :
    Pipeline.afterTail₀ cfgs (dats m) 0 (V0 m) [hostOps1] c main_v31 = fun _ => ((loss a cnd t : ℝ) : EReal) := by
  unfold Pipeline.afterTail₀
  show StableHlo.after hostOps1 _ (Proc.devRef .tc main_v31) = _
  rw [after_tail]
  -- the four arrays the operations read, as the region leaves them: the region's output, and the three arguments as launched
  have e0 : Pipeline.withArrays (cfgs 0).spec c (V0 m c) (fun w => (dats m 0 c).arrAt w (cfgs 0).N) (Proc.devRef .tc main_v0)
      = (dats m 0 c).arrAt 2 cfg0.N := Pipeline.withArrays_arr spec0 launch0.win.arr_inj c _ _ 2
  have eA : Pipeline.withArrays (cfgs 0).spec c (V0 m c) (fun w => (dats m 0 c).arrAt w (cfgs 0).N) (Proc.devRef .tc main_arg0)
      = m ((c.tc : Thread nD τ).loc main_arg0) :=
    (Pipeline.withArrays_arr spec0 launch0.win.arr_inj c _ _ 0).trans
      (((dats m 0 c).arrAt_in 0 rfl _).trans ((A_eq m c 0).trans (V_main_arg0 m c)))
  have eC : Pipeline.withArrays (cfgs 0).spec c (V0 m c) (fun w => (dats m 0 c).arrAt w (cfgs 0).N) (Proc.devRef .tc main_arg1)
      = m ((c.tc : Thread nD τ).loc main_arg1) :=
    (Pipeline.withArrays_arr spec0 launch0.win.arr_inj c _ _ 1).trans
      (((dats m 0 c).arrAt_in 1 rfl _).trans ((A_eq m c 1).trans (V_main_arg1 m c)))
  have eT : Pipeline.withArrays (cfgs 0).spec c (V0 m c) (fun w => (dats m 0 c).arrAt w (cfgs 0).N) (Proc.devRef .tc main_arg2)
      = m ((c.tc : Thread nD τ).loc main_arg2) :=
    (Pipeline.withArrays_of_ne _ c (V0 m c) _ main_arg2 (by exact (by decide : ∀ w, Pipeline.arrRef spec0 w ≠ main_arg2))).trans
      (V_main_arg2 m c)
  rw [e0, eA, eC, eT]
  funext j
  exact tailFn_apply _ _ _ _ a cnd t hA hC hT hL j

end Cert.KernelIdeal.TailValue

end
-- ==== Proof.RefRun.lean ====
/-
  The reference program's run: every weakly fair execution of its 68 host operations terminates with the result buffer
  at the last stage of the operations, read as a function of the three argument arrays, and the arguments unchanged.

  The fold over the 68 operations is read stretch by stretch: the list is cut where few buffers are still to be read,
  and each stretch takes the contents of those buffers at their stages to the contents of the buffers read after it at
  theirs. Inside a stretch the operations' results are composed, the stages of the stretch are opened, the stages
  coming in stay closed, and the transports along the typed references' type equations are removed: a transport
  there and back is the identity for any typed reference, and a single transport at a literal reference is the
  identity by computation.
-/
import proofs.«417422_j41145786695939_1_alg».proof.Proof.RefOps
import proofs.«417422_j41145786695939_1_alg».proof.Proof.RefRead

noncomputable section

namespace Cert.ReferenceIdeal.RefRun

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

/-- Contents moved to a typed reference's buffer and back are themselves. -/
private theorem ofBuf_toBuf {sg : RefSig} {Vl : EltTy → Type} {T : BufTy} (x : TRef sg T) (v : T.Contents Vl) :
    x.ofBuf (x.toBuf v) = v := by
  obtain ⟨r, e, _, _⟩ := x
  subst e
  rfl

/-- Operations 0 to 9 of the program. -/
private abbrev sops_0_10 : List (HloOp τ sig (Elt F)) :=
    [
      binary main_arg0 main_arg0 main_v0 (mulf : (⟨S16384x256, .f32⟩ : BufTy).Contents (Elt F) → (⟨S16384x256, .f32⟩ : BufTy).Contents (Elt F) → (⟨S16384x256, .f32⟩ : BufTy).Contents (Elt F)),
      nullary main_cst (constant S_ .f32 0x00000000#32),
      binary main_v0 main_cst main_v1 ((fun x v => Host.reduceAdd x v reducesTo_S16384x256_S16384_d1 h_S_) : (⟨S16384x256, .f32⟩ : BufTy).Contents (Elt F) → (⟨S_, .f32⟩ : BufTy).Contents (Elt F) → (⟨S16384, .f32⟩ : BufTy).Contents (Elt F)),
      unary main_v1 main_v2 (broadcastInDim S16384x1 ![0] bcast_S16384_S16384x1_0 : (⟨S16384, .f32⟩ : BufTy).Contents (Elt F) → (⟨S16384x1, .f32⟩ : BufTy).Contents (Elt F)),
      unary main_v2 main_v3 (Host.sqrt : (⟨S16384x1, .f32⟩ : BufTy).Contents (Elt F) → (⟨S16384x1, .f32⟩ : BufTy).Contents (Elt F)),
      nullary main_cst_0 (constant S_ .f32 0x2B8CBCCC#32),
      unary main_cst_0 main_v4 (broadcastInDim S16384x1 ![] bcast_S_S16384x1 : (⟨S_, .f32⟩ : BufTy).Contents (Elt F) → (⟨S16384x1, .f32⟩ : BufTy).Contents (Elt F)),
      binary main_v3 main_v4 main_v5 (maximumf : (⟨S16384x1, .f32⟩ : BufTy).Contents (Elt F) → (⟨S16384x1, .f32⟩ : BufTy).Contents (Elt F) → (⟨S16384x1, .f32⟩ : BufTy).Contents (Elt F)),
      unary main_v5 main_v6 (broadcastInDim S16384x256 ![0, 1] bcast_S16384x1_S16384x256_0_1 : (⟨S16384x1, .f32⟩ : BufTy).Contents (Elt F) → (⟨S16384x256, .f32⟩ : BufTy).Contents (Elt F)),
      binary main_arg0 main_v6 main_v7 (Host.divf : (⟨S16384x256, .f32⟩ : BufTy).Contents (Elt F) → (⟨S16384x256, .f32⟩ : BufTy).Contents (Elt F) → (⟨S16384x256, .f32⟩ : BufTy).Contents (Elt F)) ]

/-- After operations 0 to 9, from contents at the earlier stages: the buffers read later are at their stages. -/
private theorem st_0_10 (W : Valuation τ sig (Elt F)) (x0 x1 : (⟨S16384x256, .f32⟩ : BufTy).Contents (Elt F)) (x2 : (⟨S16384, .i32⟩ : BufTy).Contents (Elt F))
    (h_main_arg0 : W (Proc.devRef .tc main_arg0) = x0)
    (h_main_arg1 : W (Proc.devRef .tc main_arg1) = x1)
    (h_main_arg2 : W (Proc.devRef .tc main_arg2) = x2) :
    (after (sops_0_10 (F := F)) W (Proc.devRef .tc main_arg1) = x1)
    ∧ (after (sops_0_10 (F := F)) W (Proc.devRef .tc main_arg2) = x2)
    ∧ (after (sops_0_10 (F := F)) W (Proc.devRef .tc main_v7) = val_main_v7 (F := F) x0) := by
  refine ⟨?_, ?_, ?_⟩
  · after_results; exact h_main_arg1
  · after_results; exact h_main_arg2
  · after_results; (try rw [h_main_arg0]); (try rw [h_main_arg1]); (try rw [h_main_arg2])
    (try simp only [val_main_v0, val_main_cst, val_main_v1, val_main_v2, val_main_v3, val_main_cst_0, val_main_v4, val_main_v5, val_main_v6, val_main_v7])
    (try simp only [ofBuf_toBuf])
    all_goals rfl

/-- Operations 10 to 19 of the program. -/
private abbrev sops_10_20 : List (HloOp τ sig (Elt F)) :=
    [
      binary main_arg1 main_arg1 main_v8 (mulf : (⟨S16384x256, .f32⟩ : BufTy).Contents (Elt F) → (⟨S16384x256, .f32⟩ : BufTy).Contents (Elt F) → (⟨S16384x256, .f32⟩ : BufTy).Contents (Elt F)),
      nullary main_cst_1 (constant S_ .f32 0x00000000#32),
      binary main_v8 main_cst_1 main_v9 ((fun x v => Host.reduceAdd x v reducesTo_S16384x256_S16384_d1 h_S_) : (⟨S16384x256, .f32⟩ : BufTy).Contents (Elt F) → (⟨S_, .f32⟩ : BufTy).Contents (Elt F) → (⟨S16384, .f32⟩ : BufTy).Contents (Elt F)),
      unary main_v9 main_v10 (broadcastInDim S16384x1 ![0] bcast_S16384_S16384x1_0 : (⟨S16384, .f32⟩ : BufTy).Contents (Elt F) → (⟨S16384x1, .f32⟩ : BufTy).Contents (Elt F)),
      unary main_v10 main_v11 (Host.sqrt : (⟨S16384x1, .f32⟩ : BufTy).Contents (Elt F) → (⟨S16384x1, .f32⟩ : BufTy).Contents (Elt F)),
      nullary main_cst_2 (constant S_ .f32 0x2B8CBCCC#32),
      unary main_cst_2 main_v12 (broadcastInDim S16384x1 ![] bcast_S_S16384x1 : (⟨S_, .f32⟩ : BufTy).Contents (Elt F) → (⟨S16384x1, .f32⟩ : BufTy).Contents (Elt F)),
      binary main_v11 main_v12 main_v13 (maximumf : (⟨S16384x1, .f32⟩ : BufTy).Contents (Elt F) → (⟨S16384x1, .f32⟩ : BufTy).Contents (Elt F) → (⟨S16384x1, .f32⟩ : BufTy).Contents (Elt F)),
      unary main_v13 main_v14 (broadcastInDim S16384x256 ![0, 1] bcast_S16384x1_S16384x256_0_1 : (⟨S16384x1, .f32⟩ : BufTy).Contents (Elt F) → (⟨S16384x256, .f32⟩ : BufTy).Contents (Elt F)),
      binary main_arg1 main_v14 main_v15 (Host.divf : (⟨S16384x256, .f32⟩ : BufTy).Contents (Elt F) → (⟨S16384x256, .f32⟩ : BufTy).Contents (Elt F) → (⟨S16384x256, .f32⟩ : BufTy).Contents (Elt F)) ]

/-- After operations 10 to 19, from contents at the earlier stages: the buffers read later are at their stages. -/
private theorem st_10_20 (W : Valuation τ sig (Elt F)) (x0 x1 : (⟨S16384x256, .f32⟩ : BufTy).Contents (Elt F)) (x2 : (⟨S16384, .i32⟩ : BufTy).Contents (Elt F))
    (h_main_arg1 : W (Proc.devRef .tc main_arg1) = x1)
    (h_main_arg2 : W (Proc.devRef .tc main_arg2) = x2)
    (h_main_v7 : W (Proc.devRef .tc main_v7) = val_main_v7 (F := F) x0) :
    (after (sops_10_20 (F := F)) W (Proc.devRef .tc main_arg2) = x2)
    ∧ (after (sops_10_20 (F := F)) W (Proc.devRef .tc main_v7) = val_main_v7 (F := F) x0)
    ∧ (after (sops_10_20 (F := F)) W (Proc.devRef .tc main_v15) = val_main_v15 (F := F) x1) := by
  refine ⟨?_, ?_, ?_⟩
  · after_results; exact h_main_arg2
  · after_results; exact h_main_v7
  · after_results; (try rw [h_main_arg1]); (try rw [h_main_arg2]); (try rw [h_main_v7])
    (try simp only [val_main_v8, val_main_cst_1, val_main_v9, val_main_v10, val_main_v11, val_main_cst_2, val_main_v12, val_main_v13, val_main_v14, val_main_v15])
    (try generalize val_main_v7 (F := F) x0 = g_main_v7)
    (try simp only [ofBuf_toBuf])
    all_goals rfl

/-- Operations 20 to 23 of the program. -/
private abbrev sops_20_24 : List (HloOp τ sig (Elt F)) :=
    [
      binary main_v7 main_v15 main_v16 ((fun l r => Host.dotGeneral dot_S16384x256_S16384x256_S16384x16384_1_1_0_0_n_n none l r) : (⟨S16384x256, .f32⟩ : BufTy).Contents (Elt F) → (⟨S16384x256, .f32⟩ : BufTy).Contents (Elt F) → (⟨S16384x16384, .f32⟩ : BufTy).Contents (Elt F)),
      nullary main_cst_3 (constant S_ .f32 0x3D8F5C29#32),
      unary main_cst_3 main_v17 (broadcastInDim S16384x16384 ![] bcast_S_S16384x16384 : (⟨S_, .f32⟩ : BufTy).Contents (Elt F) → (⟨S16384x16384, .f32⟩ : BufTy).Contents (Elt F)),
      binary main_v16 main_v17 main_v18 (Host.divf : (⟨S16384x16384, .f32⟩ : BufTy).Contents (Elt F) → (⟨S16384x16384, .f32⟩ : BufTy).Contents (Elt F) → (⟨S16384x16384, .f32⟩ : BufTy).Contents (Elt F)) ]

/-- After operations 20 to 23, from contents at the earlier stages: the buffers read later are at their stages. -/
private theorem st_20_24 (W : Valuation τ sig (Elt F)) (x0 x1 : (⟨S16384x256, .f32⟩ : BufTy).Contents (Elt F)) (x2 : (⟨S16384, .i32⟩ : BufTy).Contents (Elt F))
    (h_main_arg2 : W (Proc.devRef .tc main_arg2) = x2)
    (h_main_v7 : W (Proc.devRef .tc main_v7) = val_main_v7 (F := F) x0)
    (h_main_v15 : W (Proc.devRef .tc main_v15) = val_main_v15 (F := F) x1) :
    (after (sops_20_24 (F := F)) W (Proc.devRef .tc main_arg2) = x2)
    ∧ (after (sops_20_24 (F := F)) W (Proc.devRef .tc main_v18) = val_main_v18 (F := F) x0 x1) := by
  refine ⟨?_, ?_⟩
  · after_results; exact h_main_arg2
  · after_results; (try rw [h_main_arg2]); (try rw [h_main_v7]); (try rw [h_main_v15])
    (try simp only [val_main_v16, val_main_cst_3, val_main_v17, val_main_v18])
    (try generalize val_main_v7 (F := F) x0 = g_main_v7); (try generalize val_main_v15 (F := F) x1 = g_main_v15)
    (try simp only [ofBuf_toBuf])
    all_goals rfl

/-- Operations 24 to 31 of the program. -/
private abbrev sops_24_32 : List (HloOp τ sig (Elt F)) :=
    [
      TRef.nullary (TRef.of (T := ⟨S_, .f32⟩) main_call0_cst) (constant S_ .f32 0xFF800000#32),
      TRef.binary (TRef.of (T := ⟨S16384x16384, .f32⟩) main_v18) (TRef.of (T := ⟨S_, .f32⟩) main_call0_cst) (TRef.of (T := ⟨S16384, .f32⟩) main_call0_v0) (fun x v => Host.reduce FloatOps.maximumf x v reducesTo_S16384x16384_S16384_d1 h_S_),
      TRef.nullary (TRef.of (T := ⟨S_, .f32⟩) main_call0_cst_0) (constant S_ .f32 0xFF800000#32),
      TRef.unary (TRef.of (T := ⟨S_, .f32⟩) main_call0_cst_0) (TRef.of (T := ⟨S16384, .f32⟩) main_call0_v1) (broadcastInDim S16384 ![] bcast_S_S16384),
      TRef.binary (TRef.of (T := ⟨S16384, .f32⟩) main_call0_v1) (TRef.of (T := ⟨S16384, .f32⟩) main_call0_v0) (TRef.of (T := ⟨S16384, .f32⟩) main_call0_v2) maximumf,
      TRef.unary (TRef.of (T := ⟨S16384, .f32⟩) main_call0_v2) (TRef.of (T := ⟨S16384x1, .f32⟩) main_call0_v3) (broadcastInDim S16384x1 ![0] bcast_S16384_S16384x1_0),
      TRef.unary (TRef.of (T := ⟨S16384x1, .f32⟩) main_call0_v3) (TRef.of (T := ⟨S16384x16384, .f32⟩) main_call0_v4) (broadcastInDim S16384x16384 ![0, 1] bcast_S16384x1_S16384x16384_0_1),
      TRef.binary (TRef.of (T := ⟨S16384x16384, .f32⟩) main_v18) (TRef.of (T := ⟨S16384x16384, .f32⟩) main_call0_v4) (TRef.of (T := ⟨S16384x16384, .f32⟩) main_call0_v5) subf ]

/-- After operations 24 to 31, from contents at the earlier stages: the buffers read later are at their stages. -/
private theorem st_24_32 (W : Valuation τ sig (Elt F)) (x0 x1 : (⟨S16384x256, .f32⟩ : BufTy).Contents (Elt F)) (x2 : (⟨S16384, .i32⟩ : BufTy).Contents (Elt F))
    (h_main_arg2 : W (Proc.devRef .tc main_arg2) = x2)
    (h_main_v18 : W (Proc.devRef .tc main_v18) = val_main_v18 (F := F) x0 x1) :
    (after (sops_24_32 (F := F)) W (Proc.devRef .tc main_arg2) = x2)
    ∧ (after (sops_24_32 (F := F)) W (Proc.devRef .tc main_call0_v5) = val_main_call0_v5 (F := F) x0 x1) := by
  have ro_main_v18 : ∀ v : (⟨S16384x16384, .f32⟩ : BufTy).Contents (Elt F), (TRef.of (sig := sig) (T := ⟨S16384x16384, .f32⟩) main_v18).ofBuf v = v := fun _ => rfl
  have wr_main_call0_v5 : ∀ v : (⟨S16384x16384, .f32⟩ : BufTy).Contents (Elt F), (TRef.of (sig := sig) (T := ⟨S16384x16384, .f32⟩) main_call0_v5).toBuf v = v := fun _ => rfl
  refine ⟨?_, ?_⟩
  · after_results; exact h_main_arg2
  · after_results; (try rw [h_main_arg2]); (try rw [h_main_v18])
    (try simp only [val_main_call0_cst, val_main_call0_v0, val_main_call0_cst_0, val_main_call0_v1, val_main_call0_v2, val_main_call0_v3, val_main_call0_v4, val_main_call0_v5])
    (try generalize val_main_v18 (F := F) x0 x1 = g_main_v18)
    (try simp only [ofBuf_toBuf, ro_main_v18, wr_main_call0_v5])
    all_goals rfl

/-- Operations 32 to 38 of the program. -/
private abbrev sops_32_39 : List (HloOp τ sig (Elt F)) :=
    [
      TRef.unary (TRef.of (T := ⟨S16384x16384, .f32⟩) main_call0_v5) (TRef.of (T := ⟨S16384x16384, .f32⟩) main_call0_v6) Host.exp,
      TRef.nullary (TRef.of (T := ⟨S_, .f32⟩) main_call0_cst_1) (constant S_ .f32 0x00000000#32),
      TRef.binary (TRef.of (T := ⟨S16384x16384, .f32⟩) main_call0_v6) (TRef.of (T := ⟨S_, .f32⟩) main_call0_cst_1) (TRef.of (T := ⟨S16384, .f32⟩) main_call0_v7) (fun x v => Host.reduceAdd x v reducesTo_S16384x16384_S16384_d1 h_S_),
      TRef.unary (TRef.of (T := ⟨S16384, .f32⟩) main_call0_v7) (TRef.of (T := ⟨S16384x1, .f32⟩) main_call0_v8) (broadcastInDim S16384x1 ![0] bcast_S16384_S16384x1_0),
      TRef.unary (TRef.of (T := ⟨S16384x1, .f32⟩) main_call0_v8) (TRef.of (T := ⟨S16384x1, .f32⟩) main_call0_v9) Host.log,
      TRef.unary (TRef.of (T := ⟨S16384x1, .f32⟩) main_call0_v9) (TRef.of (T := ⟨S16384x16384, .f32⟩) main_call0_v10) (broadcastInDim S16384x16384 ![0, 1] bcast_S16384x1_S16384x16384_0_1),
      TRef.binary (TRef.of (T := ⟨S16384x16384, .f32⟩) main_call0_v5) (TRef.of (T := ⟨S16384x16384, .f32⟩) main_call0_v10) (TRef.of (T := ⟨S16384x16384, .f32⟩) main_v19) subf ]

/-- After operations 32 to 38, from contents at the earlier stages: the buffers read later are at their stages. -/
private theorem st_32_39 (W : Valuation τ sig (Elt F)) (x0 x1 : (⟨S16384x256, .f32⟩ : BufTy).Contents (Elt F)) (x2 : (⟨S16384, .i32⟩ : BufTy).Contents (Elt F))
    (h_main_arg2 : W (Proc.devRef .tc main_arg2) = x2)
    (h_main_call0_v5 : W (Proc.devRef .tc main_call0_v5) = val_main_call0_v5 (F := F) x0 x1) :
    (after (sops_32_39 (F := F)) W (Proc.devRef .tc main_arg2) = x2)
    ∧ (after (sops_32_39 (F := F)) W (Proc.devRef .tc main_v19) = val_main_v19 (F := F) x0 x1) := by
  have ro_main_call0_v5 : ∀ v : (⟨S16384x16384, .f32⟩ : BufTy).Contents (Elt F), (TRef.of (sig := sig) (T := ⟨S16384x16384, .f32⟩) main_call0_v5).ofBuf v = v := fun _ => rfl
  have wr_main_v19 : ∀ v : (⟨S16384x16384, .f32⟩ : BufTy).Contents (Elt F), (TRef.of (sig := sig) (T := ⟨S16384x16384, .f32⟩) main_v19).toBuf v = v := fun _ => rfl
  refine ⟨?_, ?_⟩
  · after_results; exact h_main_arg2
  · after_results; (try rw [h_main_arg2]); (try rw [h_main_call0_v5])
    (try simp only [val_main_call0_v6, val_main_call0_cst_1, val_main_call0_v7, val_main_call0_v8, val_main_call0_v9, val_main_call0_v10, val_main_v19])
    (try generalize val_main_call0_v5 (F := F) x0 x1 = g_main_call0_v5)
    (try simp only [ofBuf_toBuf, ro_main_call0_v5, wr_main_v19])
    all_goals rfl

/-- Operations 39 to 47 of the program. -/
private abbrev sops_39_48 : List (HloOp τ sig (Elt F)) :=
    [
      unary main_arg2 main_v20 (broadcastInDim S16384x1 ![0] bcast_S16384_S16384x1_0 : (⟨S16384, .i32⟩ : BufTy).Contents (Elt F) → (⟨S16384x1, .i32⟩ : BufTy).Contents (Elt F)),
      TRef.nullary (TRef.of (T := ⟨S_, .i32⟩) main_call1_c) (constantI S_ 32 0#32),
      TRef.unary (TRef.of (T := ⟨S_, .i32⟩) main_call1_c) (TRef.of (T := ⟨S16384x1, .i32⟩) main_call1_v0) (broadcastInDim S16384x1 ![] bcast_S_S16384x1),
      TRef.binary (TRef.of (T := ⟨S16384x1, .i32⟩) main_v20) (TRef.of (T := ⟨S16384x1, .i32⟩) main_call1_v0) (TRef.of (T := ⟨S16384x1, .i1⟩) main_call1_v1) (cmpi .slt),
      TRef.nullary (TRef.of (T := ⟨S_, .i32⟩) main_call1_c_0) (constantI S_ 32 16384#32),
      TRef.unary (TRef.of (T := ⟨S_, .i32⟩) main_call1_c_0) (TRef.of (T := ⟨S16384x1, .i32⟩) main_call1_v2) (broadcastInDim S16384x1 ![] bcast_S_S16384x1),
      TRef.binary (TRef.of (T := ⟨S16384x1, .i32⟩) main_v20) (TRef.of (T := ⟨S16384x1, .i32⟩) main_call1_v2) (TRef.of (T := ⟨S16384x1, .i32⟩) main_call1_v3) addi,
      TRef.ternary (TRef.of (T := ⟨S16384x1, .i1⟩) main_call1_v1) (TRef.of (T := ⟨S16384x1, .i32⟩) main_call1_v3) (TRef.of (T := ⟨S16384x1, .i32⟩) main_v20) (TRef.of (T := ⟨S16384x1, .i32⟩) main_call1_v4) select,
      TRef.reshape (TRef.of (T := ⟨S16384x1, .i32⟩) main_call1_v4) (TRef.of (T := ⟨S16384x1x1, .i32⟩) main_call1_v5) rfl shapeCasts_S16384x1_S16384x1x1 ]

/-- After operations 39 to 47, from contents at the earlier stages: the buffers read later are at their stages. -/
private theorem st_39_48 (W : Valuation τ sig (Elt F)) (x0 x1 : (⟨S16384x256, .f32⟩ : BufTy).Contents (Elt F)) (x2 : (⟨S16384, .i32⟩ : BufTy).Contents (Elt F))
    (h_main_arg2 : W (Proc.devRef .tc main_arg2) = x2)
    (h_main_v19 : W (Proc.devRef .tc main_v19) = val_main_v19 (F := F) x0 x1) :
    (after (sops_39_48 (F := F)) W (Proc.devRef .tc main_v19) = val_main_v19 (F := F) x0 x1)
    ∧ (after (sops_39_48 (F := F)) W (Proc.devRef .tc main_call1_v5) = val_main_call1_v5 (F := F) x2) := by
  have wr_main_call1_v5 : ∀ v : (⟨S16384x1x1, .i32⟩ : BufTy).Contents (Elt F), (TRef.of (sig := sig) (T := ⟨S16384x1x1, .i32⟩) main_call1_v5).toBuf v = v := fun _ => rfl
  refine ⟨?_, ?_⟩
  · after_results; exact h_main_v19
  · after_results; (try rw [h_main_arg2]); (try rw [h_main_v19])
    (try simp only [val_main_v20, val_main_call1_c, val_main_call1_v0, val_main_call1_v1, val_main_call1_c_0, val_main_call1_v2, val_main_call1_v3, val_main_call1_v4, val_main_call1_v5])
    (try generalize val_main_v19 (F := F) x0 x1 = g_main_v19)
    (try simp only [ofBuf_toBuf, wr_main_call1_v5])
    all_goals rfl

/-- Operations 48 to 57 of the program. -/
private abbrev sops_48_58 : List (HloOp τ sig (Elt F)) :=
    [
      TRef.nullary (TRef.of (T := ⟨S1, .i32⟩) main_call1_c_1) (constantI S1 32 16383#32),
      TRef.nullary (TRef.of (T := ⟨S_, .i32⟩) main_call1_c_2) (constantI S_ 32 0#32),
      TRef.unary (TRef.of (T := ⟨S_, .i32⟩) main_call1_c_2) (TRef.of (T := ⟨S16384x1x1, .i32⟩) main_call1_v6) (broadcastInDim S16384x1x1 ![] bcast_S_S16384x1x1),
      TRef.binary (TRef.of (T := ⟨S16384x1x1, .i32⟩) main_call1_v5) (TRef.of (T := ⟨S16384x1x1, .i32⟩) main_call1_v6) (TRef.of (T := ⟨S16384x1x1, .i1⟩) main_call1_v7) (cmpi .sge),
      TRef.unary (TRef.of (T := ⟨S1, .i32⟩) main_call1_c_1) (TRef.of (T := ⟨S1x1x1, .i32⟩) main_call1_v8) (broadcastInDim S1x1x1 ![2] bcast_S1_S1x1x1_2),
      TRef.unary (TRef.of (T := ⟨S1x1x1, .i32⟩) main_call1_v8) (TRef.of (T := ⟨S16384x1x1, .i32⟩) main_call1_v9) (broadcastInDim S16384x1x1 ![0, 1, 2] bcast_S1x1x1_S16384x1x1_0_1_2),
      TRef.binary (TRef.of (T := ⟨S16384x1x1, .i32⟩) main_call1_v5) (TRef.of (T := ⟨S16384x1x1, .i32⟩) main_call1_v9) (TRef.of (T := ⟨S16384x1x1, .i1⟩) main_call1_v10) (cmpi .sle),
      TRef.binary (TRef.of (T := ⟨S16384x1x1, .i1⟩) main_call1_v7) (TRef.of (T := ⟨S16384x1x1, .i1⟩) main_call1_v10) (TRef.of (T := ⟨S16384x1x1, .i1⟩) main_call1_v11) andi,
      TRef.nullary (TRef.of (T := ⟨S_, .i1⟩) main_call1_c_3) (constantI S_ 1 1#1),
      TRef.binary (TRef.of (T := ⟨S16384x1x1, .i1⟩) main_call1_v11) (TRef.of (T := ⟨S_, .i1⟩) main_call1_c_3) (TRef.of (T := ⟨S16384x1, .i1⟩) main_call1_v12) (fun x v => Host.reduce IntOp.andi x v reducesTo_S16384x1x1_S16384x1_d2 h_S_) ]

/-- After operations 48 to 57, from contents at the earlier stages: the buffers read later are at their stages. -/
private theorem st_48_58 (W : Valuation τ sig (Elt F)) (x0 x1 : (⟨S16384x256, .f32⟩ : BufTy).Contents (Elt F)) (x2 : (⟨S16384, .i32⟩ : BufTy).Contents (Elt F))
    (h_main_v19 : W (Proc.devRef .tc main_v19) = val_main_v19 (F := F) x0 x1)
    (h_main_call1_v5 : W (Proc.devRef .tc main_call1_v5) = val_main_call1_v5 (F := F) x2) :
    (after (sops_48_58 (F := F)) W (Proc.devRef .tc main_v19) = val_main_v19 (F := F) x0 x1)
    ∧ (after (sops_48_58 (F := F)) W (Proc.devRef .tc main_call1_v5) = val_main_call1_v5 (F := F) x2)
    ∧ (after (sops_48_58 (F := F)) W (Proc.devRef .tc main_call1_v12) = val_main_call1_v12 (F := F) x2) := by
  have ro_main_call1_v5 : ∀ v : (⟨S16384x1x1, .i32⟩ : BufTy).Contents (Elt F), (TRef.of (sig := sig) (T := ⟨S16384x1x1, .i32⟩) main_call1_v5).ofBuf v = v := fun _ => rfl
  have wr_main_call1_v12 : ∀ v : (⟨S16384x1, .i1⟩ : BufTy).Contents (Elt F), (TRef.of (sig := sig) (T := ⟨S16384x1, .i1⟩) main_call1_v12).toBuf v = v := fun _ => rfl
  refine ⟨?_, ?_, ?_⟩
  · after_results; exact h_main_v19
  · after_results; exact h_main_call1_v5
  · after_results; (try rw [h_main_v19]); (try rw [h_main_call1_v5])
    (try simp only [val_main_call1_c_1, val_main_call1_c_2, val_main_call1_v6, val_main_call1_v7, val_main_call1_v8, val_main_call1_v9, val_main_call1_v10, val_main_call1_v11, val_main_call1_c_3, val_main_call1_v12])
    (try generalize val_main_v19 (F := F) x0 x1 = g_main_v19); (try generalize val_main_call1_v5 (F := F) x2 = g_main_call1_v5)
    (try simp only [ofBuf_toBuf, ro_main_call1_v5, wr_main_call1_v12])
    all_goals rfl

/-- Operations 58 to 61 of the program. -/
private abbrev sops_58_62 : List (HloOp τ sig (Elt F)) :=
    [
      TRef.binary (TRef.of (T := ⟨S16384x16384, .f32⟩) main_v19) (TRef.of (T := ⟨S16384x1x1, .i32⟩) main_call1_v5) (TRef.of (T := ⟨S16384x1, .f32⟩) main_call1_v13) (fun x i => Host.gather gather_S16384x16384_S16384x1x1_S16384x1_n_1_0_0_1_2_11 x i),
      TRef.nullary (TRef.of (T := ⟨S_, .f32⟩) main_call1_cst) (constant S_ .f32 0x7FC00000#32),
      TRef.unary (TRef.of (T := ⟨S_, .f32⟩) main_call1_cst) (TRef.of (T := ⟨S16384x1, .f32⟩) main_call1_v14) (broadcastInDim S16384x1 ![] bcast_S_S16384x1),
      TRef.ternary (TRef.of (T := ⟨S16384x1, .i1⟩) main_call1_v12) (TRef.of (T := ⟨S16384x1, .f32⟩) main_call1_v13) (TRef.of (T := ⟨S16384x1, .f32⟩) main_call1_v14) (TRef.of (T := ⟨S16384x1, .f32⟩) main_v21) select ]

/-- After operations 58 to 61, from contents at the earlier stages: the buffers read later are at their stages. -/
private theorem st_58_62 (W : Valuation τ sig (Elt F)) (x0 x1 : (⟨S16384x256, .f32⟩ : BufTy).Contents (Elt F)) (x2 : (⟨S16384, .i32⟩ : BufTy).Contents (Elt F))
    (h_main_v19 : W (Proc.devRef .tc main_v19) = val_main_v19 (F := F) x0 x1)
    (h_main_call1_v5 : W (Proc.devRef .tc main_call1_v5) = val_main_call1_v5 (F := F) x2)
    (h_main_call1_v12 : W (Proc.devRef .tc main_call1_v12) = val_main_call1_v12 (F := F) x2) :
    (after (sops_58_62 (F := F)) W (Proc.devRef .tc main_v21) = val_main_v21 (F := F) x0 x1 x2) := by
  have ro_main_v19 : ∀ v : (⟨S16384x16384, .f32⟩ : BufTy).Contents (Elt F), (TRef.of (sig := sig) (T := ⟨S16384x16384, .f32⟩) main_v19).ofBuf v = v := fun _ => rfl
  have ro_main_call1_v5 : ∀ v : (⟨S16384x1x1, .i32⟩ : BufTy).Contents (Elt F), (TRef.of (sig := sig) (T := ⟨S16384x1x1, .i32⟩) main_call1_v5).ofBuf v = v := fun _ => rfl
  have ro_main_call1_v12 : ∀ v : (⟨S16384x1, .i1⟩ : BufTy).Contents (Elt F), (TRef.of (sig := sig) (T := ⟨S16384x1, .i1⟩) main_call1_v12).ofBuf v = v := fun _ => rfl
  have wr_main_v21 : ∀ v : (⟨S16384x1, .f32⟩ : BufTy).Contents (Elt F), (TRef.of (sig := sig) (T := ⟨S16384x1, .f32⟩) main_v21).toBuf v = v := fun _ => rfl
  · after_results; (try rw [h_main_v19]); (try rw [h_main_call1_v5]); (try rw [h_main_call1_v12])
    (try simp only [val_main_call1_v13, val_main_call1_cst, val_main_call1_v14, val_main_v21])
    (try generalize val_main_v19 (F := F) x0 x1 = g_main_v19); (try generalize val_main_call1_v5 (F := F) x2 = g_main_call1_v5); (try generalize val_main_call1_v12 (F := F) x2 = g_main_call1_v12)
    (try simp only [ofBuf_toBuf, ro_main_v19, ro_main_call1_v5, ro_main_call1_v12, wr_main_v21])
    all_goals rfl

/-- Operations 62 to 67 of the program. -/
private abbrev sops_62_68 : List (HloOp τ sig (Elt F)) :=
    [
      reshape main_v21 main_v22 rfl shapeCasts_S16384x1_S16384,
      unary main_v22 main_v23 (Host.negf : (⟨S16384, .f32⟩ : BufTy).Contents (Elt F) → (⟨S16384, .f32⟩ : BufTy).Contents (Elt F)),
      nullary main_cst_4 (constant S_ .f32 0x00000000#32),
      binary main_v23 main_cst_4 main_v24 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
      nullary main_cst_5 (constant S_ .f32 0x46800000#32),
      binary main_v24 main_cst_5 main_v25 (Host.divf : (⟨S_, .f32⟩ : BufTy).Contents (Elt F) → (⟨S_, .f32⟩ : BufTy).Contents (Elt F) → (⟨S_, .f32⟩ : BufTy).Contents (Elt F)) ]

/-- After operations 62 to 67, from contents at the earlier stages: the buffers read later are at their stages. -/
private theorem st_62_68 (W : Valuation τ sig (Elt F)) (x0 x1 : (⟨S16384x256, .f32⟩ : BufTy).Contents (Elt F)) (x2 : (⟨S16384, .i32⟩ : BufTy).Contents (Elt F))
    (h_main_v21 : W (Proc.devRef .tc main_v21) = val_main_v21 (F := F) x0 x1 x2) :
    (after (sops_62_68 (F := F)) W (Proc.devRef .tc main_v25) = val_main_v25 (F := F) x0 x1 x2) := by
  · after_results; (try rw [h_main_v21])
    (try simp only [val_main_v22, val_main_v23, val_main_cst_4, val_main_v24, val_main_cst_5, val_main_v25])
    (try generalize val_main_v21 (F := F) x0 x1 x2 = g_main_v21)
    (try simp only [ofBuf_toBuf])
    all_goals rfl

/-- Running two lists of operations one after the other is running their concatenation. -/
private theorem after_app (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons]; exact ih _

/-- The 68 operations are the nine stretches in order. -/
private theorem ops_split : (ops (F := F)) = (sops_0_10 (F := F)) ++ ((sops_10_20 (F := F)) ++ ((sops_20_24 (F := F)) ++ ((sops_24_32 (F := F)) ++ ((sops_32_39 (F := F)) ++ ((sops_39_48 (F := F)) ++ ((sops_48_58 (F := F)) ++ ((sops_58_62 (F := F)) ++ ((sops_62_68 (F := F)))))))))) := rfl

/-- The result buffer after the 68 operations, from any contents, is the last stage of the three arguments. -/
theorem result_eq (V : Valuation τ sig (Elt F)) :
    StableHlo.after (ops (F := F)) V (Proc.devRef .tc main_v25)
      = val_main_v25 (F := F) (V (Proc.devRef .tc main_arg0)) (V (Proc.devRef .tc main_arg1)) (V (Proc.devRef .tc main_arg2)) := by
  rw [ops_split]
  simp only [after_app]
  generalize hx0 : V (Proc.devRef .tc main_arg0) = x0
  generalize hx1 : V (Proc.devRef .tc main_arg1) = x1
  generalize hx2 : V (Proc.devRef .tc main_arg2) = x2
  obtain ⟨n_main_arg1, n_main_arg2, n_main_v7⟩ := st_0_10 (F := F) V x0 x1 x2 hx0 hx1 hx2
  generalize after (sops_0_10 (F := F)) V = W1 at n_main_arg1 n_main_arg2 n_main_v7 ⊢
  rename' n_main_arg1 => k_main_arg1
  rename' n_main_arg2 => k_main_arg2
  rename' n_main_v7 => k_main_v7
  obtain ⟨n_main_arg2, n_main_v7, n_main_v15⟩ := st_10_20 (F := F) W1 x0 x1 x2 k_main_arg1 k_main_arg2 k_main_v7
  generalize after (sops_10_20 (F := F)) W1 = W2 at n_main_arg2 n_main_v7 n_main_v15 ⊢
  clear k_main_arg1 k_main_arg2 k_main_v7
  rename' n_main_arg2 => k_main_arg2
  rename' n_main_v7 => k_main_v7
  rename' n_main_v15 => k_main_v15
  obtain ⟨n_main_arg2, n_main_v18⟩ := st_20_24 (F := F) W2 x0 x1 x2 k_main_arg2 k_main_v7 k_main_v15
  generalize after (sops_20_24 (F := F)) W2 = W3 at n_main_arg2 n_main_v18 ⊢
  clear k_main_arg2 k_main_v7 k_main_v15
  rename' n_main_arg2 => k_main_arg2
  rename' n_main_v18 => k_main_v18
  obtain ⟨n_main_arg2, n_main_call0_v5⟩ := st_24_32 (F := F) W3 x0 x1 x2 k_main_arg2 k_main_v18
  generalize after (sops_24_32 (F := F)) W3 = W4 at n_main_arg2 n_main_call0_v5 ⊢
  clear k_main_arg2 k_main_v18
  rename' n_main_arg2 => k_main_arg2
  rename' n_main_call0_v5 => k_main_call0_v5
  obtain ⟨n_main_arg2, n_main_v19⟩ := st_32_39 (F := F) W4 x0 x1 x2 k_main_arg2 k_main_call0_v5
  generalize after (sops_32_39 (F := F)) W4 = W5 at n_main_arg2 n_main_v19 ⊢
  clear k_main_arg2 k_main_call0_v5
  rename' n_main_arg2 => k_main_arg2
  rename' n_main_v19 => k_main_v19
  obtain ⟨n_main_v19, n_main_call1_v5⟩ := st_39_48 (F := F) W5 x0 x1 x2 k_main_arg2 k_main_v19
  generalize after (sops_39_48 (F := F)) W5 = W6 at n_main_v19 n_main_call1_v5 ⊢
  clear k_main_arg2 k_main_v19
  rename' n_main_v19 => k_main_v19
  rename' n_main_call1_v5 => k_main_call1_v5
  obtain ⟨n_main_v19, n_main_call1_v5, n_main_call1_v12⟩ := st_48_58 (F := F) W6 x0 x1 x2 k_main_v19 k_main_call1_v5
  generalize after (sops_48_58 (F := F)) W6 = W7 at n_main_v19 n_main_call1_v5 n_main_call1_v12 ⊢
  clear k_main_v19 k_main_call1_v5
  rename' n_main_v19 => k_main_v19
  rename' n_main_call1_v5 => k_main_call1_v5
  rename' n_main_call1_v12 => k_main_call1_v12
  obtain n_main_v21 := st_58_62 (F := F) W7 x0 x1 x2 k_main_v19 k_main_call1_v5 k_main_call1_v12
  generalize after (sops_58_62 (F := F)) W7 = W8 at n_main_v21 ⊢
  clear k_main_v19 k_main_call1_v5 k_main_call1_v12
  rename' n_main_v21 => k_main_v21
  obtain n_main_v25 := st_62_68 (F := F) W8 x0 x1 x2 k_main_v21
  exact n_main_v25

/-- On every device, from any memory with zero counters: the program terminates with its result at the last stage of
    the launch contents of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v25)
          = val_main_v25 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v25).trans (result_eq _),
      (h c main_arg0).trans (by after_results_simp <;> rfl),
      (h c main_arg1).trans (by after_results_simp <;> rfl),
      (h c main_arg2).trans (by after_results_simp <;> rfl)⟩)
    (run_seq scopedRefs_eq scopedSems_eq defs main (fun _ => ops) main_eq (fun _ => ops_sub) m ρ)

end Cert.ReferenceIdeal.RefRun

end
-- ==== Proof.RefValue.lean ====
/-
  The reference's result at the ideal values, when the two float arguments hold real numbers and every target word
  names a column: the mean over the rows of the negated log-softmax at the row's target column, which is the mean of
  the log-sum-exp of the row's scores less the score at the target.
-/
import proofs.«417422_j41145786695939_1_alg».proof.Proof.RefRead
import proofs.«417422_j41145786695939_1_alg».proof.Proof.Spec
import Idealize.ShloMosaic.Lib.ValueIdx
import Idealize.ShloMosaic.Lib.ValueLayout
import Idealize.ShloMosaic.Lib.Pipeline.Value
import Idealize.ShloMosaic.Lib.StableHlo.Predicate

open scoped BigOperators

noncomputable section

namespace Cert.ReferenceIdeal.RefValue

open Cert.ReferenceIdeal Cert.ReferenceIdeal.Read Cert.ReferenceIdeal.Gen
open Idealize.ShloMosaic Idealize.ShloMosaic.ValueIdx
open Cert.Consts Cert.Softmax Cert.Contrastive
open Idealize.ShloMosaic.StableHlo.Predicate

/-- Row n of the first argument, divided by its clamped norm. -/
private theorem unitA (A : (⟨S16384x256, .f32⟩ : BufTy).Contents (Elt Ideal)) (a : Fin 16384 → Fin 256 → ℝ)
    (hA : ∀ n d, A (ix2 n d) = ((a n d : ℝ) : EReal)) (n : Fin 16384) (d : Fin 256) :
    val_main_v7 (F := Ideal) A (ix2 n d) = ((a n d / rnorm (a n) : ℝ) : EReal) := by
  rw [val_main_v7_apply, val_main_v6_apply, val_main_v5_apply, val_main_v3_apply, val_main_v2_apply,
    val_main_v1_apply, val_main_v4_apply, val_main_cst_0_apply, val_main_cst_apply]
  have hi : ∀ k : Fin 256, idx_main_v1 (idx_main_v2 (idx_main_v6 (ix2 n d))) k = ix2 n k := fun k =>
    funext fun a => Fin.ext (by match a with | ⟨0, _⟩ => rfl | ⟨1, _⟩ => rfl)
  simp only [hi, val_main_v0_apply, hA]
  simp only [Ideal.hostDivf_def, Ideal.maximumf_def, Ideal.hostUnary_sqrt_def, Ideal.ofBits_def, Ideal.mulf_def]
  rw [ofBits_zero, ofBits_eps, zero_add]
  exact unit_coe (a n) d

/-- Row k of the second argument, divided by its clamped norm. -/
private theorem unitC (C : (⟨S16384x256, .f32⟩ : BufTy).Contents (Elt Ideal)) (cnd : Fin 16384 → Fin 256 → ℝ)
    (hC : ∀ k d, C (ix2 k d) = ((cnd k d : ℝ) : EReal)) (k : Fin 16384) (d : Fin 256) :
    val_main_v15 (F := Ideal) C (ix2 k d) = ((cnd k d / rnorm (cnd k) : ℝ) : EReal) := by
  rw [val_main_v15_apply, val_main_v14_apply, val_main_v13_apply, val_main_v11_apply, val_main_v10_apply,
    val_main_v9_apply, val_main_v12_apply, val_main_cst_2_apply, val_main_cst_1_apply]
  have hi : ∀ j : Fin 256, idx_main_v9 (idx_main_v10 (idx_main_v14 (ix2 k d))) j = ix2 k j := fun j =>
    funext fun a => Fin.ext (by match a with | ⟨0, _⟩ => rfl | ⟨1, _⟩ => rfl)
  simp only [hi, val_main_v8_apply, hC]
  simp only [Ideal.hostDivf_def, Ideal.maximumf_def, Ideal.hostUnary_sqrt_def, Ideal.ofBits_def, Ideal.mulf_def]
  rw [ofBits_zero, ofBits_eps, zero_add]
  exact unit_coe (cnd k) d

/-- The scores: the inner product of the two unit rows over the temperature. -/
private theorem logit_val (A C : (⟨S16384x256, .f32⟩ : BufTy).Contents (Elt Ideal)) (a cnd : Fin 16384 → Fin 256 → ℝ)
    (hA : ∀ n d, A (ix2 n d) = ((a n d : ℝ) : EReal)) (hC : ∀ k d, C (ix2 k d) = ((cnd k d : ℝ) : EReal))
    (n k : Fin 16384) :
    val_main_v18 (F := Ideal) A C (ix2 n k) = ((logit a cnd n k : ℝ) : EReal) := by
  rw [val_main_v18_apply, val_main_v16_apply, val_main_v17_apply, val_main_cst_3_apply]
  have hl : ∀ d : Fin 256, lidx_main_v16 (ix2 n k) d = ix2 n d := fun d =>
    funext fun a => Fin.ext (by match a with | ⟨0, _⟩ => rfl | ⟨1, _⟩ => rfl)
  have hr : ∀ d : Fin 256, ridx_main_v16 (ix2 n k) d = ix2 k d := fun d =>
    funext fun a => Fin.ext (by match a with | ⟨0, _⟩ => rfl | ⟨1, _⟩ => rfl)
  simp only [hl, hr, unitA A a hA, unitC C cnd hC]
  simp only [Ideal.hostDivf_def, Ideal.ofBits_def]
  rw [cosine_coe, ofBits_temp, div_temp_coe]
  rfl

/-- Result index n of a reduction over the columns, with column k put back, is (n, k). -/
private theorem lift_row (h : S16384x16384.Reduces [1] S16384) (n : Fin 16384) (k : Fin (S16384x16384.size 1)) :
    h.lift (ix1 n) k = ix2 n (⟨k.val, k.isLt⟩ : Fin 16384) := by
  funext c; apply Fin.ext
  fin_cases c <;> rfl

/-- The row maximum of the scores. -/
private theorem rowmax_val (A C : (⟨S16384x256, .f32⟩ : BufTy).Contents (Elt Ideal)) (a cnd : Fin 16384 → Fin 256 → ℝ)
    (hA : ∀ n d, A (ix2 n d) = ((a n d : ℝ) : EReal)) (hC : ∀ k d, C (ix2 k d) = ((cnd k d : ℝ) : EReal))
    (n : Fin 16384) :
    val_main_call0_v2 (F := Ideal) A C (ix1 n) = ((rowMax (logit a cnd n) : ℝ) : EReal) := by
  rw [val_main_call0_v2_apply, val_main_call0_v1_apply, val_main_call0_cst_0_apply]
  unfold val_main_call0_v0
  have hred : S16384x16384.Reduces [1] S16384 := by decide
  rw [Host.reduce_eq_fold_single FloatOps.maximumf _ _ reducesTo_S16384x16384_S16384_d1 hred h_S_]
  rw [val_main_call0_cst_apply]
  have hf : (val_main_v18 (F := Ideal) A C ∘ hred.lift (ix1 n))
      = fun k : Fin 16384 => ((logit a cnd n k : ℝ) : EReal) := funext fun k => by
    show val_main_v18 (F := Ideal) A C (hred.lift (ix1 n) k) = _
    rw [lift_row hred n k]
    exact logit_val A C a cnd hA hC n _
  rw [hf]
  simp only [Ideal.ofBits_def]
  rw [ofBits_neg_inf]
  change max (⊥ : EReal) (Finset.fold max (⊥ : EReal) (fun k : Fin 16384 => ((logit a cnd n k : ℝ) : EReal)) Finset.univ) = _
  rw [fold_max_coe (logit a cnd n)]
  exact max_eq_right bot_le

/-- A score less its row's maximum. -/
private theorem shifted_val (A C : (⟨S16384x256, .f32⟩ : BufTy).Contents (Elt Ideal)) (a cnd : Fin 16384 → Fin 256 → ℝ)
    (hA : ∀ n d, A (ix2 n d) = ((a n d : ℝ) : EReal)) (hC : ∀ k d, C (ix2 k d) = ((cnd k d : ℝ) : EReal))
    (n k : Fin 16384) :
    val_main_call0_v5 (F := Ideal) A C (ix2 n k) = ((logit a cnd n k - rowMax (logit a cnd n) : ℝ) : EReal) := by
  rw [val_main_call0_v5_apply, val_main_call0_v4_apply, val_main_call0_v3_apply]
  have hi : idx_main_call0_v3 (idx_main_call0_v4 (ix2 n k)) = ix1 n :=
    funext fun a => Fin.ext (by match a with | ⟨0, _⟩ => rfl)
  rw [hi, rowmax_val A C a cnd hA hC n, logit_val A C a cnd hA hC n k]
  simp only [Ideal.subf_def]
  rw [← EReal.coe_sub]

/-- The log-softmax of a row of scores, at a column. -/
private theorem lsm_val (A C : (⟨S16384x256, .f32⟩ : BufTy).Contents (Elt Ideal)) (a cnd : Fin 16384 → Fin 256 → ℝ)
    (hA : ∀ n d, A (ix2 n d) = ((a n d : ℝ) : EReal)) (hC : ∀ k d, C (ix2 k d) = ((cnd k d : ℝ) : EReal))
    (n k : Fin 16384) :
    val_main_v19 (F := Ideal) A C (ix2 n k)
      = (((logit a cnd n k - rowMax (logit a cnd n))
          - Real.log (∑ k', Real.exp (logit a cnd n k' - rowMax (logit a cnd n))) : ℝ) : EReal) := by
  rw [val_main_v19_apply, val_main_call0_v10_apply, val_main_call0_v9_apply, val_main_call0_v8_apply,
    val_main_call0_v7_apply, val_main_call0_cst_1_apply]
  have hi : ∀ k' : Fin 16384, idx_main_call0_v7 (idx_main_call0_v8 (idx_main_call0_v10 (ix2 n k))) k' = ix2 n k' :=
    fun k' => funext fun a => Fin.ext (by match a with | ⟨0, _⟩ => rfl | ⟨1, _⟩ => rfl)
  simp only [hi, val_main_call0_v6_apply, shifted_val A C a cnd hA hC]
  simp only [Ideal.subf_def, Ideal.hostUnary_log_def, Ideal.hostUnary_exp_def, Ideal.ofBits_def, Ideal.exp_coe]
  have hpos : 0 < ∑ k' : Fin 16384, Real.exp (logit a cnd n k' - rowMax (logit a cnd n)) :=
    Finset.sum_pos (fun k' _ => Real.exp_pos _) Finset.univ_nonempty
  rw [ofBits_zero, zero_add, coe_sum, Ideal.log_coe, if_neg (not_le.mpr hpos), ← EReal.coe_sub]

/-! ## The target words -/

/-- A fold of the conjunction from 1 over bits that are all 1 is 1. -/
private theorem fold_andi_one {ι : Type} (s : Finset ι) (f : ι → BitVec 1) (h : ∀ k, f k = 1#1) :
    s.fold IntOp.andi 1#1 f = 1#1 := by
  classical
  induction s using Finset.induction_on with
  | empty => rfl
  | insert a s ha ih => rw [Finset.fold_insert ha, ih, h a]; rfl

/-- A target word names a column, so the wrap of negative words leaves it as it is. -/
private theorem word_val (T : (⟨S16384, .i32⟩ : BufTy).Contents (Elt Ideal)) (t : Fin 16384 → Fin 16384)
    (hT : ∀ n, (T (ix1 n)).toNat = (t n).val) (n : Fin 16384) :
    val_main_call1_v5 (F := Ideal) T (ix3 n (0 : Fin 1) (0 : Fin 1)) = T (ix1 n) := by
  rw [val_main_call1_v5_apply, val_main_call1_v4_apply, val_main_call1_v1_apply, val_main_v20_apply,
    val_main_call1_v0_apply, val_main_call1_c_apply]
  have hi : idx_main_v20 (idx_main_call1_v5 (ix3 n (0 : Fin 1) (0 : Fin 1))) = ix1 n :=
    funext fun a => Fin.ext (by
      match a with
      | ⟨0, _⟩ => show ((n.val * 1 + 0) * 1 + 0) / 1 = n.val; omega)
  rw [hi]
  have hlt : (T (ix1 n)).toNat < 2 ^ 31 := by rw [hT n]; have := (t n).isLt; omega
  have hz : IntOp.cmpi .slt (T (ix1 n)) 0#32 = 0#1 :=
    eq_zero_of_ne_one fun h => by
      have := (slt_iff_toNat hlt (by decide)).mp h
      simp at this
  rw [hz, select_zero]

/-- A target word is inside the column range, so the range mask is 1. -/
private theorem mask_val (T : (⟨S16384, .i32⟩ : BufTy).Contents (Elt Ideal)) (t : Fin 16384 → Fin 16384)
    (hT : ∀ n, (T (ix1 n)).toNat = (t n).val) (n : Fin 16384) :
    val_main_call1_v12 (F := Ideal) T (ix2 n (0 : Fin 1)) = 1#1 := by
  unfold val_main_call1_v12
  have hred : S16384x1x1.Reduces [2] S16384x1 := by decide
  rw [Host.reduce_eq_fold_single IntOp.andi _ _ reducesTo_S16384x1x1_S16384x1_d2 hred h_S_, val_main_call1_c_3_apply]
  refine fold_andi_one _ _ fun k => ?_
  have hk : k.val = 0 := by have h := k.isLt; change k.val < 1 at h; omega
  have hl : hred.lift (ix2 n (0 : Fin 1)) k = ix3 n (0 : Fin 1) (0 : Fin 1) := by
    funext c; apply Fin.ext
    match c with
    | ⟨0, _⟩ => rfl
    | ⟨1, _⟩ => rfl
    | ⟨2, _⟩ => exact hk
  show val_main_call1_v11 (F := Ideal) T (hred.lift (ix2 n (0 : Fin 1)) k) = 1#1
  rw [hl, val_main_call1_v11_apply, val_main_call1_v7_apply, val_main_call1_v10_apply, word_val T t hT n,
    val_main_call1_v6_apply, val_main_call1_c_2_apply, val_main_call1_v9_apply, val_main_call1_v8_apply,
    val_main_call1_c_1_apply]
  have hlt : (T (ix1 n)).toNat < 2 ^ 31 := by rw [hT n]; have := (t n).isLt; omega
  have h1 : IntOp.cmpi .sge (T (ix1 n)) 0#32 = 1#1 := (sge_iff_toNat hlt (by decide)).mpr (Nat.zero_le _)
  have h2 : IntOp.cmpi .sle (T (ix1 n)) 16383#32 = 1#1 :=
    (sle_iff_toNat hlt (by decide)).mpr (by rw [hT n]; have := (t n).isLt; show (t n).val ≤ 16383; omega)
  rw [h1, h2]
  rfl

/-- The gather reads, in row n, the column the row's target word names. -/
private theorem gather_val (A C : (⟨S16384x256, .f32⟩ : BufTy).Contents (Elt Ideal))
    (T : (⟨S16384, .i32⟩ : BufTy).Contents (Elt Ideal)) (t : Fin 16384 → Fin 16384)
    (hT : ∀ n, (T (ix1 n)).toNat = (t n).val) (n : Fin 16384) :
    val_main_call1_v13 (F := Ideal) A C T (ix2 n (0 : Fin 1)) = val_main_v19 (F := Ideal) A C (ix2 n (t n)) := by
  unfold val_main_call1_v13 Host.gather
  refine congrArg (val_main_v19 (F := Ideal) A C) (funext fun c => Fin.ext ?_)
  match c with
  | ⟨0, _⟩ =>
    show GatherDims.start _ (ix2 n (0 : Fin 1)) _ 0 + GatherDims.batchCoord _ (ix2 n (0 : Fin 1)) 0
      + GatherDims.offCoord _ (ix2 n (0 : Fin 1)) 0 = n.val
    have hs : GatherDims.start gather_S16384x16384_S16384x1x1_S16384x1_n_1_0_0_1_2_11 (ix2 n (0 : Fin 1))
        (val_main_call1_v5 (F := Ideal) T) 0 = 0 := rfl
    have hb : GatherDims.batchCoord gather_S16384x16384_S16384x1x1_S16384x1_n_1_0_0_1_2_11 (ix2 n (0 : Fin 1)) 0
        = n.val := rfl
    have ho : GatherDims.offCoord gather_S16384x16384_S16384x1x1_S16384x1_n_1_0_0_1_2_11 (ix2 n (0 : Fin 1)) 0
        = 0 := rfl
    rw [hs, hb, ho]
    omega
  | ⟨1, _⟩ =>
    show GatherDims.start _ (ix2 n (0 : Fin 1)) _ 1 + GatherDims.batchCoord _ (ix2 n (0 : Fin 1)) 1
      + GatherDims.offCoord _ (ix2 n (0 : Fin 1)) 1 = (t n).val
    have hb : GatherDims.batchCoord gather_S16384x16384_S16384x1x1_S16384x1_n_1_0_0_1_2_11 (ix2 n (0 : Fin 1)) 1
        = 0 := rfl
    have ho : GatherDims.offCoord gather_S16384x16384_S16384x1x1_S16384x1_n_1_0_0_1_2_11 (ix2 n (0 : Fin 1)) 1
        = 0 := rfl
    rw [hb, ho]
    unfold GatherDims.start
    rw [dif_pos (show (1 : Fin S16384x16384.rank) ∈ gather_S16384x16384_S16384x1x1_S16384x1_n_1_0_0_1_2_11.startIndexMap
      from List.mem_singleton.mpr rfl)]
    have hsi : gather_S16384x16384_S16384x1x1_S16384x1_n_1_0_0_1_2_11.siIdx (ix2 n (0 : Fin 1))
        ⟨List.idxOf (1 : Fin S16384x16384.rank) gather_S16384x16384_S16384x1x1_S16384x1_n_1_0_0_1_2_11.startIndexMap,
          List.idxOf_lt_length_iff.2 (List.mem_singleton.mpr rfl)⟩ = ix3 n (0 : Fin 1) (0 : Fin 1) := by
      funext b; refine Fin.ext ?_
      match b with
      | ⟨0, _⟩ => rfl
      | ⟨1, _⟩ => rfl
      | ⟨2, _⟩ => rfl
    rw [hsi, word_val T t hT n]
    have hlt : (T (ix1 n)).toNat < 2 ^ 31 := by rw [hT n]; have := (t n).isLt; omega
    rw [toInt_eq_toNat_of_lt hlt, Int.toNat_natCast, hT n]
    have := (t n).isLt
    show min (t n).val (16384 - 1) + 0 + 0 = (t n).val
    omega

/-! ## The rows' losses and their mean -/

/-- The negated gathered log-softmax of row n is the row's loss. -/
private theorem neg_val (A C : (⟨S16384x256, .f32⟩ : BufTy).Contents (Elt Ideal))
    (T : (⟨S16384, .i32⟩ : BufTy).Contents (Elt Ideal)) (a cnd : Fin 16384 → Fin 256 → ℝ) (t : Fin 16384 → Fin 16384)
    (hA : ∀ n d, A (ix2 n d) = ((a n d : ℝ) : EReal)) (hC : ∀ k d, C (ix2 k d) = ((cnd k d : ℝ) : EReal))
    (hT : ∀ n, (T (ix1 n)).toNat = (t n).val) (n : Fin 16384) :
    val_main_v23 (F := Ideal) A C T (ix1 n) = ((rowLoss a cnd t n : ℝ) : EReal) := by
  rw [val_main_v23_apply, val_main_v22_apply, val_main_v21_apply]
  have hi : idx_main_v22 (ix1 n) = ix2 n (0 : Fin 1) :=
    funext fun a => Fin.ext (by
      match a with
      | ⟨0, _⟩ => show n.val / 1 = n.val; omega
      | ⟨1, _⟩ => rfl)
  rw [hi, mask_val T t hT n, select_one, gather_val A C T t hT n, lsm_val A C a cnd hA hC n (t n)]
  simp only [Ideal.hostNegf_def, Ideal.negf_def]
  rw [← EReal.coe_neg, neg_log_softmax]
  rfl

/-- A rank-1 index set of 16384 entries is its coordinate's range. -/
private def idxEquiv1 : S16384.Idx ≃ Fin 16384 where
  toFun i := i 0
  invFun n := ix1 n
  left_inv i := (eq_ix1 i).symm
  right_inv _ := rfl

/-- The reference's last stage is the mean row loss. -/
theorem ref_value (A C : (⟨S16384x256, .f32⟩ : BufTy).Contents (Elt Ideal)) (T : (⟨S16384, .i32⟩ : BufTy).Contents (Elt Ideal))
    (a cnd : Fin 16384 → Fin 256 → ℝ) (t : Fin 16384 → Fin 16384)
    (hA : ∀ n d, A (ix2 n d) = ((a n d : ℝ) : EReal)) (hC : ∀ k d, C (ix2 k d) = ((cnd k d : ℝ) : EReal))
    (hT : ∀ n, (T (ix1 n)).toNat = (t n).val) :
    val_main_v25 (F := Ideal) A C T = fun _ => ((loss a cnd t : ℝ) : EReal) := by
  funext i
  rw [val_main_v25_apply, val_main_v24_apply, val_main_cst_5_apply, val_main_cst_4_apply]
  have hs : (∑ j : S16384.Idx, val_main_v23 (F := Ideal) A C T j) = ((∑ n, rowLoss a cnd t n : ℝ) : EReal) := by
    rw [← coe_sum]
    refine Fintype.sum_equiv idxEquiv1 _ _ fun j => ?_
    conv_lhs => rw [eq_ix1 j]
    exact neg_val A C T a cnd t hA hC hT (j 0)
  simp only [Ideal.hostDivf_def, Ideal.ofBits_def]
  rw [hs, ofBits_zero, zero_add, ofBits_rows, div_rows_coe]
  rfl

end Cert.ReferenceIdeal.RefValue

end
-- ==== Proof.lean ====
/-
  The contrastive loss of a Pallas kernel against its jnp reference, over the extended reals.

  Both programs divide each row of anchors and of candidates by its Euclidean norm clamped below by a small positive
  number, score anchor n against candidate k by the inner product of the two unit rows over the temperature, take as
  the loss of row n the log-sum-exp of its 16384 scores less the score at the row's target column, and return the mean
  of the row losses. The reference builds the whole score matrix and jax's log-softmax; the kernel never does: for each
  tile of 2048 anchors it streams the candidates 512 at a time, carrying a running maximum and a running sum of
  exponentials that it rescales whenever the maximum moves, writes the maximum plus the logarithm of the sum after the
  last tile, and takes the target score from a row gather on the host. The kernel multiplies its scores by a folded
  reciprocal of the temperature, named here the exact reciprocal of the temperature the reference divides by.

  Under the precondition every entry of the two float inputs is a real number and every target names a column, so every
  intermediate value is real; the running pair after the last tile is the row's log-sum-exp (proved over the reals), and
  the reference's negated log-softmax at the target is the log-sum-exp less the target score. Both results are the same
  real number, the mean row loss.
-/
import proofs.«417422_j41145786695939_1_alg».proof.Defs
import proofs.«417422_j41145786695939_1_alg».proof.Proof.Gen.Kernel
import proofs.«417422_j41145786695939_1_alg».proof.Proof.Gen.Kernel.Frame
import proofs.«417422_j41145786695939_1_alg».proof.Proof.Gen.KernelIdeal
import proofs.«417422_j41145786695939_1_alg».proof.Proof.Gen.KernelIdeal.Frame
import proofs.«417422_j41145786695939_1_alg».proof.Proof.Gen.ReferenceIdeal
import proofs.«417422_j41145786695939_1_alg».proof.Proof.Gen.Pre_finite_inputs
import proofs.«417422_j41145786695939_1_alg».proof.Proof.PreDecode
import proofs.«417422_j41145786695939_1_alg».proof.Proof.KernelRun
import proofs.«417422_j41145786695939_1_alg».proof.Proof.KernelTail
import proofs.«417422_j41145786695939_1_alg».proof.Proof.RefRun
import proofs.«417422_j41145786695939_1_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx
open Cert.Contrastive

/-! ## The frames -/

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-! ## The one rewrite of the idealization -/

/-- The kernel's folded reciprocal of the temperature is named the exact reciprocal of the value of the temperature's
    word, 2^27 / 9395241, and the printed constant is that value at the ideal instance. -/
theorem preserves : Cert.preserves_Kernel_KernelIdeal :=
  IdealRules.named_const.statement Cert.KernelIdeal.κ "inv_temperature" .f32 0x41649249#32 ((134217728 / 9395241 : ℝ) : EReal) rfl

/-! ## The kernel program's run with its result named -/

section KernelRun

open Cert.KernelIdeal Cert.KernelIdeal.Gen

/-- From a memory whose float arguments hold the reals `a`, `cnd` and whose targets name the columns `t`: the
    program terminates with its result at the mean row loss and its arguments unchanged. The result is the host
    tail's value over the region's column of row log-sum-exps; the arguments are read off the frame run's post. -/
theorem kernel_run (m : (ℓ : Loc nD τ sig) → Buf (Elt Ideal) ℓ) (ρ : Dev nD → PrngReg)
    (a cnd : Dev nD → Fin 16384 → Fin 256 → ℝ) (t : Dev nD → Fin 16384 → Fin 16384)
    (hA : ∀ (c : Dev nD) n d, m ((c.tc : Thread nD τ).loc main_arg0) (ix2 n d) = ((a c n d : ℝ) : EReal))
    (hC : ∀ (c : Dev nD) k d, m ((c.tc : Thread nD τ).loc main_arg1) (ix2 k d) = ((cnd c k d : ℝ) : EReal))
    (hT : ∀ (c : Dev nD) n, (m ((c.tc : Thread nD τ).loc main_arg2) (ix1 n)).toNat = (t c n).val) :
    θ_run (defs (F := Ideal)) (onTc (τ := τ) (main (F := Ideal))) ⟨m, fun _ => 0, ρ⟩ (fun r => ∀ c : Dev nD,
      r.2.mem ((c.tc : Thread nD τ).loc main_v31) = (fun _ => ((loss (a c) (cnd c) (t c) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v31 (Pipeline.mem_restRefs_of main_v31 (by decide) (by decide))).trans
        (Cert.KernelIdeal.TailValue.tail_value m c (a c) (cnd c) (t c) (hA c) (hC c) (hT c)
          (fun n => Cert.KernelIdeal.RunValue.lse_array m c (a c) (cnd c) (hA c) (hC c) n)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end KernelRun

/-! ## Equal results -/

/-- Under the precondition both programs end with the mean row loss of the same real arrays. -/
theorem algebraic : Cert.algebraic_KernelIdeal_ReferenceIdeal := by
  intro m ρ m' ρ' hpre hagree
  have hdec := fun c => Cert.PreDecode.decode _ _ _ (hpre c)
  -- the real arrays behind the two float arguments, and the columns the targets name
  let a : Dev Cert.KernelIdeal.nD → Fin 16384 → Fin 256 → ℝ := fun c n d => Classical.choose ((hdec c).1 (ix2 n d))
  let cnd : Dev Cert.KernelIdeal.nD → Fin 16384 → Fin 256 → ℝ := fun c k d => Classical.choose ((hdec c).2.1 (ix2 k d))
  let t : Dev Cert.KernelIdeal.nD → Fin 16384 → Fin 16384 := fun c n => ⟨_, (hdec c).2.2 (ix1 n)⟩
  have hA : ∀ (c : Dev Cert.KernelIdeal.nD) n d, m ((c.tc : Thread Cert.KernelIdeal.nD Cert.KernelIdeal.τ).loc Cert.KernelIdeal.main_arg0) (ix2 n d) = ((a c n d : ℝ) : EReal) :=
    fun c n d => Classical.choose_spec ((hdec c).1 (ix2 n d))
  have hC : ∀ (c : Dev Cert.KernelIdeal.nD) k d, m ((c.tc : Thread Cert.KernelIdeal.nD Cert.KernelIdeal.τ).loc Cert.KernelIdeal.main_arg1) (ix2 k d) = ((cnd c k d : ℝ) : EReal) :=
    fun c k d => Classical.choose_spec ((hdec c).2.1 (ix2 k d))
  have hT : ∀ (c : Dev Cert.KernelIdeal.nD) n, (m ((c.tc : Thread Cert.KernelIdeal.nD Cert.KernelIdeal.τ).loc Cert.KernelIdeal.main_arg2) (ix1 n)).toNat = (t c n).val :=
    fun _ _ => rfl
  refine ⟨fun c => (fun _ => ((loss (a c) (cnd c) (t c) : ℝ) : EReal)), kernel_run m ρ a cnd t hA hC hT, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2]
  exact Cert.ReferenceIdeal.RefValue.ref_value _ _ _ (a c) (cnd c) (t c) (hA c) (hC c) (hT c)

/-! ## The claim -/

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
